-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S1048576 : Shape := ⟨1, ![1048576]⟩
abbrev S8192x8192 : Shape := ⟨2, ![8192, 8192]⟩
abbrev S16x1048576 : Shape := ⟨2, ![16, 1048576]⟩
abbrev S8192 : Shape := ⟨1, ![8192]⟩
abbrev S1 : Shape := ⟨1, ![1]⟩
abbrev S2x1048576 : Shape := ⟨2, ![2, 1048576]⟩
abbrev S_ : Shape := ⟨0, ![]⟩
abbrev S1x1048576 : Shape := ⟨2, ![1, 1048576]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S8192x8192 : S_.BroadcastsInDim S8192x8192 (![] : Fin 0 → Fin S8192x8192.rank)
  reducesTo_S8192x8192_S_d0_1 : S8192x8192.ReducesTo [0, 1] S_
  bcast_S_S16x1048576 : S_.BroadcastsInDim S16x1048576 (![] : Fin 0 → Fin S16x1048576.rank)
  reducesTo_S16x1048576_S_d0_1 : S16x1048576.ReducesTo [0, 1] S_
  bcast_S_S8192 : S_.BroadcastsInDim S8192 (![] : Fin 0 → Fin S8192.rank)
  reducesTo_S8192_S_d0 : S8192.ReducesTo [0] S_
  bcast_S_S1 : S_.BroadcastsInDim S1 (![] : Fin 0 → Fin S1.rank)
  reducesTo_S1_S_d0 : S1.ReducesTo [0] S_
  slices_S2x1048576_S1x1048576_0_0 : S2x1048576.Slices ![0, 0] S1x1048576
  shapeCasts_S1x1048576_S1048576 : S1x1048576.ShapeCasts S1048576

variable [Facts]

def fn_part3 {F : FTy → Type} [FloatOps F] (main_arg9 : IVec S1048576 32) (main_v49 : IVec S_ 1) (main_v51 : IVec S1048576 1) : IVec S_ 1 :=
  let main_c_18 : IVec S_ 32 := constantI S_ 32 16#32
  let main_v52 : IVec S1048576 32 := broadcastInDim S1048576 ![] bcast_S_S1048576 main_c_18
  let main_v53 : IVec S1048576 1 := cmpi .slt main_arg9 main_v52
  let main_v54 : IVec S1048576 1 := andi main_v51 main_v53
  let main_c_19 : IVec S_ 1 := constantI S_ 1 1#1
  let main_v55 : IVec S_ 1 := (fun x v => Host.reduce IntOp.andi x v reducesTo_S1048576_S_d0 h_S_) main_v54 main_c_19
  let main_v56 : IVec S_ 1 := andi main_v49 main_v55
  main_v56

def fn_part2 {F : FTy → Type} [FloatOps F] (main_arg7 : FVec F S1 .f32) (main_arg8 : IVec S2x1048576 32) (main_arg9 : IVec S1048576 32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : IVec S1x1048576 32 := (extractStridedSlice S1x1048576 ![0, 0] · slices_S2x1048576_S1x1048576_0_0) main_arg8
  let main_v40 : IVec S1048576 32 := shapeCast S1048576 main_v39 shapeCasts_S1x1048576_S1048576
  let main_c_14 : IVec S_ 32 := constantI S_ 32 0#32
  let main_v41 : IVec S1048576 32 := broadcastInDim S1048576 ![] bcast_S_S1048576 main_c_14
  let main_v42 : IVec S1048576 1 := cmpi .sge main_v40 main_v41
  let main_v43 : IVec S1x1048576 32 := (extractStridedSlice S1x1048576 ![0, 0] · slices_S2x1048576_S1x1048576_0_0) main_arg8
  let main_v44 : IVec S1048576 32 := shapeCast S1048576 main_v43 shapeCasts_S1x1048576_S1048576
  let main_c_15 : IVec S_ 32 := constantI S_ 32 8192#32
  let main_v45 : IVec S1048576 32 := broadcastInDim S1048576 ![] bcast_S_S1048576 main_c_15
  let main_v46 : IVec S1048576 1 := cmpi .slt main_v44 main_v45
  let main_v47 : IVec S1048576 1 := andi main_v42 main_v46
  let main_c_16 : IVec S_ 1 := constantI S_ 1 1#1
  let main_v48 : IVec S_ 1 := (fun x v => Host.reduce IntOp.andi x v reducesTo_S1048576_S_d0 h_S_) main_v47 main_c_16
  let main_v49 : IVec S_ 1 := andi main_v38 main_v48
  let main_c_17 : IVec S_ 32 := constantI S_ 32 0#32
  let main_v50 : IVec S1048576 32 := broadcastInDim S1048576 ![] bcast_S_S1048576 main_c_17
  let main_v51 : IVec S1048576 1 := cmpi .sge main_arg9 main_v50
  fn_part3 (F := F) main_arg9 main_v49 main_v51

def fn_part1 {F : FTy → Type} [FloatOps F] (main_arg4 : FVec F S8192 .f32) (main_arg5 : FVec F S32x8192 .f32) (main_arg6 : FVec F S8192 .f32) (main_arg7 : FVec F S1 .f32) (main_arg8 : IVec S2x1048576 32) (main_arg9 : IVec S1048576 32) (main_v13 : IVec S_ 1) (main_v16 : IVec S16x1048576 1) : IVec S_ 1 :=
  let main_c_5 : IVec S_ 1 := constantI S_ 1 1#1
  let main_v17 : IVec S_ 1 := (fun x v => Host.reduce IntOp.andi x v reducesTo_S16x1048576_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S32x8192 .f32 := Host.absf main_arg5
  let main_cst_8 : FVec F S_ .f32 := constant S_ .f32 0x7F800000#32
  let main_v25 : FVec F S32x8192 .f32 := broadcastInDim S32x8192 ![] bcast_S_S32x8192 main_cst_8
  let main_v26 : IVec S32x8192 1 := cmpf .olt main_v24 main_v25
  let main_c_9 : IVec S_ 1 := constantI S_ 1 1#1
  let main_v27 : IVec S_ 1 := (fun x v => Host.reduce IntOp.andi x v reducesTo_S32x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_arg8 main_arg9 main_v33

def fn {F : FTy → Type} [FloatOps F] (main_arg0 : FVec F S32x8192 .f32) (main_arg1 : FVec F S1048576 .f32) (main_arg2 : FVec F S8192x8192 .f32) (main_arg3 : FVec F S16x1048576 .f32) (main_arg4 : FVec F S8192 .f32) (main_arg5 : FVec F S32x8192 .f32) (main_arg6 : FVec F S8192 .f32) (main_arg7 : FVec F S1 .f32) (main_arg8 : IVec S2x1048576 32) (main_arg9 : IVec S1048576 32) (main_arg10 : IVec S8192 32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S1048576 .f32 := Host.absf main_arg1
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S16x1048576 .f32 := Host.absf main_arg3
  let main_cst_4 : FVec F S_ .f32 := constant S_ .f32 0x7F800000#32
  let main_v15 : FVec F S16x1048576 .f32 := broadcastInDim S16x1048576 ![] bcast_S_S16x1048576 main_cst_4
  let main_v16 : IVec S16x1048576 1 := cmpf .olt main_v14 main_v15
  fn_part1 (F := F) main_arg4 main_arg5 main_arg6 main_arg7 main_arg8 main_arg9 main_v13 main_v16
-- ==== Kernel.lean ====
abbrev S32x8192 : Shape := ⟨2, ![32, 8192]⟩
abbrev S1048576 : Shape := ⟨1, ![1048576]⟩
abbrev S8192x8192 : Shape := ⟨2, ![8192, 8192]⟩
abbrev S16x1048576 : Shape := ⟨2, ![16, 1048576]⟩
abbrev S8192 : Shape := ⟨1, ![8192]⟩
abbrev S1 : Shape := ⟨1, ![1]⟩
abbrev S2x1048576 : Shape := ⟨2, ![2, 1048576]⟩
abbrev S1x1048576 : Shape := ⟨2, ![1, 1048576]⟩
abbrev S_ : Shape := ⟨0, ![]⟩
abbrev S1048576x1 : Shape := ⟨2, ![1048576, 1]⟩
abbrev S1048576x2 : Shape := ⟨2, ![1048576, 2]⟩
abbrev S8192x256 : Shape := ⟨2, ![8192, 256]⟩
abbrev S32x256 : Shape := ⟨2, ![32, 256]⟩
abbrev S16x8192 : Shape := ⟨2, ![16, 8192]⟩
abbrev S1x8192 : Shape := ⟨2, ![1, 8192]⟩
abbrev S1x8192x1 : Shape := ⟨3, ![1, 8192, 1]⟩
abbrev S1x1x1 : Shape := ⟨3, ![1, 1, 1]⟩
abbrev S64x128 : Shape := ⟨2, ![64, 128]⟩
abbrev S64 : Shape := ⟨1, ![64]⟩
abbrev S256x8192 : Shape := ⟨2, ![256, 8192]⟩
abbrev S1x256 : Shape := ⟨2, ![1, 256]⟩

abbrev nBuf : Space → Nat
  | .hbm => 97
  | .vmem => 18
  | .smem => 0
  | _ => 0

abbrev bufTy : (tb : Table) → Fin (tcTables nBuf tb) → BufTy
  | .hbm, ⟨0, _⟩ => ⟨S32x8192, .f32⟩
  | .hbm, ⟨1, _⟩ => ⟨S1048576, .f32⟩
  | .hbm, ⟨2, _⟩ => ⟨S8192x8192, .f32⟩
  | .hbm, ⟨3, _⟩ => ⟨S16x1048576, .f32⟩
  | .hbm, ⟨4, _⟩ => ⟨S8192, .f32⟩
  | .hbm, ⟨5, _⟩ => ⟨S32x8192, .f32⟩
  | .hbm, ⟨6, _⟩ => ⟨S8192, .f32⟩
  | .hbm, ⟨7, _⟩ => ⟨S1, .f32⟩
  | .hbm, ⟨8, _⟩ => ⟨S2x1048576, .i32⟩
  | .hbm, ⟨9, _⟩ => ⟨S1048576, .i32⟩
  | .hbm, ⟨10, _⟩ => ⟨S8192, .i32⟩
  | .hbm, ⟨11, _⟩ => ⟨S1x1048576, .i32⟩
  | .hbm, ⟨12, _⟩ => ⟨S1048576, .i32⟩
  | .hbm, ⟨13, _⟩ => ⟨S1x1048576, .i32⟩
  | .hbm, ⟨14, _⟩ => ⟨S1048576, .i32⟩
  | .hbm, ⟨15, _⟩ => ⟨S_, .f32⟩
  | .hbm, ⟨16, _⟩ => ⟨S8192x8192, .f32⟩
  | .hbm, ⟨17, _⟩ => ⟨S_, .i32⟩
  | .hbm, ⟨18, _⟩ => ⟨S1048576, .i32⟩
  | .hbm, ⟨19, _⟩ => ⟨S1048576, .i1⟩
  | .hbm, ⟨20, _⟩ => ⟨S_, .i32⟩
  | .hbm, ⟨21, _⟩ => ⟨S1048576, .i32⟩
  | .hbm, ⟨22, _⟩ => ⟨S1048576, .i32⟩
  | .hbm, ⟨23, _⟩ => ⟨S1048576, .i32⟩
  | .hbm, ⟨24, _⟩ => ⟨S_, .i32⟩
  | .hbm, ⟨25, _⟩ => ⟨S1048576, .i32⟩
  | .hbm, ⟨26, _⟩ => ⟨S1048576, .i1⟩
  | .hbm, ⟨27, _⟩ => ⟨S_, .i32⟩
  | .hbm, ⟨28, _⟩ => ⟨S1048576, .i32⟩
  | .hbm, ⟨29, _⟩ => ⟨S1048576, .i32⟩
  | .hbm, ⟨30, _⟩ => ⟨S1048576, .i32⟩
  | .hbm, ⟨31, _⟩ => ⟨S1048576x1, .i32⟩
  | .hbm, ⟨32, _⟩ => ⟨S1048576x1, .i32⟩
  | .hbm, ⟨33, _⟩ => ⟨S1048576x2, .i32⟩
  | .hbm, ⟨34, _⟩ => ⟨S8192x8192, .f32⟩
  | .hbm, ⟨35, _⟩ => ⟨S32x8192, .f32⟩
  | .hbm, ⟨36, _⟩ => ⟨S_, .f32⟩
  | .hbm, ⟨37, _⟩ => ⟨S32x8192, .f32⟩
  | .hbm, ⟨38, _⟩ => ⟨S32x8192, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192, .i32⟩
  | .hbm, ⟨45, _⟩ => ⟨S16x8192, .f32⟩
  | .hbm, ⟨46, _⟩ => ⟨S1x8192, .i32⟩
  | .hbm, ⟨47, _⟩ => ⟨S_, .i32⟩
  | .hbm, ⟨48, _⟩ => ⟨S1x8192, .i32⟩
  | .hbm, ⟨49, _⟩ => ⟨S1x8192, .i1⟩
  | .hbm, ⟨50, _⟩ => ⟨S_, .i32⟩
  | .hbm, ⟨51, _⟩ => ⟨S1x8192, .i32⟩
  | .hbm, ⟨52, _⟩ => ⟨S1x8192, .i32⟩
  | .hbm, ⟨53, _⟩ => ⟨S1x8192, .i32⟩
  | .hbm, ⟨54, _⟩ => ⟨S1x8192x1, .i32⟩
  | .hbm, ⟨55, _⟩ => ⟨S1, .i32⟩
  | .hbm, ⟨56, _⟩ => ⟨S_, .i32⟩
  | .hbm, ⟨57, _⟩ => ⟨S1x8192x1, .i32⟩
  | .hbm, ⟨58, _⟩ => ⟨S1x8192x1, .i1⟩
  | .hbm, ⟨59, _⟩ => ⟨S1x1x1, .i32⟩
  | .hbm, ⟨60, _⟩ => ⟨S1x8192x1, .i32⟩
  | .hbm, ⟨61, _⟩ => ⟨S1x8192x1, .i1⟩
  | .hbm, ⟨62, _⟩ => ⟨S1x8192x1, .i1⟩
  | .hbm, ⟨63, _⟩ => ⟨S_, .i1⟩
  | .hbm, ⟨64, _⟩ => ⟨S1x8192, .i1⟩
  | .hbm, ⟨65, _⟩ => ⟨S1x8192, .f32⟩
  | .hbm, ⟨66, _⟩ => ⟨S_, .f32⟩
  | .hbm, ⟨67, _⟩ => ⟨S1x8192, .f32⟩
  | .hbm, ⟨68, _⟩ => ⟨S1x8192, .f32⟩
  | .hbm, ⟨69, _⟩ => ⟨S8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S8192, .f32⟩
  | .hbm, ⟨76, _⟩ => ⟨S8192, .f32⟩
  | .hbm, ⟨77, _⟩ => ⟨S8192, .f32⟩
  | .hbm, ⟨78, _⟩ => ⟨S8192, .f32⟩
  | .hbm, ⟨79, _⟩ => ⟨S64x128, .f32⟩
  | .hbm, ⟨80, _⟩ => ⟨S_, .f32⟩
  | .hbm, ⟨81, _⟩ => ⟨S64, .f32⟩
  | .hbm, ⟨82, _⟩ => ⟨S64x128, .f32⟩
  | .hbm, ⟨83, _⟩ => ⟨S8192, .f32⟩
  | .hbm, ⟨84, _⟩ => ⟨S8192, .f32⟩
  | .hbm, ⟨85, _⟩ => ⟨S_, .f32⟩
  | .hbm, ⟨86, _⟩ => ⟨S8192, .f32⟩
  | .hbm, ⟨87, _⟩ => ⟨S8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S1x8192, .f32⟩
  | .hbm, ⟨94, _⟩ => ⟨S1x8192, .f32⟩
  | .hbm, ⟨95, _⟩ => ⟨S1x8192, .f32⟩
  | .hbm, ⟨96, _⟩ => ⟨S32x8192, .f32⟩
  | .local _ .vmem, ⟨0, _⟩ => ⟨S32x8192, .f32⟩
  | .local _ .vmem, ⟨1, _⟩ => ⟨S8192x256, .f32⟩
  | .local _ .vmem, ⟨2, _⟩ => ⟨S8192x256, .f32⟩
  | .local _ .vmem, ⟨3, _⟩ => ⟨S32x256, .f32⟩
  | .local _ .vmem, ⟨4, _⟩ => ⟨S32x256, .f32⟩
  | .local _ .vmem, ⟨5, _⟩ => ⟨S32x8192, .f32⟩
  | .local _ .vmem, ⟨6, _⟩ => ⟨S256x8192, .f32⟩
  | .local _ .vmem, ⟨7, _⟩ => ⟨S256x8192, .f32⟩
  | .local _ .vmem, ⟨8, _⟩ => ⟨S32x256, .f32⟩
  | .local _ .vmem, ⟨9, _⟩ => ⟨S32x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S32x256, .f32⟩
  | .local _ .vmem, ⟨17, _⟩ => ⟨S32x256, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_cst : Ref sig .tc := ⟨.hbm, 66, rfl⟩
abbrev main_call0_v14 : Ref sig .tc := ⟨.hbm, 67, rfl⟩
abbrev main_v29 : Ref sig .tc := ⟨.hbm, 68, rfl⟩
abbrev main_v30 : Ref sig .tc := ⟨.hbm, 69, rfl⟩
abbrev main_cst_5 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_6 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_cst_7 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_8 : Ref sig .tc := ⟨.hbm, 85, rfl⟩
abbrev main_v43 : Ref sig .tc := ⟨.hbm, 86, rfl⟩
abbrev main_v44 : Ref sig .tc := ⟨.hbm, 87, rfl⟩
abbrev main_cst_9 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S32x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S32x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S8192x8192 : S_.BroadcastsInDim S8192x8192 (![] : Fin 0 → Fin S8192x8192.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  inb_S32x8192_S32x8192_0_0 : ∀ a, (![0, 0] : Fin 2 → Nat) a + S32x8192.size a ≤ S32x8192.size a
  h_S32x8192 : 0 < S32x8192.numel
  bitsLt_bf16_f32 : FTy.bits .bf16 < FTy.bits .f32
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  inb_S32x256_S32x256_0_0 : ∀ a, (![0, 0] : Fin 2 → Nat) a + S32x256.size a ≤ S32x256.size a
  h_S32x256 : 0 < S32x256.numel
  shapeCasts_S1_S_ : S1.ShapeCasts S_
  bcast_S_S32x8192 : S_.BroadcastsInDim S32x8192 (![] : Fin 0 → Fin S32x8192.rank)
  reducesTo_S32x8192_S8192_d0 : S32x8192.ReducesTo [0] S8192
  h_S_ : 0 < S_.numel
  bcast_S_S8192 : S_.BroadcastsInDim S8192 (![] : Fin 0 → Fin S8192.rank)
  slices_S1048576_S8192_0 : S1048576.Slices ![0] S8192
  slices_S16x1048576_S16x8192_0_0 : S16x1048576.Slices ![0, 0] S16x8192
  bcast_S8192_S1x8192_1 : S8192.BroadcastsInDim S1x8192 (![1] : Fin 1 → Fin S1x8192.rank)
  bcast_S_S1x8192 : S_.BroadcastsInDim S1x8192 (![] : Fin 0 → Fin S1x8192.rank)
  shapeCasts_S1x8192_S1x8192x1 : S1x8192.ShapeCasts S1x8192x1
  bcast_S_S1x8192x1 : S_.BroadcastsInDim S1x8192x1 (![] : Fin 0 → Fin S1x8192x1.rank)
  bcast_S1_S1x1x1_2 : S1.BroadcastsInDim S1x1x1 (![2] : Fin 1 → Fin S1x1x1.rank)
  bcast_S1x1x1_S1x8192x1_0_1_2 : S1x1x1.BroadcastsInDim S1x8192x1 (![0, 1, 2] : Fin 3 → Fin S1x8192x1.rank)
  reducesTo_S1x8192x1_S1x8192_d2 : S1x8192x1.ReducesTo [2] S1x8192
  shapeCasts_S1x8192_S8192 : S1x8192.ShapeCasts S8192
  shapeCasts_S8192_S64x128 : S8192.ShapeCasts S64x128
  reducesTo_S64x128_S64_d1 : S64x128.ReducesTo [1] S64
  bcast_S64_S64x128_0 : S64.BroadcastsInDim S64x128 (![0] : Fin 1 → Fin S64x128.rank)
  shapeCasts_S64x128_S8192 : S64x128.ShapeCasts S8192
  shapeCasts_S8192_S1x8192 : S8192.ShapeCasts S1x8192
  shapeCasts_S32x8192_S32x8192 : S32x8192.ShapeCasts S32x8192
  inb_S256x8192_S256x8192_0_0 : ∀ a, (![0, 0] : Fin 2 → Nat) a + S256x8192.size a ≤ S256x8192.size a
  h_S256x8192 : 0 < S256x8192.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  scatter_S8192x8192_S1048576x2_S1048576_n_01_01_1_wf : ScatterDims.WF S8192x8192 S1048576x2 S1048576 [] [0, 1] [0, 1] 1
  dot_S32x8192_S8192x256_S32x256_1_0_0_1_n_n_wf : DotDims.WF S32x8192 S8192x256 S32x256 [1] [0] [0] [1] [] []
  gather_S16x8192_S1x8192x1_S1x8192_n_0_1_1_0_2_11_wf : GatherDims.WF S16x8192 S1x8192x1 S1x8192 [] [0] [1] [0] [1] 2 ![1, 1]
  dot_S32x8192_S256x8192_S32x256_1_1_0_0_n_n_wf : DotDims.WF S32x8192 S256x8192 S32x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .f32 = 32 ∨ (Rect.block (s := S32x8192) S32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x8192.size a
  hwx0_1 : ∀ i : grid0.Coords, EltTy.bits .f32 = 32 ∨ (Rect.block (s := S8192x8192) S8192x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x8192.size a
  hwx0_2 : ∀ i : grid0.Coords, EltTy.bits .f32 = 32 ∨ (Rect.block (s := S32x8192) S32x256.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x8192.size a ≤ S32x8192.size a
  hwx1_0 : ∀ i : grid1.Coords, EltTy.bits .f32 = 32 ∨ (Rect.block (s := S32x8192) S32x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .f32 = 32 ∨ (Rect.block (s := S8192x8192) S256x8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256.size a ≤ S32x8192.size a
  hwx1_2 : ∀ i : grid1.Coords, EltTy.bits .f32 = 32 ∨ (Rect.block (s := S32x8192) S32x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x8192.size a
  hwx1_3 : ∀ i : grid1.Coords, EltTy.bits .f32 = 32 ∨ (Rect.block (s := S1x8192) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x8192.size a
  hwx1_4 : ∀ i : grid1.Coords, EltTy.bits .f32 = 32 ∨ (Rect.block (s := S1x8192) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x8192.size a
  hwx1_5 : ∀ i : grid1.Coords, EltTy.bits .f32 = 32 ∨ (Rect.block (s := S1x8192) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S32x256.size a ≤ S32x8192.size a
  hwx1_6 : ∀ i : grid1.Coords, EltTy.bits .f32 = 32 ∨ (Rect.block (s := S32x8192) S32x256.size (cc1_transform_6 i) (hinb1_6 i)).WholeWords (EltTy.packing .f32)

variable [Facts₀]

def scatter_S8192x8192_S1048576x2_S1048576_n_01_01_1 : ScatterDims S8192x8192 S1048576x2 S1048576 where
  updateWindowDims := []
  insertedWindowDims := [0, 1]
  scatterDimsToOperandDims := [0, 1]
  indexVectorDim := 1
  wf := scatter_S8192x8192_S1048576x2_S1048576_n_01_01_1_wf
def dot_S32x8192_S8192x256_S32x256_1_0_0_1_n_n : DotDims S32x8192 S8192x256 S32x256 where
  lhsContracting := [1]
  rhsContracting := [0]
  lhsNonContracting := [0]
  rhsNonContracting := [1]
  lhsBatch := []
  rhsBatch := []
  wf := dot_S32x8192_S8192x256_S32x256_1_0_0_1_n_n_wf
def gather_S16x8192_S1x8192x1_S1x8192_n_0_1_1_0_2_11 : GatherDims S16x8192 S1x8192x1 S1x8192 where
  offsetDims := []
  collapsedSliceDims := [0]
  operandBatchingDims := [1]
  startIndicesBatchingDims := [1]
  startIndexMap := [0]
  indexVectorDim := 2
  sliceSizes := ![1, 1]
  wf := gather_S16x8192_S1x8192x1_S1x8192_n_0_1_1_0_2_11_wf
def dot_S32x8192_S256x8192_S32x256_1_1_0_0_n_n : DotDims S32x8192 S256x8192 S32x256 where
  lhsContracting := [1]
  rhsContracting := [1]
  lhsNonContracting := [0]
  rhsNonContracting := [0]
  lhsBatch := []
  rhsBatch := []
  wf := dot_S32x8192_S256x8192_S32x256_1_1_0_0_n_n_wf

abbrev win0_0 : Pipeline.Window sig grid0 :=
  Pipeline.Window.ofSpec (Memref.whole main_arg0) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S32x8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v52) S32x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x8192 : Shape := ⟨2, ![32, 8192]⟩
abbrev S1048576 : Shape := ⟨1, ![1048576]⟩
abbrev S8192x8192 : Shape := ⟨2, ![8192, 8192]⟩
abbrev S16x1048576 : Shape := ⟨2, ![16, 1048576]⟩
abbrev S8192 : Shape := ⟨1, ![8192]⟩
abbrev S1 : Shape := ⟨1, ![1]⟩
abbrev S2x1048576 : Shape := ⟨2, ![2, 1048576]⟩
abbrev S1x1048576 : Shape := ⟨2, ![1, 1048576]⟩
abbrev S_ : Shape := ⟨0, ![]⟩
abbrev S1048576x1 : Shape := ⟨2, ![1048576, 1]⟩
abbrev S1048576x2 : Shape := ⟨2, ![1048576, 2]⟩
abbrev S32x1048576 : Shape := ⟨2, ![32, 1048576]⟩
abbrev S1x1 : Shape := ⟨2, ![1, 1]⟩
abbrev S1x8192 : Shape := ⟨2, ![1, 8192]⟩
abbrev S64x128 : Shape := ⟨2, ![64, 128]⟩
abbrev S64 : Shape := ⟨1, ![64]⟩

abbrev nBuf : Space → Nat
  | .hbm => 130
  | .vmem => 0
  | .smem => 0
  | _ => 0

abbrev hbmTy0_0 (i : Nat) : BufTy := match i % 128 with
  | 0 => ⟨S32x8192, .f32⟩
  | 1 => ⟨S1048576, .f32⟩
  | 2 => ⟨S8192x8192, .f32⟩
  | 3 => ⟨S16x1048576, .f32⟩
  | 4 => ⟨S8192, .f32⟩
  | 5 => ⟨S32x8192, .f32⟩
  | 6 => ⟨S8192, .f32⟩
  | 7 => ⟨S1, .f32⟩
  | 8 => ⟨S2x1048576, .i32⟩
  | 9 => ⟨S1048576, .i32⟩
  | 10 => ⟨S8192, .i32⟩
  | 11 => ⟨S1x1048576, .i32⟩
  | 12 => ⟨S1048576, .i32⟩
  | 13 => ⟨S1x1048576, .i32⟩
  | 14 => ⟨S1048576, .i32⟩
  | 15 => ⟨S_, .f32⟩
  | 16 => ⟨S1048576, .f32⟩
  | 17 => ⟨S_, .f32⟩
  | 18 => ⟨S8192, .f32⟩
  | 19 => ⟨S_, .f32⟩
  | 20 => ⟨S8192, .f32⟩
  | 21 => ⟨S8192, .f32⟩
  | 22 => ⟨S_, .i32⟩
  | 23 => ⟨S1, .i32⟩
  | 24 => ⟨S1048576, .f32⟩
  | 25 => ⟨S_, .f32⟩
  | 26 => ⟨S1048576, .f32⟩
  | 27 => ⟨S_, .i32⟩
  | 28 => ⟨S1, .i32⟩
  | 29 => ⟨S1048576, .f32⟩
  | 30 => ⟨S1048576, .i32⟩
  | 31 => ⟨S_, .i32⟩
  | 32 => ⟨S1048576, .i32⟩
  | 33 => ⟨S1048576, .i1⟩
  | 34 => ⟨S_, .i32⟩
  | 35 => ⟨S1048576, .i32⟩
  | 36 => ⟨S1048576, .i32⟩
  | 37 => ⟨S1048576, .i32⟩
  | 38 => ⟨S_, .i32⟩
  | 39 => ⟨S1048576, .i32⟩
  | 40 => ⟨S1048576, .i1⟩
  | 41 => ⟨S_, .i32⟩
  | 42 => ⟨S1048576, .i32⟩
  | 43 => ⟨S1048576, .i32⟩
  | 44 => ⟨S1048576, .i32⟩
  | 45 => ⟨S1048576x1, .i32⟩
  | 46 => ⟨S1048576x1, .i32⟩
  | 47 => ⟨S1048576x2, .i32⟩
  | 48 => ⟨S1048576, .f32⟩
  | 49 => ⟨S_, .f32⟩
  | 50 => ⟨S1048576, .f32⟩
  | 51 => ⟨S1048576, .f32⟩
  | 52 => ⟨S1048576, .f32⟩
  | 53 => ⟨S_, .f32⟩
  | 54 => ⟨S1048576, .f32⟩
  | 55 => ⟨S1048576, .f32⟩
  | 56 => ⟨S1048576, .f32⟩
  | 57 => ⟨S1048576, .f32⟩
  | 58 => ⟨S8192, .f32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i32⟩
  | 65 => ⟨S1048576, .i32⟩
  | 66 => ⟨S1048576x1, .i32⟩
  | 67 => ⟨S32x1048576, .f32⟩
  | 68 => ⟨S1x1048576, .f32⟩
  | 69 => ⟨S32x1048576, .f32⟩
  | 70 => ⟨S32x1048576, .f32⟩
  | 71 => ⟨S_, .f32⟩
  | 72 => ⟨S32x8192, .f32⟩
  | 73 => ⟨S_, .i32⟩
  | 74 => ⟨S1048576, .i32⟩
  | 75 => ⟨S1048576, .i1⟩
  | 76 => ⟨S_, .i32⟩
  | 77 => ⟨S1048576, .i32⟩
  | 78 => ⟨S1048576, .i32⟩
  | 79 => ⟨S1048576, .i32⟩
  | 80 => ⟨S1048576x1, .i32⟩
  | 81 => ⟨S32x8192, .f32⟩
  | 82 => ⟨S1x1, .f32⟩
  | 83 => ⟨S32x8192, .f32⟩
  | 84 => ⟨S32x8192, .f32⟩
  | 85 => ⟨S8192x8192, .f32⟩
  | 86 => ⟨S32x8192, .f32⟩
  | 87 => ⟨S1x8192, .f32⟩
  | 88 => ⟨S_, .f32⟩
  | 89 => ⟨S1x8192, .f32⟩
  | 90 => ⟨S1x8192, .f32⟩
  | 91 => ⟨S32x8192, .f32⟩
  | 92 => ⟨S32x8192, .f32⟩
  | 93 => ⟨S8192, .f32⟩
  | 94 => ⟨S1x8192, .f32⟩
  | 95 => ⟨S32x8192, .f32⟩
  | 96 => ⟨S32x8192, .f32⟩
  | 97 => ⟨S64x128, .f32⟩
  | 98 => ⟨S_, .f32⟩
  | 99 => ⟨S64, .f32⟩
  | 100 => ⟨S64x128, .f32⟩
  | 101 => ⟨S8192, .f32⟩
  | 102 => ⟨S8192, .f32⟩
  | 103 => ⟨S_, .f32⟩
  | 104 => ⟨S8192, .f32⟩
  | 105 => ⟨S8192, .f32⟩
  | 106 => ⟨S_, .f32⟩
  | 107 => ⟨S32x8192, .f32⟩
  | 108 => ⟨S32x8192, .f32⟩
  | 109 => ⟨S32x8192, .f32⟩
  | 110 => ⟨S1x8192, .f32⟩
  | 111 => ⟨S32x8192, .f32⟩
  | 112 => ⟨S32x8192, .f32⟩
  | 113 => ⟨S_, .f32⟩
  | 114 => ⟨S8192, .f32⟩
  | 115 => ⟨S8192, .f32⟩
  | 116 => ⟨S1x8192, .f32⟩
  | 117 => ⟨S32x8192, .f32⟩
  | 118 => ⟨S32x8192, .f32⟩
  | 119 => ⟨S_, .f32⟩
  | 120 => ⟨S32x8192, .f32⟩
  | 121 => ⟨S32x8192, .f32⟩
  | 122 => ⟨S32x8192, .f32⟩
  | 123 => ⟨S32x8192, .f32⟩
  | 124 => ⟨S_, .f32⟩
  | 125 => ⟨S32x8192, .f32⟩
  | 126 => ⟨S32x8192, .f32⟩
  | 127 => ⟨S_, .f32⟩
  | _ => ⟨S32x8192, .f32⟩

abbrev hbmTy0_1 (i : Nat) : BufTy := match i % 128 with
  | 0 => ⟨S32x8192, .f32⟩
  | 1 => ⟨S32x8192, .f32⟩
  | _ => ⟨S32x8192, .f32⟩

abbrev hbmTy (i : Nat) : BufTy := match i / 128 with
  | 0 => hbmTy0_0 i
  | 1 => hbmTy0_1 i
  | _ => ⟨S32x8192, .f32⟩

abbrev bufTy : (tb : Table) → Fin (tcTables nBuf tb) → BufTy
  | .hbm, ⟨i, _⟩ => hbmTy i
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_4 : Ref sig .tc := ⟨.hbm, 31, rfl⟩
abbrev main_v14 : Ref sig .tc := ⟨.hbm, 32, rfl⟩
abbrev main_v15 : Ref sig .tc := ⟨.hbm, 33, rfl⟩
abbrev main_c_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_6 : Ref sig .tc := ⟨.hbm, 38, rfl⟩
abbrev main_v19 : Ref sig .tc := ⟨.hbm, 39, rfl⟩
abbrev main_v20 : Ref sig .tc := ⟨.hbm, 40, rfl⟩
abbrev main_c_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_10 : Ref sig .tc := ⟨.hbm, 59, rfl⟩
abbrev main_v36 : Ref sig .tc := ⟨.hbm, 60, rfl⟩
abbrev main_v37 : Ref sig .tc := ⟨.hbm, 61, rfl⟩
abbrev main_c_11 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_c_13 : Ref sig .tc := ⟨.hbm, 73, rfl⟩
abbrev main_v47 : Ref sig .tc := ⟨.hbm, 74, rfl⟩
abbrev main_v48 : Ref sig .tc := ⟨.hbm, 75, rfl⟩
abbrev main_c_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_17 : Ref sig .tc := ⟨.hbm, 103, rfl⟩
abbrev main_v73 : Ref sig .tc := ⟨.hbm, 104, rfl⟩
abbrev main_v74 : Ref sig .tc := ⟨.hbm, 105, rfl⟩
abbrev main_cst_18 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_19 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_20 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_21 : Ref sig .tc := ⟨.hbm, 124, rfl⟩
abbrev main_v90 : Ref sig .tc := ⟨.hbm, 125, rfl⟩
abbrev main_v91 : Ref sig .tc := ⟨.hbm, 126, rfl⟩
abbrev main_cst_22 : Ref sig .tc := ⟨.hbm, 127, rfl⟩
abbrev main_v92 : Ref sig .tc := ⟨.hbm, 128, rfl⟩
abbrev main_v93 : Ref sig .tc := ⟨.hbm, 129, rfl⟩

abbrev nD : Nat := 1
abbrev τ : Topo := Topo.v7x

variable {F : FTy → Type} [FloatOps F]

class Facts₀ : Prop where
  slices_S2x1048576_S1x1048576_0_0 : S2x1048576.Slices ![0, 0] S1x1048576
  shapeCasts_S1x1048576_S1048576 : S1x1048576.ShapeCasts S1048576
  slices_S2x1048576_S1x1048576_1_0 : S2x1048576.Slices ![1, 0] S1x1048576
  bcast_S_S1048576 : S_.BroadcastsInDim S1048576 (![] : Fin 0 → Fin S1048576.rank)
  reducesTo_S32x8192_S8192_d0 : S32x8192.ReducesTo [0] S8192
  h_S_ : 0 < S_.numel
  bcast_S_S8192 : S_.BroadcastsInDim S8192 (![] : Fin 0 → Fin S8192.rank)
  bcast_S_S1 : S_.BroadcastsInDim S1 (![] : Fin 0 → Fin S1.rank)
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  slices_S1048576_S8192_0 : S1048576.Slices ![0] S8192
  bcast_S1048576_S1x1048576_1 : S1048576.BroadcastsInDim S1x1048576 (![1] : Fin 1 → Fin S1x1048576.rank)
  bcast_S1x1048576_S32x1048576_0_1 : S1x1048576.BroadcastsInDim S32x1048576 (![0, 1] : Fin 2 → Fin S32x1048576.rank)
  bcast_S_S32x8192 : S_.BroadcastsInDim S32x8192 (![] : Fin 0 → Fin S32x8192.rank)
  bcast_S1_S1x1_1 : S1.BroadcastsInDim S1x1 (![1] : Fin 1 → Fin S1x1.rank)
  bcast_S1x1_S32x8192_0_1 : S1x1.BroadcastsInDim S32x8192 (![0, 1] : Fin 2 → Fin S32x8192.rank)
  transposes_S8192x8192_S8192x8192_1_0 : S8192x8192.Transposes [1, 0] S8192x8192
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S1x8192_S32x8192_0_1 : S1x8192.BroadcastsInDim S32x8192 (![0, 1] : Fin 2 → Fin S32x8192.rank)
  shapeCasts_S8192_S64x128 : S8192.ShapeCasts S64x128
  reducesTo_S64x128_S64_d1 : S64x128.ReducesTo [1] S64
  bcast_S64_S64x128_0 : S64.BroadcastsInDim S64x128 (![0] : Fin 1 → Fin S64x128.rank)
  shapeCasts_S64x128_S8192 : S64x128.ShapeCasts S8192
  scatter_S1048576_S1_S8192_0_n_0_0_wf : ScatterDims.WF S1048576 S1 S8192 [0] [] [0] 0
  gather_S16x1048576_S1048576x2_S1048576_n_01_n_n_01_1_11_wf : GatherDims.WF S16x1048576 S1048576x2 S1048576 [] [0, 1] [] [0, 1] [] 1 ![1, 1]
  gather_S32x8192_S1048576x1_S32x1048576_0_1_n_n_1_1_321_wf : GatherDims.WF S32x8192 S1048576x1 S32x1048576 [0] [1] [] [1] [] 1 ![32, 1]
  scatter_S32x8192_S1048576x1_S32x1048576_0_1_1_1_wf : ScatterDims.WF S32x8192 S1048576x1 S32x1048576 [0] [1] [1] 1
  dot_S32x8192_S8192x8192_S32x8192_1_0_0_1_n_n_wf : DotDims.WF S32x8192 S8192x8192 S32x8192 [1] [0] [0] [1] [] []

variable [Facts₀]

def scatter_S1048576_S1_S8192_0_n_0_0 : ScatterDims S1048576 S1 S8192 where
  updateWindowDims := [0]
  insertedWindowDims := []
  scatterDimsToOperandDims := [0]
  indexVectorDim := 0
  wf := scatter_S1048576_S1_S8192_0_n_0_0_wf
def gather_S16x1048576_S1048576x2_S1048576_n_01_n_n_01_1_11 : GatherDims S16x1048576 S1048576x2 S1048576 where
  offsetDims := []
  collapsedSliceDims := [0, 1]
  operandBatchingDims := []
  startIndicesBatchingDims := []
  startIndexMap := [0, 1]
  indexVectorDim := 1
  sliceSizes := ![1, 1]
  wf := gather_S16x1048576_S1048576x2_S1048576_n_01_n_n_01_1_11_wf
def gather_S32x8192_S1048576x1_S32x1048576_0_1_n_n_1_1_321 : GatherDims S32x8192 S1048576x1 S32x1048576 where
  offsetDims := [0]
  collapsedSliceDims := [1]
  operandBatchingDims := []
  startIndicesBatchingDims := []
  startIndexMap := [1]
  indexVectorDim := 1
  sliceSizes := ![32, 1]
  wf := gather_S32x8192_S1048576x1_S32x1048576_0_1_n_n_1_1_321_wf
def scatter_S32x8192_S1048576x1_S32x1048576_0_1_1_1 : ScatterDims S32x8192 S1048576x1 S32x1048576 where
  updateWindowDims := [0]
  insertedWindowDims := [1]
  scatterDimsToOperandDims := [1]
  indexVectorDim := 1
  wf := scatter_S32x8192_S1048576x1_S32x1048576_0_1_1_1_wf
def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf

class Facts : Prop extends Facts₀ where

variable [Facts]
-- ==== Proof.Spec.lean ====
/-
  The mathematics both programs compute, index by index, on the extended reals.

  One step of a spiking layer. With x the input currents (32 × 8192), w the weights of 1048576 edges, each edge
  going from a source neuron to a destination neuron, the synaptic drive of neuron k in batch row b is the sum over
  the edges that END at k of x[b, source] · weight, gated by one scalar. It is then sent through a dense matrix,
  modulated by a plasticity term (a delayed trace and the batch mean of x, both times the previous spikes), masked,
  leaked into the membrane, inhibited by the other neurons of its group of 128, and passed through a logistic.

  The two arrangements: one program sums edge by edge at the destination (`synEdge`); the other first adds the
  weights of the edges from j to k into a matrix entry S[j, k] and then takes the product of x with S (`synMat`).
  They agree when every number is finite (a product distributes over a finite sum of reals) and every source
  index names a neuron. The threshold is subtracted once as (inhibition + 1) + θ and once in two steps; again
  equal on the reals.
-/
import Idealize.ShloMosaic.PureOps.Ideal
import Idealize.ShloMosaic.Lib.ValueIdx

noncomputable section

open scoped BigOperators

namespace Cert.Spec

open Idealize.ShloMosaic Idealize.ShloMosaic.ValueIdx

abbrev SBN : Shape := ⟨2, ![32, 8192]⟩
abbrev SE : Shape := ⟨1, ![1048576]⟩
abbrev SNN : Shape := ⟨2, ![8192, 8192]⟩
abbrev SDE : Shape := ⟨2, ![16, 1048576]⟩
abbrev SN : Shape := ⟨1, ![8192]⟩
abbrev SOne : Shape := ⟨1, ![1]⟩
abbrev S2E : Shape := ⟨2, ![2, 1048576]⟩

/-! ## The float words both programs carry -/

abbrev cZero : EReal := Ideal.ofBits .f32 0x00000000#32
abbrev cBatch : EReal := Ideal.ofBits .f32 0x42000000#32   -- 32
abbrev cPlus : EReal := Ideal.ofBits .f32 0x3C23D70A#32    -- the potentiation amplitude
abbrev cMinus : EReal := Ideal.ofBits .f32 0x3C449BA6#32   -- the depression amplitude
abbrev cHalf : EReal := Ideal.ofBits .f32 0x3F000000#32
abbrev cOne : EReal := Ideal.ofBits .f32 0x3F800000#32
abbrev cTenth : EReal := Ideal.ofBits .f32 0x3DCCCCCD#32
abbrev cLeak : EReal := Ideal.ofBits .f32 0x3F666666#32
abbrev cSlope : EReal := Ideal.ofBits .f32 0x41200000#32

/-! ## Index words -/

/-- A negative index word counts from the end of an axis of extent `N`. -/
def wrapW (N v : BitVec 32) : BitVec 32 := Scalar.select (IntOp.cmpi .slt v 0#32) (IntOp.addi v N) v

/-- Neuron `n` as a position among the 1048576 edge slots. -/
def up (n : Fin 8192) : Fin 1048576 := ⟨n.val, by have := n.isLt; omega⟩

/-- Position `j` of group `g` (64 groups of 128 neurons). -/
def inGroup (g : Fin 64) (j : Fin 128) : Fin 8192 := ⟨g.val * 128 + j.val, by have := g.isLt; have := j.isLt; omega⟩

/-- The group of neuron `n`. -/
def groupOf (n : Fin 8192) : Fin 64 := ⟨n.val / 128, by have := n.isLt; omega⟩

section
variable (x mem : SBN.Idx → EReal) (w : SE.Idx → EReal) (Wm : SNN.Idx → EReal) (db : SDE.Idx → EReal)
  (ps th : SN.Idx → EReal) (gs : SOne.Idx → EReal) (nm : IVec SN 32)
  -- each edge's source neuron, each slot's delay, and each edge's destination word (wrapped) read signed
  (srcF : Fin 1048576 → Fin 8192) (dlF : Fin 1048576 → Fin 16) (dstI : Fin 1048576 → ℤ)

/-- The batch mean of the input currents at neuron `n`. -/
def xmean (n : Fin 8192) : EReal := Ideal.div (cZero + ∑ b : Fin 32, x (ix2 b n)) cBatch

/-- The delayed trace at neuron `n`: the delay buffer's row chosen by slot `n`'s delay. -/
def delayed (n : Fin 8192) : EReal := db (ix2 (dlF (up n)) (up n))

/-- The plasticity term. -/
def stdp (n : Fin 8192) : EReal :=
  (cPlus * delayed db dlF n) * ps (ix1 n) - (cMinus * xmean x n) * ps (ix1 n)

/-- The previous spikes summed over group `g`. -/
def gsum (g : Fin 64) : EReal := cZero + ∑ j : Fin 128, ps (ix1 (inGroup g j))

/-- Lateral inhibition: half of what the rest of the group spiked. -/
def inh (n : Fin 8192) : EReal := cHalf * (gsum ps (groupOf n) - ps (ix1 n))

/-- The structural mask as a number. -/
def maskf (n : Fin 8192) : EReal := (((nm (ix1 n)).toInt : ℝ) : EReal)

/-- The summed weight of the edges from `j` to `k`. -/
def S (j k : Fin 8192) : EReal :=
  cZero + ∑ e ∈ Finset.univ.filter (fun e : Fin 1048576 => ((srcF e).val : ℤ) = (j.val : ℤ) ∧ dstI e = (k.val : ℤ)), w (ix1 e)

/-- The synaptic drive as the product of x with the edge-weight matrix. -/
def synMat (b : Fin 32) (k : Fin 8192) : EReal := ∑ j : Fin 8192, x (ix2 b j) * S w srcF dstI j k

/-- The synaptic drive summed edge by edge at the destination. -/
def synEdge (b : Fin 32) (k : Fin 8192) : EReal :=
  cZero + ∑ e ∈ Finset.univ.filter (fun e : Fin 1048576 => dstI e = (k.val : ℤ)), x (ix2 b (srcF e)) * w (ix1 e)

variable (syn : Fin 32 → Fin 8192 → EReal)

/-- The gated drive through the dense matrix: entry (b, n) contracts the drive with row `n` of the matrix. -/
def isyn (b : Fin 32) (n : Fin 8192) : EReal := ∑ k : Fin 8192, (syn b k * gs (ix1 0)) * Wm (ix2 n k)

/-- Leaked membrane plus the modulated, masked current. -/
def act (b : Fin 32) (n : Fin 8192) : EReal :=
  cLeak * mem (ix2 b n) + (isyn Wm gs syn b n + cTenth * stdp x db ps dlF n) * maskf nm n

/-- The logistic's argument with the threshold (inhibition + 1) + θ subtracted at once. -/
def zOnce (b : Fin 32) (n : Fin 8192) : EReal :=
  cSlope * (act x mem Wm db ps gs nm dlF syn b n - ((inh ps n + cOne) + th (ix1 n)))

/-- The logistic's argument with the inhibition and then 1 + θ subtracted. -/
def zTwice (b : Fin 32) (n : Fin 8192) : EReal :=
  cSlope * ((act x mem Wm db ps gs nm dlF syn b n - inh ps n) - (cOne + th (ix1 n)))

/-- What the kernel's program leaves at (b, n). -/
def outK (b : Fin 32) (n : Fin 8192) : EReal :=
  Ideal.logistic (zOnce x mem Wm db ps th gs nm dlF (synMat x w srcF dstI) b n)

/-- What the reference leaves at (b, n): the logistic spelled as 1 / (1 + e^(−z)). -/
def outR (b : Fin 32) (n : Fin 8192) : EReal :=
  Ideal.div cOne (cOne + Ideal.exp (-(zTwice x mem Wm db ps th gs nm dlF (synEdge x w srcF dstI) b n)))

end

end Cert.Spec

end
-- ==== Proof.KNames.lean ====
/-
  The kernel program's arrays, each named at its literal type: the arguments as launched, and the buffers the two
  matrix-product regions read and write, at the boundaries where they are read (definitions, so that a statement
  about one is used by name and the operations behind it stay folded).
-/
import proofs.«405189_j65369402245526_2_alg».proof.Proof.Gen.KernelIdeal.Frame
import proofs.«405189_j65369402245526_2_alg».proof.Proof.Spec

set_option maxRecDepth 16384

noncomputable section

namespace Cert.KernelIdeal.KV

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! ## The arguments as launched -/
abbrev a0 (c : Dev nD) : S32x8192.Idx → EReal := m ((c : Thread nD τ).loc main_arg0)
abbrev a1 (c : Dev nD) : S1048576.Idx → EReal := m ((c : Thread nD τ).loc main_arg1)
abbrev a2 (c : Dev nD) : S8192x8192.Idx → EReal := m ((c : Thread nD τ).loc main_arg2)
abbrev a3 (c : Dev nD) : S16x1048576.Idx → EReal := m ((c : Thread nD τ).loc main_arg3)
abbrev a4 (c : Dev nD) : S8192.Idx → EReal := m ((c : Thread nD τ).loc main_arg4)
abbrev a5 (c : Dev nD) : S32x8192.Idx → EReal := m ((c : Thread nD τ).loc main_arg5)
abbrev a6 (c : Dev nD) : S8192.Idx → EReal := m ((c : Thread nD τ).loc main_arg6)
abbrev a7 (c : Dev nD) : S1.Idx → EReal := m ((c : Thread nD τ).loc main_arg7)
abbrev a8 (c : Dev nD) : S2x1048576.Idx → BitVec 32 := m ((c : Thread nD τ).loc main_arg8)
abbrev a9 (c : Dev nD) : S1048576.Idx → BitVec 32 := m ((c : Thread nD τ).loc main_arg9)
abbrev a10 (c : Dev nD) : S8192.Idx → BitVec 32 := m ((c : Thread nD τ).loc main_arg10)

/-! ## At the first region's entry (after the first stretch of host operations) -/
/-- the input currents as the first region finds them -/
def x1 (c : Dev nD) : S32x8192.Idx → EReal := W1 (F := Ideal) m ρ c (Proc.devRef .tc main_arg0)
/-- the edge-weight matrix the scatter built -/
def s1 (c : Dev nD) : S8192x8192.Idx → EReal := W1 (F := Ideal) m ρ c (Proc.devRef .tc main_v18)

/-! ## At the first region's exit -/
/-- the product the first region wrote -/
def syn2 (c : Dev nD) : S32x8192.Idx → EReal := W2 (F := Ideal) m ρ c (Proc.devRef .tc main_v19)

/-! ## At the second region's entry (after the three stretches between the regions) -/
def syn5 (c : Dev nD) : S32x8192.Idx → EReal := W5 (F := Ideal) m ρ c (Proc.devRef .tc main_v22)
def w5 (c : Dev nD) : S8192x8192.Idx → EReal := W5 (F := Ideal) m ρ c (Proc.devRef .tc main_arg2)
def mem5 (c : Dev nD) : S32x8192.Idx → EReal := W5 (F := Ideal) m ρ c (Proc.devRef .tc main_arg5)
def stdp5 (c : Dev nD) : S1x8192.Idx → EReal := W5 (F := Ideal) m ρ c (Proc.devRef .tc main_v49)
def mask5 (c : Dev nD) : S1x8192.Idx → EReal := W5 (F := Ideal) m ρ c (Proc.devRef .tc main_v50)
def thr5 (c : Dev nD) : S1x8192.Idx → EReal := W5 (F := Ideal) m ρ c (Proc.devRef .tc main_v51)

/-! ## At the second region's exit -/
/-- the program's result -/
def out6 (c : Dev nD) : S32x8192.Idx → EReal := W6 (F := Ideal) m ρ c (Proc.devRef .tc main_v52)

end Cert.KernelIdeal.KV

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.IndexScatter.lean ====
/-
  Scatters of a host program read at one index, on the extended reals. An update lands on an element when, on each
  axis, its window start (the index word read signed, on an axis the index names; zero elsewhere) plus its window
  coordinate (its own coordinate on a kept axis; zero on an inserted one) is the element's coordinate; updates that
  land outside the array are dropped.
-/
import Idealize.ShloMosaic.PureOps.Ideal
import Idealize.ShloMosaic.PureOps.Contract
import Idealize.ShloMosaic.Lib.ValueIdx
import Idealize.ShloMosaic.Lib.ValueIdxRank1
import proofs.«405189_j65369402245526_2_alg».proof.Proof.LibSegmentSum

set_option maxRecDepth 16384

noncomputable section

open scoped BigOperators

namespace Cert.IndexScatter

open Idealize.ShloMosaic Idealize.ShloMosaic.ValueIdx

/-! ## Scalars at index pairs -/

section Pt2

variable {N K M w : Nat} (d : ScatterDims ⟨2, ![N, K]⟩ ⟨2, ![M, 2]⟩ ⟨1, ![M]⟩)

/-- On each operand axis the window's start is the update's index word for that axis, read signed. -/
theorem start_pt2 (hsd : d.scatterDimsToOperandDims = [0, 1]) (hiv : d.indexVectorDim = 1)
    (idx : IVec ⟨2, ![M, 2]⟩ w) (e : Fin M) (a : Fin 2) :
    d.start (ix1 e) idx a = (idx (ix2 e a)).toInt := by
  have hm : a ∈ d.scatterDimsToOperandDims := by rw [hsd]; fin_cases a <;> simp
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis a in the map, which is a
    unfold ScatterDims.siIdx
    rw [dif_pos (by rw [hiv])]
    apply Fin.ext
    show List.idxOf a d.scatterDimsToOperandDims = a.val
    rw [hsd]; fin_cases a <;> simp

/-- Both operand axes are inserted: the update has no coordinate inside the window. -/
theorem window_pt2 (hiw : d.insertedWindowDims = [0, 1]) (j : (⟨1, ![M]⟩ : Shape).Idx) (a : Fin 2) : d.window j a = 0 := by
  unfold ScatterDims.window
  rw [dif_neg]
  rw [ScatterDims.sKept, hiw]
  fin_cases a <;> simp [Shape.kept, List.mem_filter]

/-- An update lands on (j, k) exactly when its two index words, read signed, are j and k. -/
theorem resultIdx_pt2 (hiw : d.insertedWindowDims = [0, 1]) (hsd : d.scatterDimsToOperandDims = [0, 1]) (hiv : d.indexVectorDim = 1)
    (idx : IVec ⟨2, ![M, 2]⟩ w) (e : Fin M) (j : Fin N) (k : Fin K) :
    d.resultIdx? (ix1 e) idx = some (ix2 j k)
      ↔ ((idx (ix2 e 0)).toInt = (j.val : ℤ) ∧ (idx (ix2 e 1)).toInt = (k.val : ℤ)) := by
  have hs0 := start_pt2 d hsd hiv idx e 0
  have hs1 := start_pt2 d hsd hiv idx e 1
  have hw0 := window_pt2 d hiw (ix1 e) 0
  have hw1 := window_pt2 d hiw (ix1 e) 1
  have hj := j.isLt
  have hk := k.isLt
  constructor
  · intro h
    unfold ScatterDims.resultIdx? at h
    split at h
    · rename_i hall
      have hf := Option.some.inj h
      have h0 := congrArg Fin.val (congrFun hf 0)
      have h1 := congrArg Fin.val (congrFun hf 1)
      have hb0 := hall 0
      have hb1 := hall 1
      rw [hs0, hw0] at hb0
      rw [hs1, hw1] at hb1
      change (d.start (ix1 e) idx 0 + (d.window (ix1 e) 0 : ℤ)).toNat = j.val at h0
      change (d.start (ix1 e) idx 1 + (d.window (ix1 e) 1 : ℤ)).toNat = k.val at h1
      rw [hs0, hw0] at h0
      rw [hs1, hw1] at h1
      exact ⟨by omega, by omega⟩
    · cases h
  · rintro ⟨h0, h1⟩
    have hall : ∀ a, 0 ≤ d.start (ix1 e) idx a + d.window (ix1 e) a ∧
        d.start (ix1 e) idx a + d.window (ix1 e) a < (⟨2, ![N, K]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (idx (ix2 e 1)).toInt + ((0 : ℕ) : ℤ) ∧ (idx (ix2 e 1)).toInt + ((0 : ℕ) : ℤ) < (K : ℤ)
        omega
    unfold ScatterDims.resultIdx?
    rw [dif_pos hall]
    congr 1
    funext a
    apply Fin.ext
    revert a
    refine Fin.forall_fin_two.mpr ⟨?_, ?_⟩
    · change (d.start (ix1 e) idx 0 + (d.window (ix1 e) 0 : ℤ)).toNat = j.val
      rw [hs0, hw0]
      omega
    · change (d.start (ix1 e) idx 1 + (d.window (ix1 e) 1 : ℤ)).toNat = k.val
      rw [hs1, hw1]
      omega

end Pt2

/-- A scatter-add of scalars at index pairs: entry (j, k) gains the updates whose two index words, read signed, are j and k. -/
theorem scatterAdd_pt2 {N K M w : Nat} (d : ScatterDims ⟨2, ![N, K]⟩ ⟨2, ![M, 2]⟩ ⟨1, ![M]⟩)
    (huw : d.updateWindowDims = []) (hiw : d.insertedWindowDims = [0, 1]) (hsd : d.scatterDimsToOperandDims = [0, 1]) (hiv : d.indexVectorDim = 1)
    (x : (⟨2, ![N, K]⟩ : Shape).Idx → EReal) (idx : IVec ⟨2, ![M, 2]⟩ w) (upd : (⟨1, ![M]⟩ : Shape).Idx → EReal) (j : Fin N) (k : Fin K) :
    Host.scatterAdd (F := Ideal) (φ := .f32) d x idx upd (ix2 j k)
      = x (ix2 j k) + ∑ e ∈ Finset.univ.filter (fun e : Fin M => (idx (ix2 e 0)).toInt = (j.val : ℤ) ∧ (idx (ix2 e 1)).toInt = (k.val : ℤ)), upd (ix1 e) := by
  change x (ix2 j k) + ∑ u ∈ Finset.univ.filter (fun u => d.resultIdx? u idx = some (ix2 j k)), upd u = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix2 j k) then upd (ix1 e) else 0) = _
  simp only [resultIdx_pt2 d hiw hsd hiv idx e j k]

/-! ## Columns -/

section Cols

variable {B N M w : Nat} (d : ScatterDims ⟨2, ![B, N]⟩ ⟨2, ![M, 1]⟩ ⟨2, ![B, M]⟩)

/-- The row axis is not named by the index: its window starts at zero. -/
theorem start_cols0 (hsd : d.scatterDimsToOperandDims = [1]) (idx : IVec ⟨2, ![M, 1]⟩ w) (u : (⟨2, ![B, M]⟩ : Shape).Idx) :
    d.start u idx 0 = 0 := by
  unfold ScatterDims.start
  rw [dif_neg (by rw [hsd]; simp)]

/-- On the column axis the window's start is the update column's index word, read signed. -/
theorem start_cols1 (huw : d.updateWindowDims = [0]) (hsd : d.scatterDimsToOperandDims = [1]) (hiv : d.indexVectorDim = 1)
    (idx : IVec ⟨2, ![M, 1]⟩ w) (b' : Fin B) (e : Fin M) :
    d.start (ix2 b' e) idx 1 = (idx (ix2 e 0)).toInt := by
  have hm : (1 : Fin 2) ∈ d.scatterDimsToOperandDims := by rw [hsd]; exact List.mem_singleton.mpr rfl
  -- the updates' one scatter axis is axis 1
  have hus : d.uScatter = [(1 : Fin 2)] := by
    change (⟨2, ![B, M]⟩ : Shape).kept d.updateWindowDims = [1]
    rw [huw]; rfl
  unfold ScatterDims.start
  rw [dif_pos hm]
  congr 2
  funext c
  match c with
  | ⟨0, _⟩ =>
    -- the row of the index table: the update's column
    unfold ScatterDims.siIdx
    rw [dif_neg (by rw [hiv]; simp)]
    unfold ScatterDims.siCoord
    apply Fin.ext
    simp only [Fin.val_cast]
    have col : ∀ X : Fin 2, X = 1 → ((ix2 b' e : (⟨2, ![B, M]⟩ : Shape).Idx) X).val = e.val := by
      rintro _ rfl; rfl
    exact col _ (Cert.LibSegmentSum.getElem_of_eq_singleton hus _ _)
  | ⟨1, _⟩ =>
    -- the column of the index table: the position of operand axis 1 in the map, which is 0
    unfold ScatterDims.siIdx
    rw [dif_pos (by rw [hiv])]
    apply Fin.ext
    show List.idxOf (1 : Fin 2) d.scatterDimsToOperandDims = 0
    rw [hsd]; simp

/-- On the row axis the window coordinate is the update's row. -/
theorem window_cols0 (huw : d.updateWindowDims = [0]) (hiw : d.insertedWindowDims = [1]) (b' : Fin B) (e : Fin M) :
    d.window (ix2 b' e) 0 = b'.val := by
  have hk : (0 : Fin 2) ∈ d.sKept := by
    rw [ScatterDims.sKept, hiw]
    simp [Shape.kept, List.mem_filter]
  unfold ScatterDims.window
  rw [dif_pos hk]
  have row : ∀ X : Fin 2, X = 0 → ((ix2 b' e : (⟨2, ![B, M]⟩ : Shape).Idx) X).val = b'.val := by
    rintro _ rfl; rfl
  exact row _ (Cert.LibSegmentSum.getElem_of_eq_singleton huw _ _)

/-- The column axis is inserted: the update has no coordinate inside the window there. -/
theorem window_cols1 (hiw : d.insertedWindowDims = [1]) (u : (⟨2, ![B, M]⟩ : Shape).Idx) : d.window u 1 = 0 := by
  unfold ScatterDims.window
  rw [dif_neg]
  rw [ScatterDims.sKept, hiw]
  simp [Shape.kept, List.mem_filter]

/-- An update element (b', e) lands on (b, n) exactly when its row is b and its column's index word, read signed, is n. -/
theorem resultIdx_cols (huw : d.updateWindowDims = [0]) (hiw : d.insertedWindowDims = [1]) (hsd : d.scatterDimsToOperandDims = [1])
    (hiv : d.indexVectorDim = 1) (idx : IVec ⟨2, ![M, 1]⟩ w) (b' : Fin B) (e : Fin M) (b : Fin B) (n : Fin N) :
    d.resultIdx? (ix2 b' e) idx = some (ix2 b n) ↔ (b' = b ∧ (idx (ix2 e 0)).toInt = (n.val : ℤ)) := by
  have hs0 := start_cols0 d hsd idx (ix2 b' e)
  have hs1 := start_cols1 d huw hsd hiv idx b' e
  have hw0 := window_cols0 d huw hiw b' e
  have hw1 := window_cols1 d hiw (ix2 b' e)
  have hb := b.isLt
  have hb' := b'.isLt
  have hn := n.isLt
  constructor
  · intro h
    unfold ScatterDims.resultIdx? at h
    split at h
    · rename_i hall
      have hf := Option.some.inj h
      have h0 := congrArg Fin.val (congrFun hf 0)
      have h1 := congrArg Fin.val (congrFun hf 1)
      have hb1 := hall 1
      rw [hs1, hw1] at hb1
      change (d.start (ix2 b' e) idx 0 + (d.window (ix2 b' e) 0 : ℤ)).toNat = b.val at h0
      change (d.start (ix2 b' e) idx 1 + (d.window (ix2 b' e) 1 : ℤ)).toNat = n.val at h1
      rw [hs0, hw0] at h0
      rw [hs1, hw1] at h1
      exact ⟨Fin.ext (by omega), by omega⟩
    · cases h
  · rintro ⟨rfl, h⟩
    have hall : ∀ a, 0 ≤ d.start (ix2 b' e) idx a + d.window (ix2 b' e) a ∧
        d.start (ix2 b' e) idx a + d.window (ix2 b' e) a < (⟨2, ![B, N]⟩ : Shape).size a := by
      refine Fin.forall_fin_two.mpr ⟨?_, ?_⟩
      · rw [hs0, hw0]
        change 0 ≤ (0 : ℤ) + ((b'.val : ℕ) : ℤ) ∧ (0 : ℤ) + ((b'.val : ℕ) : ℤ) < (B : ℤ)
        omega
      · rw [hs1, hw1]
        change 0 ≤ (idx (ix2 e 0)).toInt + ((0 : ℕ) : ℤ) ∧ (idx (ix2 e 0)).toInt + ((0 : ℕ) : ℤ) < (N : ℤ)
        omega
    unfold ScatterDims.resultIdx?
    rw [dif_pos hall]
    congr 1
    funext a
    apply Fin.ext
    revert a
    refine Fin.forall_fin_two.mpr ⟨?_, ?_⟩
    · change (d.start (ix2 b' e) idx 0 + (d.window (ix2 b' e) 0 : ℤ)).toNat = b'.val
      rw [hs0, hw0]
      omega
    · change (d.start (ix2 b' e) idx 1 + (d.window (ix2 b' e) 1 : ℤ)).toNat = n.val
      rw [hs1, hw1]
      omega

end Cols

/-- A scatter-add of columns: entry (b, n) gains, from each update column whose index word read signed is n, its row b. -/
theorem scatterAdd_cols {B N M w : Nat} (d : ScatterDims ⟨2, ![B, N]⟩ ⟨2, ![M, 1]⟩ ⟨2, ![B, M]⟩)
    (huw : d.updateWindowDims = [0]) (hiw : d.insertedWindowDims = [1]) (hsd : d.scatterDimsToOperandDims = [1]) (hiv : d.indexVectorDim = 1)
    (x : (⟨2, ![B, N]⟩ : Shape).Idx → EReal) (idx : IVec ⟨2, ![M, 1]⟩ w) (upd : (⟨2, ![B, M]⟩ : Shape).Idx → EReal) (b : Fin B) (n : Fin N) :
    Host.scatterAdd (F := Ideal) (φ := .f32) d x idx upd (ix2 b n)
      = x (ix2 b n) + ∑ e ∈ Finset.univ.filter (fun e : Fin M => (idx (ix2 e 0)).toInt = (n.val : ℤ)), upd (ix2 b e) := by
  change x (ix2 b n) + ∑ u ∈ Finset.univ.filter (fun u => d.resultIdx? u idx = some (ix2 b n)), upd u = _
  congr 1
  -- a sum over the update indices is the double sum over (row, column); only row b can land on row b
  rw [Finset.sum_filter, Finset.sum_filter, sum_idx2]
  simp only [resultIdx_cols d huw hiw hsd hiv idx]
  rw [Finset.sum_eq_single b]
  · refine Finset.sum_congr rfl fun e _ => ?_
    simp
  · intro b' _ hb'
    refine Finset.sum_eq_zero fun e _ => ?_
    rw [if_neg]
    exact fun h => hb' h.1
  · intro h
    exact absurd (Finset.mem_univ b) h

/-! ## Overwriting a prefix -/

section Fold

variable {ι κ α : Type} (g : κ → Option ι) (v : κ → α) (step : (ι → α) → κ → ι → α)

/-- Folding a step that rewrites only the landing element of each item leaves an element no listed item lands on unchanged. -/
theorem foldl_untouched
    (hmiss : ∀ r n i i', g n = some i → i' ≠ i → step r n i' = r i')
    (hnone : ∀ r n, g n = none → step r n = r) (i : ι) :
    ∀ (l : List κ) (x : ι → α), (∀ n ∈ l, g n ≠ some i) → l.foldl step x i = x i
  | [], _, _ => rfl
  | a :: t, x, h => by
    rw [List.foldl_cons,
      foldl_untouched hmiss hnone i t (step x a) (fun n hn => h n (List.mem_cons_of_mem _ hn))]
    have ha := h a (List.mem_cons.mpr (Or.inl rfl))
    cases hg : g a with
    | none => rw [hnone x a hg]
    | some i0 =>
      refine hmiss x a i0 i hg fun hi => ha ?_
      rw [hg, hi]

/-- Folding a step that overwrites the landing element of each item with that item's value: an element on which
    exactly one listed item lands ends holding that item's value. -/
theorem foldl_hit
    (hhit : ∀ r n i, g n = some i → step r n i = v n)
    (hmiss : ∀ r n i i', g n = some i → i' ≠ i → step r n i' = r i')
    (hnone : ∀ r n, g n = none → step r n = r) (i : ι) (k : κ) (hk : g k = some i) :
    ∀ (l : List κ) (x : ι → α), k ∈ l → (∀ n ∈ l, g n = some i → n = k) → l.foldl step x i = v k
  | [], _, hmem, _ => absurd hmem List.not_mem_nil
  | a :: t, x, hmem, huniq => by
    rw [List.foldl_cons]
    by_cases hkt : k ∈ t
    · exact foldl_hit hhit hmiss hnone i k hk t (step x a) hkt (fun n hn => huniq n (List.mem_cons_of_mem _ hn))
    · -- the item is the head and nothing after it lands on the element
      have hka : k = a := by
        rcases List.mem_cons.mp hmem with h | h
        · exact h
        · exact absurd h hkt
      subst hka
      rw [foldl_untouched g step hmiss hnone i t (step x k)
        (fun n hn hgn => hkt (by rw [← huniq n (List.mem_cons_of_mem _ hn) hgn]; exact hn))]
      exact hhit x k i hk

end Fold

section Prefix

variable {E N w : Nat} (d : ScatterDims ⟨1, ![E]⟩ ⟨1, ![1]⟩ ⟨1, ![N]⟩)

/-- The window's start on the one operand axis is the one index word, read signed. -/
theorem start_prefix (hsd : d.scatterDimsToOperandDims = [0]) (hiv : d.indexVectorDim = 0)
    (idx : IVec ⟨1, ![1]⟩ w) (u : (⟨1, ![N]⟩ : Shape).Idx) :
    d.start u idx 0 = (idx (ix1 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the index table's one axis is the index vector's: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is kept: the window coordinate is the update's own coordinate. -/
theorem window_prefix (hiw : d.insertedWindowDims = []) (u : (⟨1, ![N]⟩ : Shape).Idx) :
    d.window u 0 = (u 0).val := by
  have hk : (0 : Fin 1) ∈ d.sKept := by
    rw [ScatterDims.sKept, hiw]
    simp [Shape.kept, List.mem_filter]
  unfold ScatterDims.window
  rw [dif_pos hk]
  have one : ∀ X : Fin 1, (u X).val = (u 0).val := fun X => by
    obtain rfl : X = 0 := Subsingleton.elim _ _
    rfl
  exact one _

/-- With the index word 0, update element n lands on element n. -/
theorem resultIdx_prefix (hiw : d.insertedWindowDims = []) (hsd : d.scatterDimsToOperandDims = [0]) (hiv : d.indexVectorDim = 0)
    (hNE : N ≤ E) (idx : IVec ⟨1, ![1]⟩ w) (hidx : (idx (ix1 0)).toInt = 0) (u : (⟨1, ![N]⟩ : Shape).Idx) :
    d.resultIdx? u idx = some (ix1 ⟨(u 0).val, lt_of_lt_of_le (u 0).isLt hNE⟩) := by
  have hs := start_prefix d hsd hiv idx u
  have hw := window_prefix d hiw u
  have hu : (u 0).val < N := (u 0).isLt
  rw [hidx] at hs
  have hall : ∀ a, 0 ≤ d.start u idx a + d.window u a ∧
      d.start u idx a + d.window u a < (⟨1, ![E]⟩ : Shape).size a := by
    intro a
    obtain rfl : a = 0 := Subsingleton.elim _ _
    rw [hs, hw]
    change 0 ≤ (0 : ℤ) + (((u 0).val : ℕ) : ℤ) ∧ (0 : ℤ) + (((u 0).val : ℕ) : ℤ) < (E : ℤ)
    omega
  unfold ScatterDims.resultIdx?
  rw [dif_pos hall]
  congr 1
  funext a
  obtain rfl : a = 0 := Subsingleton.elim _ _
  apply Fin.ext
  change (d.start u idx 0 + (d.window u 0 : ℤ)).toNat = (u 0).val
  rw [hs, hw]
  omega

end Prefix

/-- Overwriting a prefix: a window of N entries written at start 0 into a longer array holds the update on its first N entries. -/
theorem scatter_prefix {α : Type} {E N w : Nat} (d : ScatterDims ⟨1, ![E]⟩ ⟨1, ![1]⟩ ⟨1, ![N]⟩)
    (huw : d.updateWindowDims = [0]) (hiw : d.insertedWindowDims = []) (hsd : d.scatterDimsToOperandDims = [0]) (hiv : d.indexVectorDim = 0)
    (hNE : N ≤ E) (x : (⟨1, ![E]⟩ : Shape).Idx → α) (idx : IVec ⟨1, ![1]⟩ w) (hidx : (idx (ix1 0)).toInt = 0)
    (upd : (⟨1, ![N]⟩ : Shape).Idx → α) (i : Fin N) :
    Host.scatter d (fun _ b => b) x idx upd (ix1 ⟨i.val, lt_of_lt_of_le i.isLt hNE⟩) = upd (ix1 i) := by
  have hres := resultIdx_prefix d hiw hsd hiv hNE idx hidx
  unfold Host.scatter
  -- the update elements in row-major order, each with its landing index and its value; element i of the update is
  -- the one listed item that lands on element i
  refine (foldl_hit (fun n => d.resultIdx? ((⟨1, ![N]⟩ : Shape).rowMajor.symm n) idx)
    (fun n => upd ((⟨1, ![N]⟩ : Shape).rowMajor.symm n)) _ ?_ ?_ ?_
    (ix1 ⟨i.val, lt_of_lt_of_le i.isLt hNE⟩) ((⟨1, ![N]⟩ : Shape).rowMajor (ix1 i)) ?_
    (List.finRange _) x (List.mem_finRange _) ?_).trans ?_
  · intro r n i0 h
    have h' : d.resultIdx? ((⟨1, ![N]⟩ : Shape).rowMajor.symm n) idx = some i0 := h
    simp only [h', ↓reduceIte]
  · intro r n i0 i' h hne
    have h' : d.resultIdx? ((⟨1, ![N]⟩ : Shape).rowMajor.symm n) idx = some i0 := h
    simp only [h']
    exact if_neg hne
  · intro r n h
    have h' : d.resultIdx? ((⟨1, ![N]⟩ : Shape).rowMajor.symm n) idx = none := h
    simp only [h']
  · show d.resultIdx? ((⟨1, ![N]⟩ : Shape).rowMajor.symm ((⟨1, ![N]⟩ : Shape).rowMajor (ix1 i))) idx = _
    rw [Equiv.symm_apply_apply]
    exact hres (ix1 i)
  · -- distinct update elements land on distinct elements
    intro n _ hn
    have hn' : d.resultIdx? ((⟨1, ![N]⟩ : Shape).rowMajor.symm n) idx = some (ix1 ⟨i.val, lt_of_lt_of_le i.isLt hNE⟩) := hn
    rw [hres] at hn'
    have h0 := congrArg Fin.val (congrFun (Option.some.inj hn') 0)
    have hu : (⟨1, ![N]⟩ : Shape).rowMajor.symm n = ix1 i := by
      rw [eq_ix1 ((⟨1, ![N]⟩ : Shape).rowMajor.symm n)]
      congr 1
      exact Fin.ext h0
    rw [← hu, Equiv.apply_symm_apply]
  · show upd ((⟨1, ![N]⟩ : Shape).rowMajor.symm ((⟨1, ![N]⟩ : Shape).rowMajor (ix1 i))) = _
    rw [Equiv.symm_apply_apply]

end Cert.IndexScatter

end
-- ==== Proof.KHost0.lean ====
/-
  Before the first region the program splits the edge table into its source and destination rows, lets a negative
  word count from the end of the axis, pairs the two words of each edge, and adds each edge's weight into entry
  (source, destination) of a zero 8192 × 8192 matrix. The input currents are not touched.
-/
import proofs.«405189_j65369402245526_2_alg».proof.Proof.KNames
import proofs.«405189_j65369402245526_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«405189_j65369402245526_2_alg».proof.Proof.IndexScatter

set_option maxRecDepth 16384

noncomputable section

open scoped BigOperators

namespace Cert.KernelIdeal.Host0

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg)

/-- A negative word counts from the end of an axis of 8192: the select / compare / add of the program, as a vector. -/
private abbrev wrapV (d : IVec S1048576 32) : IVec S1048576 32 :=
  select (cmpi .slt d (broadcastInDim S1048576 ![] bcast_S_S1048576 (constantI S_ 32 0#32)))
    (addi d (broadcastInDim S1048576 ![] bcast_S_S1048576 (constantI S_ 32 8192#32))) d

/-- The pairs of wrapped words, one row per edge, from the edge table. -/
private abbrev pairs (x8 : IVec S2x1048576 32) : IVec S1048576x2 32 :=
  concatenate S1048576x2 1
    [⟨S1048576x1, broadcastInDim S1048576x1 ![0] bcast_S1048576_S1048576x1_0
        (wrapV (shapeCast S1048576 (extractStridedSlice S1x1048576 ![0, 0] x8 slices_S2x1048576_S1x1048576_0_0) shapeCasts_S1x1048576_S1048576))⟩,
     ⟨S1048576x1, broadcastInDim S1048576x1 ![0] bcast_S1048576_S1048576x1_0
        (wrapV (shapeCast S1048576 (extractStridedSlice S1x1048576 ![1, 0] x8 slices_S2x1048576_S1x1048576_1_0) shapeCasts_S1x1048576_S1048576))⟩]
    concatenates_S1048576x1_S1048576x1_S1048576x2_d1

/-- The matrix the first region reads is the scatter of the weights, at the pairs of wrapped words, into zeros. -/
theorem s1_eq (c : Dev nD) :
    s1 m ρ c = Host.scatterAdd (F := Ideal) (φ := .f32) scatter_S8192x8192_S1048576x2_S1048576_n_01_01_1
      (broadcastInDim S8192x8192 ![] bcast_S_S8192x8192 (constant (F := Ideal) S_ .f32 0x00000000#32))
      (pairs (a8 m c)) (a1 m c) := by
  unfold s1
  show StableHlo.after hostOps0 (W0 (F := Ideal) m ρ c) (Proc.devRef .tc main_v18) = _
  after_results_simp
  generalize h15 : (StableHlo.unary main_v14 main_v16 _ _ _).result _ (Proc.devRef .tc main_v15) = X15
  generalize h16 : (StableHlo.unary main_v14 main_v16 _ _ _).result _ (Proc.devRef .tc main_v16) = X16
  simp (disch := decide) only [StableHlo.nullary_result', StableHlo.unary_result', StableHlo.binary_result',
    StableHlo.ternary_result', StableHlo.reshape_result', StableHlo.nullary_result_ne', StableHlo.unary_result_ne',
    StableHlo.binary_result_ne', StableHlo.ternary_result_ne', StableHlo.reshape_result_ne'] at h15 h16
  subst h15 h16
  rfl

section Pointwise

variable (x8 : IVec S2x1048576 32)

/-- The table's first row, flattened, at edge `e`. -/
private theorem row0_at (e : Fin 1048576) :
    shapeCast S1048576 (extractStridedSlice S1x1048576 ![0, 0] x8 slices_S2x1048576_S1x1048576_0_0) shapeCasts_S1x1048576_S1048576 (ix1 e)
      = x8 (ix2 0 e) := by
  generalize hy : extractStridedSlice S1x1048576 ![0, 0] x8 slices_S2x1048576_S1x1048576_0_0 = y
  rw [shapeCast_apply y shapeCasts_S1x1048576_S1048576 (ix1 e) (ix2 (0 : Fin 1) e) (by
    rw [Shape.rowMajor_val_two, Shape.rowMajor_val_one]; show 0 * 1048576 + e.val = e.val; omega)]
  subst hy
  exact extractStridedSlice_apply ![0, 0] x8 slices_S2x1048576_S1x1048576_0_0 (ix2 (0 : Fin 1) e) (ix2 (0 : Fin 2) e) (fun a => match a with
    | ⟨0, _⟩ => by show (0 : Nat) = 0 + 0; rfl
    | ⟨1, _⟩ => by show e.val = 0 + e.val; omega)

/-- The table's second row, flattened, at edge `e`. -/
private theorem row1_at (e : Fin 1048576) :
    shapeCast S1048576 (extractStridedSlice S1x1048576 ![1, 0] x8 slices_S2x1048576_S1x1048576_1_0) shapeCasts_S1x1048576_S1048576 (ix1 e)
      = x8 (ix2 1 e) := by
  generalize hy : extractStridedSlice S1x1048576 ![1, 0] x8 slices_S2x1048576_S1x1048576_1_0 = y
  rw [shapeCast_apply y shapeCasts_S1x1048576_S1048576 (ix1 e) (ix2 (0 : Fin 1) e) (by
    rw [Shape.rowMajor_val_two, Shape.rowMajor_val_one]; show 0 * 1048576 + e.val = e.val; omega)]
  subst hy
  exact extractStridedSlice_apply ![1, 0] x8 slices_S2x1048576_S1x1048576_1_0 (ix2 (0 : Fin 1) e) (ix2 (1 : Fin 2) e) (fun a => match a with
    | ⟨0, _⟩ => by show (1 : Nat) = 1 + 0; rfl
    | ⟨1, _⟩ => by show e.val = 0 + e.val; omega)

/-- The wrap acts word by word. -/
private theorem wrapV_at (d : IVec S1048576 32) (e : Fin 1048576) : wrapV d (ix1 e) = Spec.wrapW 8192#32 (d (ix1 e)) := rfl

/-- A vector of words set as a column: row `e` holds word `e`. -/
private theorem col_at (y : IVec S1048576 32) (e : Fin 1048576) (z : Fin 1) :
    broadcastInDim S1048576x1 ![0] bcast_S1048576_S1048576x1_0 y (ix2 e z) = y (ix1 e) :=
  broadcastInDim_apply _ bcast_S1048576_S1048576x1_0 y (ix2 e z) (ix1 e) (fun a => match a with
    | ⟨0, _⟩ => by show e.val = if (1048576 : Nat) = 1 then 0 else e.val; rw [if_neg (by decide)])

/-- The first word of edge `e`'s pair is its wrapped source word. -/
private theorem pairs_at0 (e : Fin 1048576) : pairs x8 (ix2 e 0) = Spec.wrapW 8192#32 (x8 (ix2 0 e)) := by
  unfold pairs
  rw [concatenate_pair_apply_left (1 : Fin S1048576x2.rank) _ _ concatenates_S1048576x1_S1048576x1_S1048576x2_d1 (ix2 e (0 : Fin 2)) rfl
    (ix2 e (0 : Fin 1)) (fun b => match b with | ⟨0, _⟩ => rfl | ⟨1, _⟩ => rfl)]
  rw [col_at, wrapV_at, row0_at]

/-- The second word of edge `e`'s pair is its wrapped destination word. -/
private theorem pairs_at1 (e : Fin 1048576) : pairs x8 (ix2 e 1) = Spec.wrapW 8192#32 (x8 (ix2 1 e)) := by
  unfold pairs
  rw [concatenate_pair_apply_right (1 : Fin S1048576x2.rank) _ _ concatenates_S1048576x1_S1048576x1_S1048576x2_d1 (ix2 e (1 : Fin 2)) rfl rfl
    (ix2 e (0 : Fin 1)) (fun b hb => match b, hb with | ⟨0, _⟩, _ => rfl | ⟨1, _⟩, hb => (hb (Fin.ext rfl)).elim) rfl]
  rw [col_at, wrapV_at, row1_at]

end Pointwise

/-- The edge-weight matrix at (j, k): zero plus the weights of the edges whose wrapped words, read signed, are j and k. -/
theorem S_at (c : Dev nD) (j k : Fin 8192) :
    s1 m ρ c (ix2 j k)
      = Spec.cZero + ∑ e ∈ Finset.univ.filter (fun e : Fin 1048576 =>
          (Spec.wrapW 8192#32 (a8 m c (ix2 0 e))).toInt = (j.val : ℤ) ∧ (Spec.wrapW 8192#32 (a8 m c (ix2 1 e))).toInt = (k.val : ℤ)),
        a1 m c (ix1 e) := by
  rw [s1_eq]
  have hs := Cert.IndexScatter.scatterAdd_pt2 (N := 8192) (K := 8192) (M := 1048576) (w := 32) scatter_S8192x8192_S1048576x2_S1048576_n_01_01_1 rfl rfl rfl rfl
    (broadcastInDim S8192x8192 ![] bcast_S_S8192x8192 (constant (F := Ideal) S_ .f32 0x00000000#32)) (pairs (a8 m c)) (a1 m c) j k
  rw [hs]
  -- every entry of the matrix scattered into is the zero word
  have hz : broadcastInDim S8192x8192 ![] bcast_S_S8192x8192 (constant (F := Ideal) S_ .f32 0x00000000#32) (ix2 j k) = Spec.cZero := rfl
  rw [hz]
  refine congrArg (fun s : EReal => Spec.cZero + s) ?_
  refine Finset.sum_congr (Finset.filter_congr fun e _ => ?_) fun _ _ => rfl
  rw [pairs_at0, pairs_at1]

/-- The first region finds the input currents as launched. -/
theorem x_at (c : Dev nD) : x1 m ρ c = a0 m c := by
  unfold x1
  show W1 (F := Ideal) m ρ c (Proc.devRef .tc main_arg0) = m ((c : Thread nD τ).loc main_arg0)
  -- none of the operations before the first region writes the buffer of the input currents
  exact (StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))).trans rfl

end Cert.KernelIdeal.Host0

end
-- ==== Proof.KRegion0.lean ====
/-
  The first region: 32 grid points, point t multiplying the whole 32 × 8192 input by the 8192 × 256 column block t
  of the matrix and writing the 32 × 256 block t of the result. Entry (b, n) of the result array is the contraction of
  row b with column n, whatever block n falls in.
-/
import proofs.«405189_j65369402245526_2_alg».proof.Proof.KNames
import proofs.«405189_j65369402245526_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Region0

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg)

/-- the zero offsets of a whole-buffer access -/
theorem zero_offsets : (![0, 0] : Fin 2 → Nat) = fun _ => 0 := funext fun a => by fin_cases a <;> rfl

/-! ## The block product's operand indices, axis by axis

At output index i and contraction index q the left operand is read at (i 0, q) and the right one at (q, i 1). -/

theorem lhs_ax0 (i : S32x256.Idx) (q : dot_S32x8192_S8192x256_S32x256_1_0_0_1_n_n.contr.Idx) :
    (dot_S32x8192_S8192x256_S32x256_1_0_0_1_n_n.lhsIdx i q 0).val = (i 0).val := by
  unfold DotDims.lhsIdx
  rw [dif_neg (show ¬(0 : Fin S32x8192.rank) ∈ dot_S32x8192_S8192x256_S32x256_1_0_0_1_n_n.lhsBatch by decide), dif_pos (show (0 : Fin S32x8192.rank) ∈ dot_S32x8192_S8192x256_S32x256_1_0_0_1_n_n.lhsNonContracting by decide)]
  rfl
theorem lhs_ax1 (i : S32x256.Idx) (q : dot_S32x8192_S8192x256_S32x256_1_0_0_1_n_n.contr.Idx) :
    (dot_S32x8192_S8192x256_S32x256_1_0_0_1_n_n.lhsIdx i q 1).val = (q ⟨0, by decide⟩).val :=
  dot_S32x8192_S8192x256_S32x256_1_0_0_1_n_n.lhsIdx_val_of_single rfl i q
theorem rhs_ax0 (i : S32x256.Idx) (q : dot_S32x8192_S8192x256_S32x256_1_0_0_1_n_n.contr.Idx) :
    (dot_S32x8192_S8192x256_S32x256_1_0_0_1_n_n.rhsIdx i q 0).val = (q ⟨0, by decide⟩).val :=
  dot_S32x8192_S8192x256_S32x256_1_0_0_1_n_n.rhsIdx_val_of_single rfl i q
theorem rhs_ax1 (i : S32x256.Idx) (q : dot_S32x8192_S8192x256_S32x256_1_0_0_1_n_n.contr.Idx) :
    (dot_S32x8192_S8192x256_S32x256_1_0_0_1_n_n.rhsIdx i q 1).val = (i 1).val := by
  unfold DotDims.rhsIdx
  rw [dif_neg (show ¬(1 : Fin S8192x256.rank) ∈ dot_S32x8192_S8192x256_S32x256_1_0_0_1_n_n.rhsBatch by decide), dif_pos (show (1 : Fin S8192x256.rank) ∈ dot_S32x8192_S8192x256_S32x256_1_0_0_1_n_n.rhsNonContracting by decide)]
  rfl

/-- The payload at an index: the bf16 truncations are the identity on the extended reals, the shape cast is
    to the same shape, and the product into the zero accumulator is the sum over the contracted axis. -/
theorem block_product_apply (v0 : Vec Ideal S32x8192 .f32) (v2 : Vec Ideal S8192x256 .f32) (b : Fin 32) (r : Fin 256) :
    k0_pay1 (F := Ideal) v0 v2 (ix2 b r) = ∑ j : Fin 8192, v0 (ix2 b j) * v2 (ix2 j r) := by
  unfold k0_pay1
  refine (Ideal.matmul_constant_zero_apply dot_S32x8192_S8192x256_S32x256_1_0_0_1_n_n none
    (truncf .bf16 v0 bitsLt_bf16_f32)
    (truncf .bf16 (shapeCast S8192x256 v2 shapeCasts_S8192x256_S8192x256) bitsLt_bf16_f32) (ix2 b r)).trans ?_
  rw [← Equiv.sum_comp (ValueIdx.contrEquiv1 dot_S32x8192_S8192x256_S32x256_1_0_0_1_n_n 8192 rfl rfl).symm]
  refine Finset.sum_congr rfl fun k _ => ?_
  have hk := ValueIdx.contrEquiv1_symm_val dot_S32x8192_S8192x256_S32x256_1_0_0_1_n_n 8192 rfl rfl k
  have el : dot_S32x8192_S8192x256_S32x256_1_0_0_1_n_n.lhsIdx (ix2 b r) ((ValueIdx.contrEquiv1 dot_S32x8192_S8192x256_S32x256_1_0_0_1_n_n 8192 rfl rfl).symm k) = ix2 b k := funext fun a => Fin.ext (by
    match a with
    | ⟨0, _⟩ => exact lhs_ax0 _ _
    | ⟨1, _⟩ => exact (lhs_ax1 _ _).trans hk)
  have er : dot_S32x8192_S8192x256_S32x256_1_0_0_1_n_n.rhsIdx (ix2 b r) ((ValueIdx.contrEquiv1 dot_S32x8192_S8192x256_S32x256_1_0_0_1_n_n 8192 rfl rfl).symm k) = ix2 k r := funext fun a => Fin.ext (by
    match a with
    | ⟨0, _⟩ => exact (rhs_ax0 _ _).trans hk
    | ⟨1, _⟩ => exact rhs_ax1 _ _)
  rw [shapeCast_self]
  show v0 _ * v2 _ = _
  rw [el, er]

/-! ## What the array ends holding

The facts of this section hold for any contents V of the arrays at the region's entry; the theorem at the end takes V
to be the contents the program reaches there. -/

section AnyEntry

variable (V : (c : Dev nD) → (b : Ref sig .tc) → Buf (Elt Ideal) ((c : Thread nD τ).loc b))

/-- The input and the matrix as the region finds them, at their literal types. -/
abbrev xarr (c : Dev nD) : S32x8192.Idx → EReal := V c main_arg0
abbrev sarr (c : Dev nD) : S8192x8192.Idx → EReal := V c main_v18

/-- Row b of the input contracted with column n of the matrix. -/
def Gf (c : Dev nD) (b : Fin 32) (n : Fin 8192) : EReal := ∑ j : Fin 8192, xarr V c (ix2 b j) * sarr V c (ix2 j n)

/-- The same as one function of the array's index. -/
def G (c : Dev nD) : S32x8192.Idx → EReal := fun i => Gf V c (i 0) (i 1)

/-- The input windows' blocks at a point, at their literal types. -/
abbrev xblk (c : Dev nD) (t : Fin cfg0.N) : Vec Ideal S32x8192 .f32 := iblk0 V c 0 t
abbrev sblk (c : Dev nD) (t : Fin cfg0.N) : Vec Ideal S8192x256 .f32 := iblk0 V c 1 t

/-- The printed index maps over the grid: the input is always block (0, 0); the matrix's column block and the
    result's column block are the point's number. -/
theorem block_indices : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-! ## Each input block read where the output's rectangle says

A block's coordinate on an axis is its block index times the block's size plus the coordinate inside the block. -/

/-- The input's block at any point is the whole input. -/
theorem input_block_apply (c : Dev nD) (t : Fin cfg0.N) (y i : S32x8192.Idx)
    (h0 : (i 0).val = (y 0).val) (h1 : (i 1).val = (y 1).val) : xblk V c t y = xarr V c i := by
  obtain ⟨e00, e01, -, -, -, -⟩ := block_indices t
  have h : ((cfg0.win 0).blk t).view.emb y = i := by
    funext a; apply Fin.ext
    match a with
    | ⟨0, _⟩ => show win0_0.index t (0 : Fin 2) * 32 + 1 * (y 0).val = (i 0).val; omega
    | ⟨1, _⟩ => show win0_0.index t (1 : Fin 2) * 8192 + 1 * (y 1).val = (i 1).val; omega
  show V c main_arg0 (((cfg0.win 0).blk t).view.emb y) = V c main_arg0 i
  rw [h]

/-- The matrix's block at point t is its columns 256 t … 256 t + 255. -/
theorem matrix_block_apply (c : Dev nD) (t : Fin cfg0.N) (y : S8192x256.Idx) (i : S8192x8192.Idx)
    (h0 : (i 0).val = (y 0).val) (h1 : (i 1).val = t.val * 256 + (y 1).val) : sblk V c t y = sarr V c i := by
  obtain ⟨-, -, e10, e11, -, -⟩ := block_indices t
  have h : ((cfg0.win 1).blk t).view.emb y = i := by
    funext a; apply Fin.ext
    match a with
    | ⟨0, _⟩ => show win0_1.index t (0 : Fin 2) * 8192 + 1 * (y 0).val = (i 0).val; omega
    | ⟨1, _⟩ => show win0_1.index t (1 : Fin 2) * 256 + 1 * (y 1).val = (i 1).val; omega
  show V c main_v18 (((cfg0.win 1).blk t).view.emb y) = V c main_v18 i
  rw [h]

/-- What point t's body leaves at an index of its block is the array's function at that index of the array. -/
theorem point_value (c : Dev nD) (t : Fin cfg0.N) (y : S32x256.Idx) :
    k0_pay1 (F := Ideal) (xblk V c t) (sblk V c t) y = G V c (((cfg0.win 2).blk t).view.emb y) := by
  obtain ⟨-, -, -, -, e20, e21⟩ := block_indices t
  obtain ⟨b, r, rfl⟩ : ∃ (b : Fin 32) (r : Fin 256), y = ix2 b r := ⟨y 0, y 1, eq_ix2 y⟩
  refine (block_product_apply (xblk V c t) (sblk V c t) b r).trans ?_
  unfold G Gf
  refine Finset.sum_congr rfl fun k _ => ?_
  have hx : xblk V c t (ix2 b k) = xarr V c (ix2 (((cfg0.win 2).blk t).view.emb (ix2 b r) 0) k) :=
    input_block_apply V c t (ix2 b k) (ix2 (((cfg0.win 2).blk t).view.emb (ix2 b r) 0) k)
      (by show win0_2.index t (0 : Fin 2) * 32 + 1 * b.val = b.val; omega) rfl
  have hs : sblk V c t (ix2 k r) = sarr V c (ix2 k (((cfg0.win 2).blk t).view.emb (ix2 b r) 1)) :=
    matrix_block_apply V c t (ix2 k r) (ix2 k (((cfg0.win 2).blk t).view.emb (ix2 b r) 1)) rfl
      (by show win0_2.index t (1 : Fin 2) * 256 + 1 * r.val = t.val * 256 + r.val; omega)
  rw [hx, hs]

/-- What point t writes back is block t of the array's function. -/
theorem written_back (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero zero_offsets]
  simp only [View.ld_unit_zero (S := S32x8192) zero_offsets, View.ld_unit_zero (S := S8192x256) zero_offsets]
  funext j
  exact point_value V c t j

/-! ## The blocks cover the array -/

/-- An index of the array is in point t's block iff each coordinate is in the block's range on its axis. -/
theorem mem_result_block (t : Fin cfg0.N) (i : S32x8192.Idx) :
    i ∈ ((cfg0.win 2).blk t).view.set ↔ ∀ a : Fin 2, win0_2.index t a * S32x256.size a ≤ (i a).val ∧ (i a).val < win0_2.index t a * S32x256.size a + S32x256.size a := by
  show i ∈ ((View.whole main_v19).slice (win0_2.rect t)).set ↔ _
  rw [View.set_slice_whole, Rect.mem_set_unit]
  exact Iff.rfl

/-- Column n lies in the block of point n / 256, and every point writes its block back. -/
theorem result_blocks_cover (i : S32x8192.Idx) :
    ∃ t : Fin cfg0.N, (cfg0.win 2).flush t = true ∧ i ∈ ((cfg0.win 2).blk t).view.set := by
  have hi0 : (i 0).val < 32 := (i 0).isLt
  have hi1 : (i 1).val < 8192 := (i 1).isLt
  have hN : cfg0.N = 32 := N_0
  refine ⟨⟨(i 1).val / 256, by rw [hN]; omega⟩, flush0_2 _, ?_⟩
  obtain ⟨-, -, -, -, e20, e21⟩ := block_indices ⟨(i 1).val / 256, by rw [hN]; omega⟩
  rw [mem_result_block]
  intro a
  match a with
  | ⟨0, _⟩ => show win0_2.index _ (0 : Fin 2) * 32 ≤ (i 0).val ∧ (i 0).val < win0_2.index _ (0 : Fin 2) * 32 + 32; rw [e20]; omega
  | ⟨1, _⟩ => show win0_2.index _ (1 : Fin 2) * 256 ≤ (i 1).val ∧ (i 1).val < win0_2.index _ (1 : Fin 2) * 256 + 256; rw [e21]; show (i 1).val / 256 * 256 ≤ (i 1).val ∧ (i 1).val < (i 1).val / 256 * 256 + 256; omega

/-- The array after the region: the function G of the entry contents, everywhere. -/
theorem result_array (c : Dev nD) : (dat0 V c).arrAt 2 cfg0.N = G V c :=
  (dat0 V c).arrAt_eq_of_cover 2 (G V c) (fun t _ => written_back V c t) result_blocks_cover

end AnyEntry

/-- The array the first region leaves, at (b, n): row b of the input contracted with column n of the matrix. -/
theorem syn_at (c : Dev nD) (b : Fin 32) (n : Fin 8192) :
    syn2 m ρ c (ix2 b n) = ∑ j : Fin 8192, x1 m ρ c (ix2 b j) * s1 m ρ c (ix2 j n) := by
  unfold syn2
  show W2 (F := Ideal) m ρ c (Proc.devRef .tc (Pipeline.arrRef spec0 2)) (ix2 b n) = _
  rw [W2_arr, result_array]
  show Gf (V1 m ρ) c b n = _
  unfold Gf x1 s1
  rfl

end Cert.KernelIdeal.Region0

end
-- ==== Proof.KRegion1.lean ====
/-
  The second region: 32 grid points, point t contracting the whole 32 × 8192 drive with the 256 × 8192 row block t of
  the dense matrix (on the shared last axis), adding a tenth of the plasticity block, masking, adding the leaked
  membrane block, subtracting the threshold block, scaling and taking the logistic, into the 32 × 256 block t of the result.
-/
import proofs.«405189_j65369402245526_2_alg».proof.Proof.KNames
import proofs.«405189_j65369402245526_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Region1

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg)

/-! ## The block product at an index -/

/-- The left operand's row coordinate is the result's row. -/
theorem lhs_mm_0 (i : S32x256.Idx) (q : dot_S32x8192_S256x8192_S32x256_1_1_0_0_n_n.contr.Idx) :
    (dot_S32x8192_S256x8192_S32x256_1_1_0_0_n_n.lhsIdx i q 0).val = (i 0).val := by
  unfold DotDims.lhsIdx
  rw [dif_neg (show ¬(0 : Fin S32x8192.rank) ∈ dot_S32x8192_S256x8192_S32x256_1_1_0_0_n_n.lhsBatch by decide), dif_pos (show (0 : Fin S32x8192.rank) ∈ dot_S32x8192_S256x8192_S32x256_1_1_0_0_n_n.lhsNonContracting by decide)]
  rfl
/-- The left operand's column coordinate is the contraction's. -/
theorem lhs_mm_1 (i : S32x256.Idx) (q : dot_S32x8192_S256x8192_S32x256_1_1_0_0_n_n.contr.Idx) :
    (dot_S32x8192_S256x8192_S32x256_1_1_0_0_n_n.lhsIdx i q 1).val = (q ⟨0, by decide⟩).val :=
  dot_S32x8192_S256x8192_S32x256_1_1_0_0_n_n.lhsIdx_val_of_single rfl i q
/-- The right operand's row coordinate is the result's column. -/
theorem rhs_mm_0 (i : S32x256.Idx) (q : dot_S32x8192_S256x8192_S32x256_1_1_0_0_n_n.contr.Idx) :
    (dot_S32x8192_S256x8192_S32x256_1_1_0_0_n_n.rhsIdx i q 0).val = (i 1).val := by
  unfold DotDims.rhsIdx
  rw [dif_neg (show ¬(0 : Fin S256x8192.rank) ∈ dot_S32x8192_S256x8192_S32x256_1_1_0_0_n_n.rhsBatch by decide), dif_pos (show (0 : Fin S256x8192.rank) ∈ dot_S32x8192_S256x8192_S32x256_1_1_0_0_n_n.rhsNonContracting by decide)]
  rfl
/-- The right operand's column coordinate is the contraction's. -/
theorem rhs_mm_1 (i : S32x256.Idx) (q : dot_S32x8192_S256x8192_S32x256_1_1_0_0_n_n.contr.Idx) :
    (dot_S32x8192_S256x8192_S32x256_1_1_0_0_n_n.rhsIdx i q 1).val = (q ⟨0, by decide⟩).val :=
  dot_S32x8192_S256x8192_S32x256_1_1_0_0_n_n.rhsIdx_val_of_single rfl i q

/-- The block product into a zero accumulator, at (p, q): row p of the left block against row q of the right block. -/
theorem mm_apply (x : FVec Ideal S32x8192 .bf16) (y : FVec Ideal S256x8192 .bf16) (p : Fin 32) (q : Fin 256) :
    matmul dot_S32x8192_S256x8192_S32x256_1_1_0_0_n_n none x y (constant (F := Ideal) S32x256 .f32 0x00000000#32) (ix2 p q)
      = ∑ k : Fin 8192, x (ix2 p k) * y (ix2 q k) := by
  simp only [matmul]
  rw [Ideal.matmul_constant_zero_apply, ← Equiv.sum_comp (contrEquiv1 dot_S32x8192_S256x8192_S32x256_1_1_0_0_n_n 8192 rfl rfl).symm]
  refine Finset.sum_congr rfl fun k _ => ?_
  have hk := contrEquiv1_symm_val dot_S32x8192_S256x8192_S32x256_1_1_0_0_n_n 8192 rfl rfl k
  have el : dot_S32x8192_S256x8192_S32x256_1_1_0_0_n_n.lhsIdx (ix2 p q) ((contrEquiv1 dot_S32x8192_S256x8192_S32x256_1_1_0_0_n_n 8192 rfl rfl).symm k) = ix2 p k := funext fun a => Fin.ext (by
    match a with
    | ⟨0, _⟩ => exact lhs_mm_0 _ _
    | ⟨1, _⟩ => exact (lhs_mm_1 _ _).trans hk)
  have er : dot_S32x8192_S256x8192_S32x256_1_1_0_0_n_n.rhsIdx (ix2 p q) ((contrEquiv1 dot_S32x8192_S256x8192_S32x256_1_1_0_0_n_n 8192 rfl rfl).symm k) = ix2 q k := funext fun a => Fin.ext (by
    match a with
    | ⟨0, _⟩ => exact rhs_mm_0 _ _
    | ⟨1, _⟩ => exact (rhs_mm_1 _ _).trans hk)
  rw [el, er]

/-! ## The body's payload at an index -/

/-- The stored block at (p, q), from the loaded blocks: the logistic of the slope times (the leaked membrane entry plus the masked
    sum of the block product and a tenth of the plasticity entry, less the threshold entry). -/
theorem pay_apply (x0 : Vec Ideal S32x8192 .f32) (x1 : Vec Ideal S256x8192 .f32) (xs xm : Vec Ideal S1x256 .f32)
    (xv : Vec Ideal S32x256 .f32) (xt : Vec Ideal S1x256 .f32) (p : Fin 32) (q : Fin 256) :
    k1_pay1 (F := Ideal) x0 x1 xs xm xv xt (ix2 p q)
      = Ideal.logistic (Spec.cSlope * ((Spec.cLeak * xv (ix2 p q)
          + ((∑ k : Fin 8192, x0 (ix2 p k) * x1 (ix2 q k)) + Spec.cTenth * xs (ix2 0 q)) * xm (ix2 0 q))
          - xt (ix2 0 q))) := by
  unfold k1_pay1
  simp only [shapeCast_self]
  show Ideal.logistic (Spec.cSlope * ((Spec.cLeak * xv (ix2 p q)
      + (matmul dot_S32x8192_S256x8192_S32x256_1_1_0_0_n_n none (truncf .bf16 x0 bitsLt_bf16_f32 : FVec Ideal S32x8192 .bf16)
            (truncf .bf16 x1 bitsLt_bf16_f32 : FVec Ideal S256x8192 .bf16) (constant (F := Ideal) S32x256 .f32 0x00000000#32) (ix2 p q)
         + broadcastTo S32x256 (mulf (broadcast S1x256 (FloatOps.ofBits (F := Ideal) .f32 0x3DCCCCCD#32)) xs) broadcasts_S1x256_S32x256 (ix2 p q))
        * broadcastTo S32x256 xm broadcasts_S1x256_S32x256 (ix2 p q))
      - broadcastTo S32x256 xt broadcasts_S1x256_S32x256 (ix2 p q))) = _
  rw [mm_apply, broadcastTo_1b_ab_apply, broadcastTo_1b_ab_apply, broadcastTo_1b_ab_apply]
  rfl

/-! ## The windows' blocks, each at its literal type -/

/-- the whole drive, at every point -/
def blkSyn (c : Dev nD) (t : Fin cfg1.N) : Vec Ideal S32x8192 .f32 := iblk1 (V5 m ρ) c 0 t
/-- row block t of the dense matrix -/
def blkW (c : Dev nD) (t : Fin cfg1.N) : Vec Ideal S256x8192 .f32 := iblk1 (V5 m ρ) c 1 t
/-- column block t of the membrane -/
def blkMem (c : Dev nD) (t : Fin cfg1.N) : Vec Ideal S32x256 .f32 := iblk1 (V5 m ρ) c 2 t
/-- column block t of the plasticity row -/
def blkStdp (c : Dev nD) (t : Fin cfg1.N) : Vec Ideal S1x256 .f32 := iblk1 (V5 m ρ) c 3 t
/-- column block t of the mask row -/
def blkMask (c : Dev nD) (t : Fin cfg1.N) : Vec Ideal S1x256 .f32 := iblk1 (V5 m ρ) c 4 t
/-- column block t of the threshold row -/
def blkThr (c : Dev nD) (t : Fin cfg1.N) : Vec Ideal S1x256 .f32 := iblk1 (V5 m ρ) c 5 t

theorem hz : (![0, 0] : Fin 2 → Nat) = fun _ => 0 := funext fun a => by fin_cases a <;> rfl

/-- The printed index maps over the 32 points: the drive's block stays at (0, 0), the matrix's row block and every other
    window's column block move with the point. -/
theorem idx_facts : ∀ t : Fin cfg1.N,
    win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val
    ∧ win1_4.index t (0 : Fin 2) = 0 ∧ win1_4.index t (1 : Fin 2) = t.val
    ∧ win1_5.index t (0 : Fin 2) = 0 ∧ win1_5.index t (1 : Fin 2) = t.val
    ∧ win1_6.index t (0 : Fin 2) = 0 ∧ win1_6.index t (1 : Fin 2) = t.val :=
  (by decide +kernel : ∀ t : Fin grid1.N, _)

/-- Column q of block t, as a column of the whole row. -/
def col (t : Fin cfg1.N) (q : Fin 256) : Fin 8192 :=
  ⟨t.val * 256 + q.val, by have := lt_of_lt_of_eq t.isLt N_1; have := q.isLt; omega⟩

theorem blkSyn_apply (c : Dev nD) (t : Fin cfg1.N) (p : Fin 32) (k : Fin 8192) :
    blkSyn m ρ c t (ix2 p k) = syn5 m ρ c (ix2 p k) := by
  obtain ⟨e0, e1, -⟩ := idx_facts t
  unfold syn5 blkSyn
  show V5 m ρ c main_v22 (((cfg1.win 0).blk t).view.emb (ix2 p k)) = _
  refine congrArg (W5 (F := Ideal) m ρ c (Proc.devRef .tc main_v22)) (funext fun a => Fin.ext ?_)
  match a with
  | ⟨0, _⟩ => show win1_0.index t (0 : Fin 2) * 32 + 1 * p.val = p.val; omega
  | ⟨1, _⟩ => show win1_0.index t (1 : Fin 2) * 8192 + 1 * k.val = k.val; omega

theorem blkW_apply (c : Dev nD) (t : Fin cfg1.N) (q : Fin 256) (k : Fin 8192) :
    blkW m ρ c t (ix2 q k) = w5 m ρ c (ix2 (col t q) k) := by
  obtain ⟨-, -, e0, e1, -⟩ := idx_facts t
  unfold w5 blkW
  show V5 m ρ c main_arg2 (((cfg1.win 1).blk t).view.emb (ix2 q k)) = _
  refine congrArg (W5 (F := Ideal) m ρ c (Proc.devRef .tc main_arg2)) (funext fun a => Fin.ext ?_)
  match a with
  | ⟨0, _⟩ => show win1_1.index t (0 : Fin 2) * 256 + 1 * q.val = t.val * 256 + q.val; omega
  | ⟨1, _⟩ => show win1_1.index t (1 : Fin 2) * 8192 + 1 * k.val = k.val; omega

theorem blkMem_apply (c : Dev nD) (t : Fin cfg1.N) (p : Fin 32) (q : Fin 256) :
    blkMem m ρ c t (ix2 p q) = mem5 m ρ c (ix2 p (col t q)) := by
  obtain ⟨-, -, -, -, e0, e1, -⟩ := idx_facts t
  unfold mem5 blkMem
  show V5 m ρ c main_arg5 (((cfg1.win 2).blk t).view.emb (ix2 p q)) = _
  refine congrArg (W5 (F := Ideal) m ρ c (Proc.devRef .tc main_arg5)) (funext fun a => Fin.ext ?_)
  match a with
  | ⟨0, _⟩ => show win1_2.index t (0 : Fin 2) * 32 + 1 * p.val = p.val; omega
  | ⟨1, _⟩ => show win1_2.index t (1 : Fin 2) * 256 + 1 * q.val = t.val * 256 + q.val; omega

theorem blkStdp_apply (c : Dev nD) (t : Fin cfg1.N) (q : Fin 256) :
    blkStdp m ρ c t (ix2 0 q) = stdp5 m ρ c (ix2 0 (col t q)) := by
  obtain ⟨-, -, -, -, -, -, e0, e1, -⟩ := idx_facts t
  unfold stdp5 blkStdp
  show V5 m ρ c main_v49 (((cfg1.win 3).blk t).view.emb (ix2 0 q)) = _
  refine congrArg (W5 (F := Ideal) m ρ c (Proc.devRef .tc main_v49)) (funext fun a => Fin.ext ?_)
  match a with
  | ⟨0, _⟩ => show win1_3.index t (0 : Fin 2) * 1 + 1 * 0 = 0; omega
  | ⟨1, _⟩ => show win1_3.index t (1 : Fin 2) * 256 + 1 * q.val = t.val * 256 + q.val; omega

theorem blkMask_apply (c : Dev nD) (t : Fin cfg1.N) (q : Fin 256) :
    blkMask m ρ c t (ix2 0 q) = mask5 m ρ c (ix2 0 (col t q)) := by
  obtain ⟨-, -, -, -, -, -, -, -, e0, e1, -⟩ := idx_facts t
  unfold mask5 blkMask
  show V5 m ρ c main_v50 (((cfg1.win 4).blk t).view.emb (ix2 0 q)) = _
  refine congrArg (W5 (F := Ideal) m ρ c (Proc.devRef .tc main_v50)) (funext fun a => Fin.ext ?_)
  match a with
  | ⟨0, _⟩ => show win1_4.index t (0 : Fin 2) * 1 + 1 * 0 = 0; omega
  | ⟨1, _⟩ => show win1_4.index t (1 : Fin 2) * 256 + 1 * q.val = t.val * 256 + q.val; omega

theorem blkThr_apply (c : Dev nD) (t : Fin cfg1.N) (q : Fin 256) :
    blkThr m ρ c t (ix2 0 q) = thr5 m ρ c (ix2 0 (col t q)) := by
  obtain ⟨-, -, -, -, -, -, -, -, -, -, e0, e1, -⟩ := idx_facts t
  unfold thr5 blkThr
  show V5 m ρ c main_v51 (((cfg1.win 5).blk t).view.emb (ix2 0 q)) = _
  refine congrArg (W5 (F := Ideal) m ρ c (Proc.devRef .tc main_v51)) (funext fun a => Fin.ext ?_)
  match a with
  | ⟨0, _⟩ => show win1_5.index t (0 : Fin 2) * 1 + 1 * 0 = 0; omega
  | ⟨1, _⟩ => show win1_5.index t (1 : Fin 2) * 256 + 1 * q.val = t.val * 256 + q.val; omega

/-! ## From the blocks to the array -/

/-- The result at (b, n), from the arrays the region finds. -/
def outFn (c : Dev nD) (b : Fin 32) (n : Fin 8192) : EReal :=
  Ideal.logistic (Spec.cSlope * ((Spec.cLeak * mem5 m ρ c (ix2 b n)
      + ((∑ k : Fin 8192, syn5 m ρ c (ix2 b k) * w5 m ρ c (ix2 n k)) + Spec.cTenth * stdp5 m ρ c (ix2 0 n)) * mask5 m ρ c (ix2 0 n))
      - thr5 m ρ c (ix2 0 n)))

/-- The same as one array over the result's index set. -/
def outArr (c : Dev nD) : S32x8192.Idx → EReal :=
  fun i => outFn m ρ c ⟨(i 0).val, idx2_lt0 i⟩ ⟨(i 1).val, idx2_lt1 i⟩

/-- The array at an index whose coordinates are b and n. -/
theorem outArr_apply (c : Dev nD) (i : S32x8192.Idx) (b : Fin 32) (n : Fin 8192) (h0 : (i 0).val = b.val) (h1 : (i 1).val = n.val) :
    outArr m ρ c i = outFn m ρ c b n := by
  unfold outArr
  rw [show (⟨(i 0).val, idx2_lt0 i⟩ : Fin 32) = b from Fin.ext h0, show (⟨(i 1).val, idx2_lt1 i⟩ : Fin 8192) = n from Fin.ext h1]

/-- Any array over the result's index set, read through the output window's block at point t: entry (p, q) of the block is
    the array's entry (p, 256 t + q). -/
theorem read_blkOut (G : S32x8192.Idx → EReal) (t : Fin cfg1.N) (p : Fin 32) (q : Fin 256) :
    ((cfg1.win 6).blk t).view.read (Elt Ideal) G (ix2 p q) = G (ix2 p (col t q)) := by
  obtain ⟨-, -, -, -, -, -, -, -, -, -, -, -, e0, e1⟩ := idx_facts t
  show G (((cfg1.win 6).blk t).view.emb (ix2 p q)) = _
  refine congrArg G (funext fun a => Fin.ext ?_)
  match a with
  | ⟨0, _⟩ => show win1_6.index t (0 : Fin 2) * 32 + 1 * p.val = p.val; omega
  | ⟨1, _⟩ => show win1_6.index t (1 : Fin 2) * 256 + 1 * q.val = t.val * 256 + q.val; omega

/-- What point t writes back is block t of the result array: entry (p, q) of the stored block is the result at (p, 256 t + q). -/
theorem flushed_eq (c : Dev nD) (t : Fin cfg1.N) :
    (dat1 (V5 m ρ) c).flushed 6 t = ((cfg1.win 6).blk t).view.read (Elt Ideal) (outArr m ρ c) := by
  show (cfg1.win 6).cut (grid1.coords t) ((dat1 (V5 m ρ) c).after 6 t) = _
  rw [after1_6]
  unfold out1_6
  rw [View.canon_unit_zero hz]
  simp only [View.ld_unit_zero (S := S32x8192) hz, View.ld_unit_zero (S := S256x8192) hz, View.ld_unit_zero (S := S1x256) hz, View.ld_unit_zero (S := S32x256) hz]
  funext j
  obtain ⟨p, q, rfl⟩ : ∃ (p : Fin 32) (q : Fin 256), j = ix2 p q := ⟨j 0, j 1, eq_ix2 (n0 := 32) (n1 := 256) j⟩
  refine Eq.trans ?_ (read_blkOut (outArr m ρ c) t p q).symm
  show k1_pay1 (F := Ideal) (blkSyn m ρ c t) (blkW m ρ c t) (blkStdp m ρ c t) (blkMask m ρ c t) (blkMem m ρ c t) (blkThr m ρ c t) (ix2 p q) = _
  rw [pay_apply, outArr_apply m ρ c (ix2 p (col t q)) p (col t q) rfl rfl]
  unfold outFn
  simp only [blkSyn_apply, blkW_apply, blkMem_apply, blkStdp_apply, blkMask_apply, blkThr_apply]

/-- An index of the result array lies in point t's block iff each coordinate lies in the block's range on its axis. -/
theorem mem_blk (t : Fin cfg1.N) (i : S32x8192.Idx) :
    i ∈ ((cfg1.win 6).blk t).view.set ↔ ∀ a : Fin 2, win1_6.index t a * S32x256.size a ≤ (i a).val ∧ (i a).val < win1_6.index t a * S32x256.size a + S32x256.size a := by
  show i ∈ ((View.whole main_v52).slice (win1_6.rect t)).set ↔ _
  rw [View.set_slice_whole, Rect.mem_set_unit]
  exact Iff.rfl

/-- The 32 column blocks cover the result array (column n lies in block n / 256), so it ends holding the result function. -/
theorem out_arr (c : Dev nD) : (dat1 (V5 m ρ) c).arrAt 6 cfg1.N = outArr m ρ c :=
  (dat1 (V5 m ρ) c).arrAt_eq_of_cover 6 (outArr m ρ c) (fun t _ => flushed_eq m ρ c t) fun i => by
    have h0 : (i 0).val < 32 := idx2_lt0 i
    have h1 : (i 1).val < 8192 := idx2_lt1 i
    have hN : cfg1.N = 32 := N_1
    refine ⟨⟨(i 1).val / 256, by rw [hN]; omega⟩, flush1_6 _, ?_⟩
    rw [mem_blk]
    obtain ⟨-, -, -, -, -, -, -, -, -, -, -, -, e0, e1⟩ := idx_facts ⟨(i 1).val / 256, by rw [hN]; omega⟩
    intro a
    match a with
    | ⟨0, _⟩ =>
      show win1_6.index ⟨(i 1).val / 256, _⟩ (0 : Fin 2) * 32 ≤ (i 0).val ∧ (i 0).val < win1_6.index ⟨(i 1).val / 256, _⟩ (0 : Fin 2) * 32 + 32
      rw [e0]; omega
    | ⟨1, _⟩ =>
      show win1_6.index ⟨(i 1).val / 256, _⟩ (1 : Fin 2) * 256 ≤ (i 1).val ∧ (i 1).val < win1_6.index ⟨(i 1).val / 256, _⟩ (1 : Fin 2) * 256 + 256
      rw [e1]; show (i 1).val / 256 * 256 ≤ (i 1).val ∧ (i 1).val < (i 1).val / 256 * 256 + 256; omega

/-- The program's result array at (b, n), from the arrays the second region finds. -/
theorem out_at (c : Dev nD) (b : Fin 32) (n : Fin 8192) :
    out6 m ρ c (ix2 b n)
      = Ideal.logistic (Spec.cSlope * ((Spec.cLeak * mem5 m ρ c (ix2 b n)
          + ((∑ k : Fin 8192, syn5 m ρ c (ix2 b k) * w5 m ρ c (ix2 n k)) + Spec.cTenth * stdp5 m ρ c (ix2 0 n)) * mask5 m ρ c (ix2 0 n))
          - thr5 m ρ c (ix2 0 n))) := by
  unfold out6
  show W6 (F := Ideal) m ρ c (Proc.devRef .tc (Pipeline.arrRef spec1 6)) (ix2 b n) = _
  rw [W6_arr, out_arr]
  exact outArr_apply m ρ c (ix2 b n) b n rfl rfl

end Cert.KernelIdeal.Region1

end
-- ==== Proof.KHost1a.lean ====
/-
  Between the regions: the first region's product times the gate scalar; the mask converted to a number; the
  threshold vector (half of what the rest of a neuron's group of 128 spiked, plus one, plus θ); the dense matrix and
  the membrane are not touched.
-/
import proofs.«405189_j65369402245526_2_alg».proof.Proof.KNames
import proofs.«405189_j65369402245526_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

open scoped BigOperators

namespace Cert.KernelIdeal.Host1a

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg)

/-- A one-element array reshaped to a scalar and broadcast reads its one entry everywhere. -/
theorem bcast_scalar_apply {T : Shape} (h : S_.BroadcastsInDim T ![]) (x : S1.Idx → EReal) (j : T.Idx) :
    broadcastInDim (α := EReal) T ![] h (shapeCast (α := EReal) S_ x shapeCasts_S1_S_) j = x (ix1 0) := by
  rw [broadcastInDim_apply _ h _ j ix0 (fun a => a.elim0)]
  exact shapeCast_apply x shapeCasts_S1_S_ ix0 (ix1 0) rfl

/-- Over any contents V of the buffers, the three stretches of operations leave the gated drive as V's product
    array times V's gate scalar, reshaped to a scalar and broadcast over the array. -/
theorem syn5_of (V : Valuation τ sig (Elt Ideal)) :
    StableHlo.after hostOps1_2 (StableHlo.after hostOps1_1 (StableHlo.after hostOps1 V)) (Proc.devRef .tc main_v22)
      = mulf (F := Ideal) (φ := .f32) (V (Proc.devRef .tc main_v19))
          (broadcastInDim (α := EReal) S32x8192 ![] bcast_S_S32x8192
            (shapeCast (α := EReal) S_ (V (Proc.devRef .tc main_arg7)) shapeCasts_S1_S_)) := by
  after_results_simp
  rfl

/-- The gate scalar at the first region's exit … -/
abbrev g2 (c : Dev nD) : S1.Idx → EReal := W2 (F := Ideal) m ρ c (Proc.devRef .tc main_arg7)

/-- … and it is still the launched one: the first region and the operations before it do not write it. -/
theorem g2_eq (c : Dev nD) : g2 m ρ c = m ((c : Thread nD τ).loc main_arg7) :=
  calc W2 (F := Ideal) m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The gated drive the second region finds, at (b, k). -/
theorem syn5_at (c : Dev nD) (b : Fin 32) (k : Fin 8192) : syn5 m ρ c (ix2 b k) = syn2 m ρ c (ix2 b k) * a7 m c (ix1 0) := by
  unfold syn5
  refine (congrFun (syn5_of (W2 (F := Ideal) m ρ c)) (ix2 b k)).trans ?_
  show syn2 m ρ c (ix2 b k)
      * broadcastInDim (α := EReal) S32x8192 ![] bcast_S_S32x8192
          (shapeCast (α := EReal) S_ (g2 m ρ c) shapeCasts_S1_S_) (ix2 b k) = _
  rw [bcast_scalar_apply, g2_eq]

/-- No operation and no region before the second region writes the dense matrix. -/
theorem W5_arg2 (c : Dev nD) : W5 (F := Ideal) m ρ c (Proc.devRef .tc main_arg2) = m ((c : Thread nD τ).loc main_arg2) :=
  calc W5 (F := Ideal) m ρ c (Proc.devRef .tc main_arg2)
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The second region finds the dense matrix as launched. -/
theorem w5_eq (c : Dev nD) : w5 m ρ c = a2 m c := by
  unfold w5; exact W5_arg2 m ρ c

/-- No operation and no region before the second region writes the membrane. -/
theorem W5_arg5 (c : Dev nD) : W5 (F := Ideal) m ρ c (Proc.devRef .tc main_arg5) = m ((c : Thread nD τ).loc main_arg5) :=
  calc W5 (F := Ideal) m ρ c (Proc.devRef .tc main_arg5)
    _ = W4 m ρ c (Proc.devRef .tc main_arg5) := StableHlo.after_of_forall_not_mem (b := Proc.devRef .tc main_arg5) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The second region finds the membrane as launched. -/
theorem mem5_eq (c : Dev nD) : mem5 m ρ c = a5 m c := by
  unfold mem5; exact W5_arg5 m ρ c

/-- Over any contents V of the buffers, the three stretches of operations leave the mask row as V's mask words
    converted to numbers and laid out as one row. -/
theorem mask5_of (V : Valuation τ sig (Elt Ideal)) :
    StableHlo.after hostOps1_2 (StableHlo.after hostOps1_1 (StableHlo.after hostOps1 V)) (Proc.devRef .tc main_v50)
      = shapeCast (α := EReal) S1x8192 (sitofp (F := Ideal) .f32 (V (Proc.devRef .tc main_arg10) : S8192.Idx → BitVec 32))
          shapeCasts_S8192_S1x8192 := by
  after_results_simp
  rfl

/-- The mask words at the first region's exit … -/
abbrev n2 (c : Dev nD) : S8192.Idx → BitVec 32 := W2 (F := Ideal) m ρ c (Proc.devRef .tc main_arg10)

/-- … and it is still the launched one: the first region and the operations before it do not write it. -/
theorem n2_eq (c : Dev nD) : n2 m ρ c = m ((c : Thread nD τ).loc main_arg10) :=
  calc W2 (F := Ideal) m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

/-- The mask row at neuron n: the mask word as a number. -/
theorem mask5_at (c : Dev nD) (n : Fin 8192) : mask5 m ρ c (ix2 0 n) = Spec.maskf (a10 m c) n := by
  unfold mask5
  refine (congrFun (mask5_of (W2 (F := Ideal) m ρ c)) (ix2 0 n)).trans ?_
  show shapeCast (α := EReal) S1x8192 (sitofp (F := Ideal) .f32 (n2 m ρ c)) shapeCasts_S8192_S1x8192 (ix2 0 n) = _
  rw [shapeCast_a_1a_apply, n2_eq]
  rfl

section Threshold

variable (p t : S8192.Idx → EReal)

/-- The previous spikes laid out as 64 groups of 128 and summed over each group, from the zero word. -/
def groupSums : S64.Idx → EReal :=
  Host.reduceAdd (F := Ideal) (φ := .f32) (shapeCast (α := EReal) S64x128 p shapeCasts_S8192_S64x128)
    (constant (F := Ideal) S_ .f32 0x00000000#32) reducesTo_S64x128_S64_d1 h_S_

/-- Group g's sum is the zero word plus the sum of the group's 128 entries. -/
theorem groupSums_apply (g : Fin 64) : groupSums p (ix1 g) = Spec.gsum p g := by
  unfold groupSums Spec.gsum
  simp only [Host.reduceAdd, Ideal.hostReduceAdd_def]
  rw [Ideal.hostReduceAdd_single reducesTo_S64x128_S64_d1 (by decide)]
  refine congrArg (_ + ·) (Finset.sum_congr rfl fun j _ => ?_)
  exact shapeCast_apply p shapeCasts_S8192_S64x128 _ (ix1 (Spec.inGroup g j))
    (by rw [Shape.rowMajor_val_one, Shape.rowMajor_val_two]; rfl)

/-- The threshold row as the operations compose it from the previous spikes p and θ. -/
def thrRow : S1x8192.Idx → EReal :=
  shapeCast (α := EReal) S1x8192
    (addf (F := Ideal) (φ := .f32)
      (addf (F := Ideal) (φ := .f32)
        (mulf (F := Ideal) (φ := .f32)
          (broadcastInDim (α := EReal) S8192 ![] bcast_S_S8192 (constant (F := Ideal) S_ .f32 0x3F000000#32))
          (subf (F := Ideal) (φ := .f32)
            (shapeCast (α := EReal) S8192
              (broadcastInDim (α := EReal) S64x128 ![0] bcast_S64_S64x128_0 (groupSums p))
              shapeCasts_S64x128_S8192)
            p))
        (broadcastInDim (α := EReal) S8192 ![] bcast_S_S8192 (constant (F := Ideal) S_ .f32 0x3F800000#32)))
      t)
    shapeCasts_S8192_S1x8192

/-- A group's sum copied to its 128 places and laid out flat again reads, at neuron n, the sum of n's group. -/
theorem spread_apply (G : S64.Idx → EReal) (n : Fin 8192) :
    shapeCast (α := EReal) S8192 (broadcastInDim (α := EReal) S64x128 ![0] bcast_S64_S64x128_0 G)
      shapeCasts_S64x128_S8192 (ix1 n) = G (ix1 (Spec.groupOf n)) := by
  have hn := n.isLt
  rw [shapeCast_apply _ shapeCasts_S64x128_S8192 (ix1 n)
    (ix2 (Spec.groupOf n) (⟨n.val % 128, Nat.mod_lt _ (by decide)⟩ : Fin 128))
    (by rw [Shape.rowMajor_val_one, Shape.rowMajor_val_two]; show n.val / 128 * 128 + n.val % 128 = n.val; omega)]
  exact broadcastInDim_apply _ bcast_S64_S64x128_0 G _ (ix1 (Spec.groupOf n)) (fun a => match a with
    | ⟨0, _⟩ => by show n.val / 128 = if (64 : Nat) = 1 then 0 else n.val / 128; rw [if_neg (by decide)])

/-- The threshold row at neuron n: (inhibition + 1) + θ. -/
theorem thrRow_apply (n : Fin 8192) : thrRow p t (ix2 0 n) = (Spec.inh p n + Spec.cOne) + t (ix1 n) := by
  unfold thrRow
  rw [shapeCast_a_1a_apply]
  show (broadcastInDim (α := EReal) S8192 ![] bcast_S_S8192 (constant (F := Ideal) S_ .f32 0x3F000000#32) (ix1 n)
      * (shapeCast (α := EReal) S8192 (broadcastInDim (α := EReal) S64x128 ![0] bcast_S64_S64x128_0 (groupSums p))
          shapeCasts_S64x128_S8192 (ix1 n) - p (ix1 n))
      + broadcastInDim (α := EReal) S8192 ![] bcast_S_S8192 (constant (F := Ideal) S_ .f32 0x3F800000#32) (ix1 n))
      + t (ix1 n) = _
  rw [spread_apply, groupSums_apply,
    broadcastInDim_apply _ bcast_S_S8192 (constant (F := Ideal) S_ .f32 0x3F000000#32) (ix1 n) ix0 (fun a => a.elim0),
    broadcastInDim_apply _ bcast_S_S8192 (constant (F := Ideal) S_ .f32 0x3F800000#32) (ix1 n) ix0 (fun a => a.elim0)]
  rfl

end Threshold

/-- Over any contents V of the buffers, the three stretches of operations leave the threshold row composed from
    V's previous spikes and θ. -/
theorem thr5_of (V : Valuation τ sig (Elt Ideal)) :
    StableHlo.after hostOps1_2 (StableHlo.after hostOps1_1 (StableHlo.after hostOps1 V)) (Proc.devRef .tc main_v51)
      = thrRow (V (Proc.devRef .tc main_arg4)) (V (Proc.devRef .tc main_arg6)) := by
  after_results_simp
  rfl

/-- The previous spikes at the first region's exit … -/
abbrev p2 (c : Dev nD) : S8192.Idx → EReal := W2 (F := Ideal) m ρ c (Proc.devRef .tc main_arg4)

/-- … and it is still the launched one: the first region and the operations before it do not write it. -/
theorem p2_eq (c : Dev nD) : p2 m ρ c = m ((c : Thread nD τ).loc main_arg4) :=
  calc W2 (F := Ideal) m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- θ at the first region's exit … -/
abbrev t2 (c : Dev nD) : S8192.Idx → EReal := W2 (F := Ideal) m ρ c (Proc.devRef .tc main_arg6)

/-- … and it is still the launched one: the first region and the operations before it do not write it. -/
theorem t2_eq (c : Dev nD) : t2 m ρ c = m ((c : Thread nD τ).loc main_arg6) :=
  calc W2 (F := Ideal) m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The threshold row at neuron n: (inhibition + 1) + θ. -/
theorem thr5_at (c : Dev nD) (n : Fin 8192) :
    thr5 m ρ c (ix2 0 n) = (Spec.inh (a4 m c) n + Spec.cOne) + a6 m c (ix1 n) := by
  unfold thr5
  refine (congrFun (thr5_of (W2 (F := Ideal) m ρ c)) (ix2 0 n)).trans ?_
  show thrRow (p2 m ρ c) (t2 m ρ c) (ix2 0 n) = _
  rw [thrRow_apply, p2_eq, t2_eq]

end Cert.KernelIdeal.Host1a

end
-- ==== Proof.IndexGather.lean ====
/-
  Gathers of a host program read at one index: the operand's element at the start the index words name, each word
  read signed and clamped so that the one-element slice fits, plus the result's own coordinate on a kept or batching axis.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate
import proofs.«405189_j65369402245526_2_alg».proof.Proof.LibSegmentSum

set_option maxRecDepth 16384

noncomputable section

open scoped BigOperators

namespace Cert.IndexGather

open Idealize.ShloMosaic Idealize.ShloMosaic.ValueIdx
open Cert.LibSegmentSum (getElem_of_eq_singleton)

/-- The second entry of a two-element list. -/
theorem getElem_one_of_eq_pair {α : Type} {l : List α} {a b : α} (hl : l = [a, b]) (k : Nat) (h : k < l.length) (hk : k = 1) :
    l[k] = b := by
  subst hl; subst hk; rfl

/-- The first entry of a two-element list. -/
theorem getElem_zero_of_eq_pair {α : Type} {l : List α} {a b : α} (hl : l = [a, b]) (k : Nat) (h : k < l.length) (hk : k = 0) :
    l[k] = a := by
  subst hl; subst hk; rfl

/-! ## Columns -/

section Cols

variable {B N M w : Nat} (d : GatherDims ⟨2, ![B, N]⟩ ⟨2, ![M, 1]⟩ ⟨2, ![B, M]⟩)

/-- The start-index table is read at (the result's column, 0). -/
theorem siIdx_cols (hoff : d.offsetDims = [0]) (hsim : d.startIndexMap = [1]) (hivd : d.indexVectorDim = 1)
    (b : Fin B) (e : Fin M) (k : Fin d.startIndexMap.length) :
    d.siIdx (ix2 b e) k = ix2 e 0 := by
  -- the result's one batch axis is axis 1
  have hbd : d.batchDims = [(1 : Fin 2)] := by
    change (⟨2, ![B, M]⟩ : Shape).kept d.offsetDims = [1]
    rw [hoff]; rfl
  funext c
  match c with
  | ⟨0, _⟩ =>
    unfold GatherDims.siIdx
    rw [dif_neg (by rw [hivd]; simp)]
    unfold GatherDims.siCoord
    apply Fin.ext
    simp only [Fin.val_cast]
    have col : ∀ X : Fin 2, X = 1 → ((ix2 b e : (⟨2, ![B, M]⟩ : Shape).Idx) X).val = e.val := by
      rintro _ rfl; rfl
    exact col _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the row axis the offset coordinate is the result's row. -/
theorem offCoord_cols0 (hoff : d.offsetDims = [0]) (hcoll : d.collapsedSliceDims = [1]) (hob : d.operandBatchingDims = [])
    (b : Fin B) (e : Fin M) : d.offCoord (ix2 b e) 0 = b.val := by
  have hk : (0 : Fin 2) ∈ d.sKept := by rw [GatherDims.mem_sKept, hcoll, hob]; simp
  unfold GatherDims.offCoord
  rw [dif_pos hk]
  have row : ∀ X : Fin 2, X = 0 → ((ix2 b e : (⟨2, ![B, M]⟩ : Shape).Idx) X).val = b.val := by
    rintro _ rfl; rfl
  exact row _ (getElem_of_eq_singleton hoff _ _)

end Cols

/-- A gather of columns (x[:, idx]): entry (b, e) is row b of the column that index word e names. -/
theorem gather_cols {α : Type} {B N M w : Nat} (d : GatherDims ⟨2, ![B, N]⟩ ⟨2, ![M, 1]⟩ ⟨2, ![B, M]⟩)
    (hoff : d.offsetDims = [0]) (hcoll : d.collapsedSliceDims = [1]) (hob : d.operandBatchingDims = []) (hsb : d.startIndicesBatchingDims = [])
    (hsim : d.startIndexMap = [1]) (hivd : d.indexVectorDim = 1) (hss : d.sliceSizes = ![B, 1])
    (x : (⟨2, ![B, N]⟩ : Shape).Idx → α) (idx : IVec ⟨2, ![M, 1]⟩ w) (b : Fin B) (e : Fin M) (hN : 0 < N) :
    Host.gather d x idx (ix2 b e) = x (ix2 b ⟨min (idx (ix2 e 0)).toInt.toNat (N - 1), by omega⟩) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: kept and not named by the index, so the offset coordinate alone
    have hm : (0 : Fin 2) ∉ d.startIndexMap := by rw [hsim]; simp
    change d.start (ix2 b e) idx 0 + d.batchCoord (ix2 b e) 0 + d.offCoord (ix2 b e) 0 = b.val
    rw [GatherDims.batchCoord_eq_zero _ _ _ (hb 0), offCoord_cols0 d hoff hcoll hob b e, Nat.add_zero]
    unfold GatherDims.start
    rw [dif_neg hm, Nat.zero_add]
  · -- the column axis: collapsed and named by the index, so the clamped start alone
    have hk : (1 : Fin 2) ∉ d.sKept := by rw [GatherDims.mem_sKept, hcoll]; simp
    have hm : (1 : Fin 2) ∈ d.startIndexMap := by rw [hsim]; exact List.mem_singleton.mpr rfl
    have hsl : d.sliceSizes 1 = 1 := d.slice_collapsed 1 (by rw [hcoll]; exact List.mem_singleton.mpr rfl)
    change d.start (ix2 b e) idx 1 + d.batchCoord (ix2 b e) 1 + d.offCoord (ix2 b e) 1 = min (idx (ix2 e 0)).toInt.toNat (N - 1)
    rw [GatherDims.batchCoord_eq_zero _ _ _ (hb 1), GatherDims.offCoord_eq_zero _ _ _ hk]
    simp only [Nat.add_zero]
    unfold GatherDims.start
    rw [dif_pos hm, siIdx_cols d hoff hsim hivd b e, hsl]
    rfl

/-! ## Single entries at index pairs -/

section Pt2

variable {D E M w : Nat} (d : GatherDims ⟨2, ![D, E]⟩ ⟨2, ![M, 2]⟩ ⟨1, ![M]⟩)

/-- Component `c` of the start index of result entry `e` is read at (e, c) of the start-index table. -/
theorem siIdx_pt2 (hivd : d.indexVectorDim = 1) (e : Fin M) (k : Fin d.startIndexMap.length) (c : Fin 2) (hc : k.val = c.val) :
    d.siIdx (ix1 e) k = ix2 e c := by
  funext b
  match b with
  | ⟨0, _⟩ =>
    -- the row of the table: the result's one coordinate
    unfold GatherDims.siIdx
    rw [dif_neg (by rw [hivd]; simp)]
    unfold GatherDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the table: the component's position
    unfold GatherDims.siIdx
    rw [dif_pos (by rw [hivd])]
    apply Fin.ext
    exact hc

end Pt2

/-- A gather of single entries at index pairs (x[i, j]): entry e is the element the two index words of row e name. -/
theorem gather_pt2 {α : Type} {D E M w : Nat} (d : GatherDims ⟨2, ![D, E]⟩ ⟨2, ![M, 2]⟩ ⟨1, ![M]⟩)
    (hoff : d.offsetDims = []) (hcoll : d.collapsedSliceDims = [0, 1]) (hob : d.operandBatchingDims = []) (hsb : d.startIndicesBatchingDims = [])
    (hsim : d.startIndexMap = [0, 1]) (hivd : d.indexVectorDim = 1) (hss : d.sliceSizes = ![1, 1])
    (x : (⟨2, ![D, E]⟩ : Shape).Idx → α) (idx : IVec ⟨2, ![M, 2]⟩ w) (e : Fin M) (hD : 0 < D) (hE : 0 < E) :
    Host.gather d x idx (ix1 e)
      = x (ix2 ⟨min (idx (ix2 e 0)).toInt.toNat (D - 1), by omega⟩ ⟨min (idx (ix2 e 1)).toInt.toNat (E - 1), by omega⟩) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- axis 0: collapsed and named by the first index word, so its clamped start alone
    have hk : (0 : Fin 2) ∉ d.sKept := by rw [GatherDims.mem_sKept, hcoll]; simp
    have hm : (0 : Fin 2) ∈ d.startIndexMap := by rw [hsim]; simp
    have hsl : d.sliceSizes 0 = 1 := d.slice_collapsed 0 (by rw [hcoll]; simp)
    have hsi : d.siIdx (ix1 e) ⟨d.startIndexMap.idxOf 0, List.idxOf_lt_length_iff.2 hm⟩ = ix2 e 0 :=
      siIdx_pt2 d hivd e _ 0 (by show List.idxOf (0 : Fin 2) d.startIndexMap = 0; rw [hsim]; rfl)
    change d.start (ix1 e) idx 0 + d.batchCoord (ix1 e) 0 + d.offCoord (ix1 e) 0 = min (idx (ix2 e 0)).toInt.toNat (D - 1)
    rw [GatherDims.batchCoord_eq_zero _ _ _ (hb 0), GatherDims.offCoord_eq_zero _ _ _ hk]
    simp only [Nat.add_zero]
    unfold GatherDims.start
    rw [dif_pos hm, hsi, hsl]
    rfl
  · -- axis 1: collapsed and named by the second index word
    have hk : (1 : Fin 2) ∉ d.sKept := by rw [GatherDims.mem_sKept, hcoll]; simp
    have hm : (1 : Fin 2) ∈ d.startIndexMap := by rw [hsim]; simp
    have hsl : d.sliceSizes 1 = 1 := d.slice_collapsed 1 (by rw [hcoll]; simp)
    have hsi : d.siIdx (ix1 e) ⟨d.startIndexMap.idxOf 1, List.idxOf_lt_length_iff.2 hm⟩ = ix2 e 1 :=
      siIdx_pt2 d hivd e _ 1 (by show List.idxOf (1 : Fin 2) d.startIndexMap = 1; rw [hsim]; rfl)
    change d.start (ix1 e) idx 1 + d.batchCoord (ix1 e) 1 + d.offCoord (ix1 e) 1 = min (idx (ix2 e 1)).toInt.toNat (E - 1)
    rw [GatherDims.batchCoord_eq_zero _ _ _ (hb 1), GatherDims.offCoord_eq_zero _ _ _ hk]
    simp only [Nat.add_zero]
    unfold GatherDims.start
    rw [dif_pos hm, hsi, hsl]
    rfl

/-! ## Along axis 0, batched over axis 1 -/

section Batched

variable {D N w : Nat} (d : GatherDims ⟨2, ![D, N]⟩ ⟨3, ![1, N, 1]⟩ ⟨2, ![1, N]⟩)

/-- The result's coordinate for axis 1 of the start-index table is its own column. -/
theorem siCoord_batched1 (hoff : d.offsetDims = []) (hivd : d.indexVectorDim = 2) (n : Fin N)
    (b : Fin 3) (hb : b ∈ d.siKept) (h1 : b = 1) : (d.siCoord (ix2 0 n) b hb).val = n.val := by
  subst h1
  -- both of the result's axes are batch axes; the table's axes 0 and 1 read them in order
  have hbd : d.batchDims = [(0 : Fin 2), 1] := by
    change (⟨2, ![1, N]⟩ : Shape).kept d.offsetDims = [0, 1]
    rw [hoff]; rfl
  have hsk : d.siKept = [(0 : Fin 3), 1] := by
    change (List.finRange 3).filter (fun b : Fin 3 => b.val ≠ d.indexVectorDim) = [0, 1]
    rw [hivd]; rfl
  unfold GatherDims.siCoord
  simp only [Fin.val_cast]
  have col : ∀ X : Fin 2, X = 1 → ((ix2 (0 : Fin 1) n : (⟨2, ![1, N]⟩ : Shape).Idx) X).val = n.val := by
    rintro _ rfl; rfl
  exact col _ (getElem_one_of_eq_pair hbd _ _ (by rw [hsk]; rfl))

/-- The start-index table is read at (0, the result's column, 0). -/
theorem siIdx_batched (hoff : d.offsetDims = []) (hsim : d.startIndexMap = [0]) (hivd : d.indexVectorDim = 2)
    (n : Fin N) (k : Fin d.startIndexMap.length) :
    d.siIdx (ix2 0 n) k = ix3 0 n 0 := by
  funext c
  match c with
  | ⟨0, _⟩ =>
    -- an axis of extent one
    exact @Subsingleton.elim (Fin 1) _ _ _
  | ⟨1, _⟩ =>
    unfold GatherDims.siIdx
    rw [dif_neg (by rw [hivd]; simp)]
    apply Fin.ext
    exact siCoord_batched1 d hoff hivd n _ _ rfl
  | ⟨2, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the batching axis the operand's coordinate is the result's column. -/
theorem batchCoord_batched1 (hoff : d.offsetDims = []) (hob : d.operandBatchingDims = [1]) (hsb : d.startIndicesBatchingDims = [1])
    (hivd : d.indexVectorDim = 2) (n : Fin N) : d.batchCoord (ix2 0 n) 1 = n.val := by
  have hm : (1 : Fin 2) ∈ d.operandBatchingDims := by rw [hob]; exact List.mem_singleton.mpr rfl
  unfold GatherDims.batchCoord
  rw [dif_pos hm]
  -- the paired axis of the start-index table is its axis 1
  exact siCoord_batched1 d hoff hivd n _ _ (getElem_of_eq_singleton hsb _ _)

end Batched

/-- A gather along axis 0 batched over axis 1 (take_along_axis): entry (0, n) is column n of the row that index word n names. -/
theorem gather_batched {α : Type} {D N w : Nat} (d : GatherDims ⟨2, ![D, N]⟩ ⟨3, ![1, N, 1]⟩ ⟨2, ![1, N]⟩)
    (hoff : d.offsetDims = []) (hcoll : d.collapsedSliceDims = [0]) (hob : d.operandBatchingDims = [1]) (hsb : d.startIndicesBatchingDims = [1])
    (hsim : d.startIndexMap = [0]) (hivd : d.indexVectorDim = 2) (hss : d.sliceSizes = ![1, 1])
    (x : (⟨2, ![D, N]⟩ : Shape).Idx → α) (idx : IVec ⟨3, ![1, N, 1]⟩ w) (n : Fin N) (hD : 0 < D) :
    Host.gather d x idx (ix2 0 n) = x (ix2 ⟨min (idx (ix3 0 n 0)).toInt.toNat (D - 1), by omega⟩ n) := by
  unfold Host.gather
  congr 1
  funext a
  apply Fin.ext
  revert a
  refine Fin.forall_fin_two.mpr ⟨?_, ?_⟩
  · -- axis 0: collapsed and named by the index, so the clamped start alone
    have hk : (0 : Fin 2) ∉ d.sKept := by rw [GatherDims.mem_sKept, hcoll]; simp
    have hnb : (0 : Fin 2) ∉ d.operandBatchingDims := by rw [hob]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 0 n) idx 0 + d.batchCoord (ix2 0 n) 0 + d.offCoord (ix2 0 n) 0 = min (idx (ix3 0 n 0)).toInt.toNat (D - 1)
    rw [GatherDims.batchCoord_eq_zero _ _ _ hnb, GatherDims.offCoord_eq_zero _ _ _ hk]
    simp only [Nat.add_zero]
    unfold GatherDims.start
    rw [dif_pos hm, siIdx_batched d hoff hsim hivd n, hsl]
    rfl
  · -- axis 1: a batching axis, so the result's batch coordinate alone
    have hbm : (1 : Fin 2) ∈ d.operandBatchingDims := by rw [hob]; exact List.mem_singleton.mpr rfl
    have hk : (1 : Fin 2) ∉ d.sKept := by rw [GatherDims.mem_sKept, hob]; simp
    change d.start (ix2 0 n) idx 1 + d.batchCoord (ix2 0 n) 1 + d.offCoord (ix2 0 n) 1 = n.val
    rw [GatherDims.start_batching _ _ _ _ hbm, GatherDims.offCoord_eq_zero _ _ _ hk,
      batchCoord_batched1 d hoff hob hsb hivd n, Nat.zero_add, Nat.add_zero]

end Cert.IndexGather

end
-- ==== Proof.KHost1b.lean ====
/-
  Between the regions: the plasticity row. The batch mean of the input; the first 8192 delay words and the first 8192
  columns of the delay buffer; each column read at the row its delay word names (a word out of range would read a
  fill value instead, which an in-range word never does); then the two products with the previous spikes, subtracted.
-/
import proofs.«405189_j65369402245526_2_alg».proof.Proof.KNames
import proofs.«405189_j65369402245526_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
import proofs.«405189_j65369402245526_2_alg».proof.Proof.IndexGather

set_option maxRecDepth 16384

noncomputable section

open scoped BigOperators

namespace Cert.KernelIdeal.Host1b

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg)

/-! ## The operations' terms, each over arrays of the literal types -/

/-- The batch mean: each column summed from the zero word, divided by the word for 32. -/
def meanOf (x : S32x8192.Idx → EReal) : S8192.Idx → EReal :=
  Host.divf (Host.reduceAdd x (constant (F := Ideal) S_ .f32 0x00000000#32) reducesTo_S32x8192_S8192_d0 h_S_)
    (broadcastInDim S8192 ![] bcast_S_S8192 (constant (F := Ideal) S_ .f32 0x42000000#32))

/-- The first 8192 columns of the delay buffer. -/
def tabOf (db : S16x1048576.Idx → EReal) : S16x8192.Idx → EReal :=
  extractStridedSlice S16x8192 ![0, 0] db slices_S16x1048576_S16x8192_0_0

/-- The first 8192 delay words, as a row. -/
def wordsOf (dl : S1048576.Idx → BitVec 32) : S1x8192.Idx → BitVec 32 :=
  broadcastInDim S1x8192 ![1] bcast_S8192_S1x8192_1 (extractStridedSlice S8192 ![0] dl slices_S1048576_S8192_0)

/-- A negative row word counts from the end of the 16 rows. -/
def wrapRow (d : S1x8192.Idx → BitVec 32) : S1x8192.Idx → BitVec 32 :=
  select (cmpi .slt d (broadcastInDim S1x8192 ![] bcast_S_S1x8192 (constantI S_ 32 0#32)))
    (addi d (broadcastInDim S1x8192 ![] bcast_S_S1x8192 (constantI S_ 32 16#32))) d

/-- The row words as the gather takes them: one word per column, in a last axis of size one. -/
def idxCol (d : S1x8192.Idx → BitVec 32) : S1x8192x1.Idx → BitVec 32 :=
  shapeCast S1x8192x1 (wrapRow d) shapeCasts_S1x8192_S1x8192x1

/-- Whether each word names a row: 0 ≤ word and word ≤ 15, and-ed over the last axis. -/
def inRows (ic : S1x8192x1.Idx → BitVec 32) : S1x8192.Idx → BitVec 1 :=
  Host.reduce IntOp.andi
    (andi (cmpi .sge ic (broadcastInDim S1x8192x1 ![] bcast_S_S1x8192x1 (constantI S_ 32 0#32)))
      (cmpi .sle ic (broadcastInDim S1x8192x1 ![0, 1, 2] bcast_S1x1x1_S1x8192x1_0_1_2
        (broadcastInDim S1x1x1 ![2] bcast_S1_S1x1x1_2 (constantI S1 32 15#32)))))
    (constantI S_ 1 1#1) reducesTo_S1x8192x1_S1x8192_d2 h_S_

/-- The row read: the gathered value where the word names a row, the fill value elsewhere. -/
def taken (tab : S16x8192.Idx → EReal) (d : S1x8192.Idx → BitVec 32) : S1x8192.Idx → EReal :=
  select (inRows (idxCol d)) (Host.gather gather_S16x8192_S1x8192x1_S1x8192_n_0_1_1_0_2_11 tab (idxCol d))
    (broadcastInDim S1x8192 ![] bcast_S_S1x8192 (constant (F := Ideal) S_ .f32 0x7FC00000#32))

/-- The row the last stretch writes, from the delayed trace (as a row), the batch mean and the previous spikes. -/
def rowOf (g : S1x8192.Idx → EReal) (mu ps : S8192.Idx → EReal) : S1x8192.Idx → EReal :=
  shapeCast S1x8192
    (subf
      (mulf (mulf (broadcastInDim S8192 ![] bcast_S_S8192 (constant (F := Ideal) S_ .f32 0x3C23D70A#32))
        (shapeCast S8192 g shapeCasts_S1x8192_S8192)) ps)
      (mulf (mulf (broadcastInDim S8192 ![] bcast_S_S8192 (constant (F := Ideal) S_ .f32 0x3C449BA6#32)) mu) ps))
    shapeCasts_S8192_S1x8192

/-! ## Each term read at one index -/

/-- The mean at neuron n: the zero word plus the 32 currents of column n, over the word for 32. -/
theorem meanOf_at (x : S32x8192.Idx → EReal) (n : Fin 8192) : meanOf x (ix1 n) = Spec.xmean x n := by
  unfold meanOf Spec.xmean
  show Ideal.div (Host.reduceAdd x (constant (F := Ideal) S_ .f32 0x00000000#32) reducesTo_S32x8192_S8192_d0 h_S_ (ix1 n))
      (broadcastInDim S8192 ![] bcast_S_S8192 (constant (F := Ideal) S_ .f32 0x42000000#32) (ix1 n)) = _
  rw [broadcastInDim_apply _ bcast_S_S8192 _ (ix1 n) ix0 (fun a => a.elim0)]
  simp only [Host.reduceAdd, Ideal.hostReduceAdd_def]
  rw [Ideal.hostReduceAdd_single reducesTo_S32x8192_S8192_d0 (by decide)]
  -- the index the sum runs over, with row k inserted above column n, is (k, n)
  refine congrArg (fun t => Ideal.div (Spec.cZero + t) Spec.cBatch) (Finset.sum_congr rfl fun k _ => congrArg x ?_)
  exact funext fun a => Fin.ext (by match a with | ⟨0, _⟩ => rfl | ⟨1, _⟩ => rfl)

/-- Row r, column n of the sliced buffer is row r, column n of the whole one. -/
theorem tabOf_at (db : S16x1048576.Idx → EReal) (r : Fin 16) (n : Fin 8192) :
    tabOf db (ix2 r n) = db (ix2 r (Spec.up n)) :=
  extractStridedSlice_apply ![0, 0] db slices_S16x1048576_S16x8192_0_0 (ix2 r n) (ix2 r (Spec.up n))
    (fun a => match a with
      | ⟨0, _⟩ => by show r.val = 0 + r.val; omega
      | ⟨1, _⟩ => by show n.val = 0 + n.val; omega)

/-- Word n of the row is delay word n. -/
theorem wordsOf_at (dl : S1048576.Idx → BitVec 32) (n : Fin 8192) :
    wordsOf dl (ix2 0 n) = dl (ix1 (Spec.up n)) := by
  unfold wordsOf
  rw [broadcastInDim_apply _ bcast_S8192_S1x8192_1 _ (ix2 0 n) (ix1 n)
    (fun a => match a with
      | ⟨0, _⟩ => by show n.val = if (8192 : Nat) = 1 then 0 else n.val; rw [if_neg (by decide)])]
  exact extractStridedSlice_apply ![0] dl slices_S1048576_S8192_0 (ix1 n) (ix1 (Spec.up n))
    (fun a => match a with
      | ⟨0, _⟩ => by show n.val = 0 + n.val; omega)

/-- A row word is wrapped as an index word over 16 rows. -/
theorem wrapRow_at (d : S1x8192.Idx → BitVec 32) (i : S1x8192.Idx) : wrapRow d i = Spec.wrapW 16#32 (d i) := by
  unfold wrapRow Spec.wrapW
  show Scalar.select (IntOp.cmpi .slt (d i) (broadcastInDim S1x8192 ![] bcast_S_S1x8192 (constantI S_ 32 0#32) i))
      (IntOp.addi (d i) (broadcastInDim S1x8192 ![] bcast_S_S1x8192 (constantI S_ 32 16#32) i)) (d i) = _
  rw [broadcastInDim_apply _ bcast_S_S1x8192 (constantI S_ 32 0#32) i ix0 (fun a => a.elim0),
    broadcastInDim_apply _ bcast_S_S1x8192 (constantI S_ 32 16#32) i ix0 (fun a => a.elim0)]
  rfl

/-- A word that reads nonnegative is not below zero, so wrapping leaves it. -/
theorem wrap_of_nonneg (N v : BitVec 32) (h0 : 0 ≤ v.toInt) : Spec.wrapW N v = v := by
  unfold Spec.wrapW
  have hc : ¬ IntOp.cmpi .slt v 0#32 = 1 := fun e => by
    have h := IntOp.cmpi_slt.1 e
    have z : (0#32 : BitVec 32).toInt = 0 := by decide
    omega
  rw [Scalar.select, if_neg hc]

/-- Column n of the index column is row word n, wrapped: a reshape moves no element. -/
theorem idxCol_at (d : S1x8192.Idx → BitVec 32) (n : Fin 8192) : idxCol d (ix3 0 n 0) = wrapRow d (ix2 0 n) := by
  unfold idxCol
  exact shapeCast_apply _ shapeCasts_S1x8192_S1x8192x1 (ix3 0 n 0) (ix2 0 n)
    (by rewrite [Shape.rowMajor_val_three, Shape.rowMajor_val_two]
        show 0 * 8192 + n.val = (0 * 8192 + n.val) * 1 + 0; omega)

/-- An and-fold over one element is the and of that element with the start value. -/
theorem fold_andi_one (g : Fin 1 → BitVec 1) (b : BitVec 1) :
    Finset.fold IntOp.andi b g Finset.univ = IntOp.andi (g 0) b := by
  rw [Finset.univ_unique, Finset.fold_singleton]; rfl

/-- The range test at column n is 1 when the index word there reads in [0, 15]: the and over the last axis,
    of size one, is the and of the start value 1 with the one element. -/
theorem inRows_at (ic : S1x8192x1.Idx → BitVec 32) (n : Fin 8192)
    (h0 : 0 ≤ (ic (ix3 0 n 0)).toInt) (h15 : (ic (ix3 0 n 0)).toInt ≤ 15) : inRows ic (ix2 0 n) = 1#1 := by
  unfold inRows
  have hR : Shape.Reduces S1x8192x1 [2] S1x8192 := by decide
  rw [Host.reduce_eq_fold_single IntOp.andi _ _ reducesTo_S1x8192x1_S1x8192_d2 hR h_S_]
  -- column n with the one coordinate of the last axis inserted is (0, n, 0)
  have hk : hR.lift (ix2 0 n) (0 : Fin 1) = ix3 0 n 0 :=
    funext fun a => Fin.ext (by match a with | ⟨0, _⟩ => rfl | ⟨1, _⟩ => rfl | ⟨2, _⟩ => rfl)
  refine (fold_andi_one _ _).trans (IntOp.andi_eq_one.2 ⟨(congrArg _ hk).trans ?_, rfl⟩)
  show IntOp.andi
      (IntOp.cmpi .sge (ic (ix3 0 n 0)) (broadcastInDim S1x8192x1 ![] bcast_S_S1x8192x1 (constantI S_ 32 0#32) (ix3 0 n 0)))
      (IntOp.cmpi .sle (ic (ix3 0 n 0)) (broadcastInDim S1x8192x1 ![0, 1, 2] bcast_S1x1x1_S1x8192x1_0_1_2
        (broadcastInDim S1x1x1 ![2] bcast_S1_S1x1x1_2 (constantI S1 32 15#32)) (ix3 0 n 0))) = 1#1
  rw [broadcastInDim_apply _ bcast_S_S1x8192x1 (constantI S_ 32 0#32) (ix3 0 n 0) ix0 (fun a => a.elim0),
    broadcastInDim_apply _ bcast_S1x1x1_S1x8192x1_0_1_2 _ (ix3 0 n 0) (ix3 0 0 0)
      (fun a => match a with | ⟨0, _⟩ => rfl | ⟨1, _⟩ => rfl | ⟨2, _⟩ => rfl),
    broadcastInDim_apply _ bcast_S1_S1x1x1_2 (constantI S1 32 15#32) (ix3 0 0 0) (ix1 0)
      (fun a => match a with | ⟨0, _⟩ => rfl)]
  have z0 : (0#32 : BitVec 32).toInt = 0 := by decide
  have z15 : (15#32 : BitVec 32).toInt = 15 := by decide
  refine IntOp.andi_eq_one.2 ⟨IntOp.cmpi_sge.2 ?_, IntOp.cmpi_sle.2 ?_⟩
  · show (0#32 : BitVec 32).toInt ≤ _; omega
  · show _ ≤ (15#32 : BitVec 32).toInt; omega

/-- The row read at column n, when row word n reads as a row r: the buffer's entry (r, n). The wrap leaves the word,
    the range test holds, and the gather reads the row the word names (its clamp into [0, 15] is the word). -/
theorem taken_at (tab : S16x8192.Idx → EReal) (d : S1x8192.Idx → BitVec 32) (n : Fin 8192) (r : Fin 16)
    (hr : (d (ix2 0 n)).toInt = (r.val : ℤ)) : taken tab d (ix2 0 n) = tab (ix2 r n) := by
  have hrlt := r.isLt
  have hw : idxCol d (ix3 0 n 0) = d (ix2 0 n) :=
    (idxCol_at d n).trans ((wrapRow_at d (ix2 0 n)).trans (wrap_of_nonneg _ _ (by omega)))
  have hin : inRows (idxCol d) (ix2 0 n) = 1 := inRows_at (idxCol d) n (by rw [hw]; omega) (by rw [hw]; omega)
  unfold taken
  show Scalar.select (inRows (idxCol d) (ix2 0 n))
      (Host.gather gather_S16x8192_S1x8192x1_S1x8192_n_0_1_1_0_2_11 tab (idxCol d) (ix2 0 n)) _ = _
  rw [Scalar.select, if_pos hin]
  refine (Cert.IndexGather.gather_batched gather_S16x8192_S1x8192x1_S1x8192_n_0_1_1_0_2_11 rfl rfl rfl rfl rfl rfl rfl
    tab (idxCol d) n (by decide)).trans (congrArg (fun q => tab (ix2 q n)) (Fin.ext ?_))
  show min (idxCol d (ix3 0 n 0)).toInt.toNat (16 - 1) = r.val
  rw [hw, hr, Int.toNat_natCast]; omega

/-- Entry (0, n) of the row: the trace at (0, n) and the mean at n, each scaled and multiplied by spike n. -/
theorem rowOf_at (g : S1x8192.Idx → EReal) (mu ps : S8192.Idx → EReal) (n : Fin 8192) :
    rowOf g mu ps (ix2 0 n)
      = (Spec.cPlus * g (ix2 0 n)) * ps (ix1 n) - (Spec.cMinus * mu (ix1 n)) * ps (ix1 n) := by
  unfold rowOf
  -- a reshape moves no element: position n of the vector is position (0, n) of the row, and back
  rw [shapeCast_apply _ shapeCasts_S8192_S1x8192 (ix2 0 n) (ix1 n)
    (by rewrite [Shape.rowMajor_val_two, Shape.rowMajor_val_one]; show n.val = 0 * 8192 + n.val; omega)]
  show (FloatOps.ofBits (F := Ideal) .f32 0x3C23D70A#32 * shapeCast S8192 g shapeCasts_S1x8192_S8192 (ix1 n)) * ps (ix1 n)
      - (FloatOps.ofBits (F := Ideal) .f32 0x3C449BA6#32 * mu (ix1 n)) * ps (ix1 n) = _
  rw [shapeCast_apply g shapeCasts_S1x8192_S8192 (ix1 n) (ix2 0 n)
    (by rewrite [Shape.rowMajor_val_two, Shape.rowMajor_val_one]; show 0 * 8192 + n.val = n.val; omega)]
  rfl

/-! ## What each stretch of operations leaves, as these terms over what it found -/

section Stretches
variable (V : Valuation τ sig (Elt Ideal))

theorem stage1_mean :
    (StableHlo.after hostOps1 V (Proc.devRef .tc main_v25) : S8192.Idx → EReal)
      = meanOf (V (Proc.devRef .tc main_arg0)) := by
  after_results_simp
  rfl
theorem stage1_tab :
    (StableHlo.after hostOps1 V (Proc.devRef .tc main_v27) : S16x8192.Idx → EReal)
      = tabOf (V (Proc.devRef .tc main_arg3)) := by
  after_results_simp
  rfl
theorem stage1_words :
    (StableHlo.after hostOps1 V (Proc.devRef .tc main_v28) : S1x8192.Idx → BitVec 32)
      = wordsOf (V (Proc.devRef .tc main_arg9)) := by
  after_results_simp
  rfl
theorem stage1_keep4 :
    StableHlo.after hostOps1 V (Proc.devRef .tc main_arg4) = V (Proc.devRef .tc main_arg4) := by
  after_results_simp

theorem stage2 :
    (StableHlo.after hostOps1_1 V (Proc.devRef .tc main_v29) : S1x8192.Idx → EReal)
      = taken (V (Proc.devRef .tc main_v27)) (V (Proc.devRef .tc main_v28)) := by
  after_results_simp
  rfl
theorem stage2_keep25 :
    StableHlo.after hostOps1_1 V (Proc.devRef .tc main_v25) = V (Proc.devRef .tc main_v25) := by
  after_results_simp
theorem stage2_keep4 :
    StableHlo.after hostOps1_1 V (Proc.devRef .tc main_arg4) = V (Proc.devRef .tc main_arg4) := by
  after_results_simp

theorem stage3 :
    (StableHlo.after hostOps1_2 V (Proc.devRef .tc main_v49) : S1x8192.Idx → EReal)
      = rowOf (V (Proc.devRef .tc main_v29)) (V (Proc.devRef .tc main_v25)) (V (Proc.devRef .tc main_arg4)) := by
  after_results_simp
  rfl

/-! The operations before the first region write none of the four arguments read here. -/
theorem stage0_keep0 :
    StableHlo.after hostOps0 V (Proc.devRef .tc main_arg0) = V (Proc.devRef .tc main_arg0) := by
  after_results_simp
theorem stage0_keep3 :
    StableHlo.after hostOps0 V (Proc.devRef .tc main_arg3) = V (Proc.devRef .tc main_arg3) := by
  after_results_simp
theorem stage0_keep4 :
    StableHlo.after hostOps0 V (Proc.devRef .tc main_arg4) = V (Proc.devRef .tc main_arg4) := by
  after_results_simp
theorem stage0_keep9 :
    StableHlo.after hostOps0 V (Proc.devRef .tc main_arg9) = V (Proc.devRef .tc main_arg9) := by
  after_results_simp

end Stretches

/-! ## The four arguments are still as launched when the first region has run -/

/-- The input currents: the first region reads them through an input window, which leaves the array as entered. -/
theorem W2_arg0 (c : Dev nD) : W2 (F := Ideal) m ρ c (Proc.devRef .tc main_arg0) = a0 m c :=
  ((W2_arr m ρ c 0).trans (((dat0 (V1 m ρ) c).arrAt_in 0 rfl _).trans (A_eq0 (V1 m ρ) c 0))).trans
    ((stage0_keep0 (W0 m ρ c)).trans rfl)
/-- The delay buffer, the previous spikes and the delay words: the first region has no window on them. -/
theorem W2_arg3 (c : Dev nD) : W2 (F := Ideal) m ρ c (Proc.devRef .tc main_arg3) = a3 m c :=
  (W2_of_ne m ρ c main_arg3 (by decide)).trans ((stage0_keep3 (W0 m ρ c)).trans rfl)
theorem W2_arg4 (c : Dev nD) : W2 (F := Ideal) m ρ c (Proc.devRef .tc main_arg4) = a4 m c :=
  (W2_of_ne m ρ c main_arg4 (by decide)).trans ((stage0_keep4 (W0 m ρ c)).trans rfl)
theorem W2_arg9 (c : Dev nD) : W2 (F := Ideal) m ρ c (Proc.devRef .tc main_arg9) = a9 m c :=
  (W2_of_ne m ρ c main_arg9 (by decide)).trans ((stage0_keep9 (W0 m ρ c)).trans rfl)

/-! ## The row at the second region's entry -/

/-- The plasticity row the second region finds, at neuron n, when every delay word names a row. -/
theorem stdp5_at (c : Dev nD) (dlF : Fin 1048576 → Fin 16)
    (hdl : ∀ e : Fin 1048576, (a9 m c (ix1 e)).toInt = ((dlF e).val : ℤ)) (n : Fin 8192) :
    stdp5 m ρ c (ix2 0 n) = Spec.stdp (a0 m c) (a3 m c) (a4 m c) dlF n := by
  -- the three arrays the last stretch reads, each walked back through the stretches to the launch arguments
  have e4 : (StableHlo.after hostOps1_1 (W3 (F := Ideal) m ρ c) (Proc.devRef .tc main_arg4) : S8192.Idx → EReal) = a4 m c :=
    (stage2_keep4 (W3 m ρ c)).trans ((stage1_keep4 (W2 m ρ c)).trans (W2_arg4 m ρ c))
  have e25 : (StableHlo.after hostOps1_1 (W3 (F := Ideal) m ρ c) (Proc.devRef .tc main_v25) : S8192.Idx → EReal)
      = meanOf (a0 m c) :=
    (stage2_keep25 (W3 m ρ c)).trans ((stage1_mean (W2 m ρ c)).trans (congrArg meanOf (W2_arg0 m ρ c)))
  have e29 : (StableHlo.after hostOps1_1 (W3 (F := Ideal) m ρ c) (Proc.devRef .tc main_v29) : S1x8192.Idx → EReal)
      = taken (tabOf (a3 m c)) (wordsOf (a9 m c)) :=
    (stage2 (W3 m ρ c)).trans (congrArg₂ taken
      ((stage1_tab (W2 m ρ c)).trans (congrArg tabOf (W2_arg3 m ρ c)))
      ((stage1_words (W2 m ρ c)).trans (congrArg wordsOf (W2_arg9 m ρ c))))
  unfold stdp5
  refine (congrFun (stage3 (W4 (F := Ideal) m ρ c)) (ix2 0 n)).trans ?_
  show rowOf (StableHlo.after hostOps1_1 (W3 (F := Ideal) m ρ c) (Proc.devRef .tc main_v29))
      (StableHlo.after hostOps1_1 (W3 (F := Ideal) m ρ c) (Proc.devRef .tc main_v25))
      (StableHlo.after hostOps1_1 (W3 (F := Ideal) m ρ c) (Proc.devRef .tc main_arg4)) (ix2 0 n) = _
  rw [e29, e25, e4, rowOf_at, meanOf_at,
    taken_at (tabOf (a3 m c)) (wordsOf (a9 m c)) n (dlF (Spec.up n))
      ((congrArg BitVec.toInt (wordsOf_at (a9 m c) n)).trans (hdl (Spec.up n))),
    tabOf_at]
  rfl

end Cert.KernelIdeal.Host1b

end
-- ==== Proof.KernelValue.lean ====
/-
  The kernel program's result at (b, n), from its five pieces: the second region's logistic over the arrays it finds;
  those arrays as the host operations between the regions leave them; the first region's product; and the edge-weight
  matrix the first host stretch scatters. With every source word naming a neuron the wrapped word is the word itself,
  so the matrix entry (j, k) collects exactly the edges from j to k.
-/
import proofs.«405189_j65369402245526_2_alg».proof.Proof.KNames
import proofs.«405189_j65369402245526_2_alg».proof.Proof.Spec
import proofs.«405189_j65369402245526_2_alg».proof.Proof.KHost0
import proofs.«405189_j65369402245526_2_alg».proof.Proof.KRegion0
import proofs.«405189_j65369402245526_2_alg».proof.Proof.KRegion1
import proofs.«405189_j65369402245526_2_alg».proof.Proof.KHost1a
import proofs.«405189_j65369402245526_2_alg».proof.Proof.KHost1b

set_option maxRecDepth 16384

noncomputable section

open scoped BigOperators

namespace Cert.KernelIdeal.Value

open Cert.KernelIdeal Cert.KernelIdeal.Gen Cert.KernelIdeal.KV Idealize.ShloMosaic Idealize.ShloMosaic.TcCoe Idealize.ShloMosaic.ValueIdx Idealize.SL.Sem

variable (m : (ℓ : Loc nD τ sig) → Buf (Elt Ideal) ℓ) (ρ : Dev nD → PrngReg)

/-- A nonnegative word is not counted from the end of the axis. -/
theorem wrapW_of_nonneg (N v : BitVec 32) (h0 : 0 ≤ v.toInt) : Spec.wrapW N v = v := by
  unfold Spec.wrapW Scalar.select
  rw [if_neg]
  intro h
  have hs : v.slt 0#32 = true := by
    cases hb : v.slt 0#32 with
    | true => rfl
    | false =>
      have h1 : IntOp.cmpi .slt v 0#32 = 0#1 := by simp [IntOp.cmpi, hb]
      rw [h1] at h
      exact absurd h (by decide)
  rw [BitVec.slt_iff_toInt_lt] at hs
  have h00 : (0#32 : BitVec 32).toInt = 0 := by decide
  omega

/-- The edge-weight matrix at (j, k), when every source word names a neuron. -/
theorem S_eq (c : Dev nD) (srcF : Fin 1048576 → Fin 8192)
    (hsrc : ∀ e : Fin 1048576, (a8 m c (ix2 0 e)).toInt = ((srcF e).val : ℤ)) (j k : Fin 8192) :
    s1 m ρ c (ix2 j k) = Spec.S (a1 m c) srcF (fun e => (Spec.wrapW 8192#32 (a8 m c (ix2 1 e))).toInt) j k := by
  refine (Host0.S_at m ρ c j k).trans ?_
  unfold Spec.S
  refine congrArg (Spec.cZero + ·) ?_
  refine Finset.sum_congr (Finset.filter_congr fun e _ => ?_) fun _ _ => rfl
  have hw : Spec.wrapW 8192#32 (a8 m c (ix2 0 e)) = a8 m c (ix2 0 e) :=
    wrapW_of_nonneg 8192#32 (a8 m c (ix2 0 e)) (by rw [hsrc e]; exact Int.natCast_nonneg _)
  rw [hw, hsrc e]

/-- The program's result at (b, n) is the kernel's arrangement of the specification. -/
theorem result_at (c : Dev nD) (srcF : Fin 1048576 → Fin 8192) (dlF : Fin 1048576 → Fin 16)
    (hsrc : ∀ e : Fin 1048576, (a8 m c (ix2 0 e)).toInt = ((srcF e).val : ℤ))
    (hdl : ∀ e : Fin 1048576, (a9 m c (ix1 e)).toInt = ((dlF e).val : ℤ)) (b : Fin 32) (n : Fin 8192) :
    out6 m ρ c (ix2 b n)
      = Spec.outK (a0 m c) (a5 m c) (a1 m c) (a2 m c) (a3 m c) (a4 m c) (a6 m c) (a7 m c) (a10 m c) srcF dlF
          (fun e => (Spec.wrapW 8192#32 (a8 m c (ix2 1 e))).toInt) b n := by
  rw [Region1.out_at, Host1a.mem5_eq, Host1a.w5_eq, Host1a.mask5_at, Host1a.thr5_at, Host1b.stdp5_at m ρ c dlF hdl]
  unfold Spec.outK Spec.zOnce Spec.act Spec.isyn
  have hsum : (∑ k : Fin 8192, syn5 m ρ c (ix2 b k) * a2 m c (ix2 n k))
      = ∑ k : Fin 8192, (Spec.synMat (a0 m c) (a1 m c) srcF (fun e => (Spec.wrapW 8192#32 (a8 m c (ix2 1 e))).toInt) b k * a7 m c (ix1 0))
          * a2 m c (ix2 n k) := by
    refine Finset.sum_congr rfl fun k _ => ?_
    refine congrArg (· * a2 m c (ix2 n k)) ?_
    refine (Host1a.syn5_at m ρ c b k).trans ?_
    refine congrArg (· * a7 m c (ix1 0)) ?_
    refine (Region0.syn_at m ρ c b k).trans ?_
    unfold Spec.synMat
    refine Finset.sum_congr rfl fun j _ => ?_
    rw [Host0.x_at m ρ c, S_eq m ρ c srcF hsrc j k]
  rw [hsum]

end Cert.KernelIdeal.Value

end
-- ==== Proof.RefStdp.lean ====
/-
  The reference's plasticity term at neuron n. It pads the batch mean and the previous spikes to the 1048576 edge
  slots (a prefix overwrite of zeros), reads the delay buffer at (delay of slot e, e) for every slot, combines them
  slot by slot and keeps the first 8192 slots: at slot n < 8192 the pads are the mean and the spike themselves.
-/
import proofs.«405189_j65369402245526_2_alg».proof.Proof.Gen.ReferenceIdeal.Read
import proofs.«405189_j65369402245526_2_alg».proof.Proof.Spec
import proofs.«405189_j65369402245526_2_alg».proof.Proof.IndexScatter
import proofs.«405189_j65369402245526_2_alg».proof.Proof.IndexGather
import Idealize.ShloMosaic.Lib.Pipeline.Value
import Idealize.ShloMosaic.Lib.ValueIdx
import Idealize.ShloMosaic.Lib.DynamicIndex
import Idealize.ShloMosaic.PureOps.Ideal.Laws

set_option maxRecDepth 16384

noncomputable section

open scoped BigOperators

namespace Cert.RefStdp

open Cert.ReferenceIdeal Cert.ReferenceIdeal.Gen Cert.ReferenceIdeal.Read Idealize.ShloMosaic Idealize.ShloMosaic.ValueIdx

/-- A word that is not negative, read signed, is its own wrapped form. -/
theorem select_slt_nonneg (v a : BitVec 32) (h : 0 ≤ v.toInt) :
    Scalar.select (IntOp.cmpi .slt v 0#32) a v = v := by
  have hlt : v.slt 0#32 = false := by
    simp only [BitVec.slt, BitVec.toInt_zero, decide_eq_false_iff_not, Int.not_lt]; exact h
  show (if BitVec.ofBool (v.slt 0#32) = 1 then _ else _) = _
  rw [hlt]; rfl

/-- The previous spikes padded to the edge slots, at slot n < 8192, are the spike of neuron n. -/
theorem v12_at (x4 : S8192.Idx → EReal) (n : Fin 8192) :
    val_main_v12 (F := Ideal) x4 (ix1 (Spec.up n)) = x4 (ix1 n) := by
  unfold val_main_v12
  exact Cert.IndexScatter.scatter_prefix scatter_S1048576_S1_S8192_0_n_0_0 rfl rfl rfl rfl (by decide)
    (val_main_v10 (F := Ideal)) (val_main_v11 (F := Ideal)) (by rw [val_main_v11_apply]; rfl) x4 n

/-- The batch mean padded to the edge slots, at slot n < 8192, is the mean at neuron n. -/
theorem v9_at (x0 : S32x8192.Idx → EReal) (n : Fin 8192) :
    val_main_v9 (F := Ideal) x0 (ix1 (Spec.up n)) = val_main_v7 (F := Ideal) x0 (ix1 n) := by
  unfold val_main_v9
  exact Cert.IndexScatter.scatter_prefix scatter_S1048576_S1_S8192_0_n_0_0 rfl rfl rfl rfl (by decide)
    (val_main_v4 (F := Ideal)) (val_main_v8 (F := Ideal)) (by rw [val_main_v8_apply]; rfl) (val_main_v7 (F := Ideal) x0) n

/-- The reference's batch mean is the specification's. -/
theorem v7_at (x0 : S32x8192.Idx → EReal) (n : Fin 8192) :
    val_main_v7 (F := Ideal) x0 (ix1 n) = Spec.xmean x0 n := by
  rw [val_main_v7_apply, val_main_v5_apply, val_main_v6_apply]
  unfold Spec.xmean
  simp only [Ideal.hostDivf_def, val_main_cst_0_apply, val_main_cst_1_apply, Ideal.ofBits_def]
  refine congrArg (fun s => Ideal.div (_ + s) _) (Finset.sum_congr rfl fun k _ => ?_)
  exact congrArg x0 (funext fun a => by match a with | ⟨0, _⟩ => rfl | ⟨1, _⟩ => rfl)

/-- Column 0 of the gather's index pairs is the wrapped delay word. -/
theorem v26_left (x9 : S1048576.Idx → BitVec 32) (e : Fin 1048576) :
    val_main_v26 (F := Ideal) x9 (ix2 e 0) = val_main_v18 (F := Ideal) x9 (ix1 e) := by
  unfold val_main_v26
  rw [concatenate_pair_apply_left (t := S1048576x2) (s₁ := S1048576x1) (s₂ := S1048576x1) (1 : Fin 2)
    (val_main_v24 (F := Ideal) x9) (val_main_v25 (F := Ideal))
    concatenates_S1048576x1_S1048576x1_S1048576x2_d1 (ix2 e (0 : Fin 2)) rfl (ix2 e (0 : Fin 1))
    (fun b => by match b with | ⟨0, _⟩ => rfl | ⟨1, _⟩ => rfl)]
  rw [val_main_v24_apply]
  exact congrArg _ (funext fun a => by match a with | ⟨0, _⟩ => rfl)

/-- Column 1 of the gather's index pairs is the wrapped slot number. -/
theorem v26_right (x9 : S1048576.Idx → BitVec 32) (e : Fin 1048576) :
    val_main_v26 (F := Ideal) x9 (ix2 e 1) = val_main_v23 (F := Ideal) (ix1 e) := by
  unfold val_main_v26
  rw [concatenate_pair_apply_right (t := S1048576x2) (s₁ := S1048576x1) (s₂ := S1048576x1) (1 : Fin 2)
    (val_main_v24 (F := Ideal) x9) (val_main_v25 (F := Ideal))
    concatenates_S1048576x1_S1048576x1_S1048576x2_d1 (ix2 e (1 : Fin 2)) rfl rfl (ix2 e (0 : Fin 1))
    (fun b hb => by match b with | ⟨0, _⟩ => rfl | ⟨1, _⟩ => exact absurd rfl hb) rfl]
  rw [val_main_v25_apply]
  exact congrArg _ (funext fun a => by match a with | ⟨0, _⟩ => rfl)

/-- The wrapped delay word of slot e, read signed, is the delay itself. -/
theorem v18_toInt (x9 : S1048576.Idx → BitVec 32) (dlF : Fin 1048576 → Fin 16)
    (hdl : ∀ e : Fin 1048576, (x9 (ix1 e)).toInt = ((dlF e).val : ℤ)) (e : Fin 1048576) :
    (val_main_v18 (F := Ideal) x9 (ix1 e)).toInt = ((dlF e).val : ℤ) := by
  rw [val_main_v18_apply, val_main_v15_apply, val_main_v14_apply, val_main_c_4_apply,
    select_slt_nonneg _ _ (by rw [hdl e]; omega)]
  exact hdl e

/-- The wrapped slot number of slot e, read signed, is e. -/
theorem v23_toInt (e : Fin 1048576) :
    (val_main_v23 (F := Ideal) (ix1 e)).toInt = (e.val : ℤ) := by
  have he : (BitVec.ofNat 32 e.val).toInt = (e.val : ℤ) := toInt_ofNat_of_lt (by have := e.isLt; omega)
  rw [val_main_v23_apply, val_main_v20_apply, val_main_v19_apply, val_main_c_6_apply, val_main_v13_apply]
  show (Scalar.select (IntOp.cmpi .slt (BitVec.ofNat 32 e.val) 0#32) _ (BitVec.ofNat 32 e.val)).toInt = _
  rw [select_slt_nonneg _ _ (by rw [he]; omega)]
  exact he

/-- The gather reads the delay buffer at (delay of slot e, e). -/
theorem v27_at (x3 : S16x1048576.Idx → EReal) (x9 : S1048576.Idx → BitVec 32) (dlF : Fin 1048576 → Fin 16)
    (hdl : ∀ e : Fin 1048576, (x9 (ix1 e)).toInt = ((dlF e).val : ℤ)) (e : Fin 1048576) :
    val_main_v27 (F := Ideal) x3 x9 (ix1 e) = x3 (ix2 (dlF e) e) := by
  unfold val_main_v27
  rw [Cert.IndexGather.gather_pt2 gather_S16x1048576_S1048576x2_S1048576_n_01_n_n_01_1_11 rfl rfl rfl rfl rfl rfl rfl
    x3 (val_main_v26 (F := Ideal) x9) e (by decide) (by decide)]
  have e0 : min (val_main_v26 (F := Ideal) x9 (ix2 e 0)).toInt.toNat (16 - 1) = (dlF e).val := by
    rw [v26_left, v18_toInt x9 dlF hdl e]; have := (dlF e).isLt; omega
  have e1 : min (val_main_v26 (F := Ideal) x9 (ix2 e 1)).toInt.toNat (1048576 - 1) = e.val := by
    rw [v26_right, v23_toInt e]; have := e.isLt; omega
  exact congrArg x3 (funext fun a => by match a with | ⟨0, _⟩ => exact Fin.ext e0 | ⟨1, _⟩ => exact Fin.ext e1)

/-- The reference's plasticity term (its buffer %35) at neuron n, when every delay word names a row. -/
theorem stdp_at (x0 : S32x8192.Idx → EReal) (x3 : S16x1048576.Idx → EReal) (x4 : S8192.Idx → EReal) (x9 : S1048576.Idx → BitVec 32)
    (dlF : Fin 1048576 → Fin 16) (hdl : ∀ e : Fin 1048576, (x9 (ix1 e)).toInt = ((dlF e).val : ℤ)) (n : Fin 8192) :
    Read.val_main_v35 (F := Ideal) x0 x3 x4 x9 (ix1 n) = Spec.stdp x0 x3 x4 dlF n := by
  have hidx : idx_main_v35 (ix1 n) = ix1 (Spec.up n) := funext fun a => by match a with | ⟨0, _⟩ => rfl
  rw [val_main_v35_apply, hidx, val_main_v34_apply, val_main_v30_apply, val_main_v33_apply, val_main_v29_apply,
    val_main_v32_apply, val_main_v28_apply, val_main_v31_apply, val_main_cst_8_apply, val_main_cst_9_apply,
    v12_at, v9_at, v7_at, v27_at x3 x9 dlF hdl]
  unfold Spec.stdp Spec.delayed
  simp only [Ideal.subf_def, Ideal.mulf_def, Ideal.ofBits_def]

end Cert.RefStdp

end
-- ==== Proof.RefSyn.lean ====
/-
  The reference's gated synaptic drive at (b, k): it gathers x[b, source of e] for every edge e, multiplies by the
  edge's weight, adds each product into column (destination of e) of a zero array, and multiplies by the gate.
-/
import proofs.«405189_j65369402245526_2_alg».proof.Proof.Gen.ReferenceIdeal.Read
import proofs.«405189_j65369402245526_2_alg».proof.Proof.Spec
import proofs.«405189_j65369402245526_2_alg».proof.Proof.IndexScatter
import proofs.«405189_j65369402245526_2_alg».proof.Proof.IndexGather
import proofs.«405189_j65369402245526_2_alg».proof.Proof.LibSegmentSum
import Idealize.ShloMosaic.Lib.Pipeline.Value
import Idealize.ShloMosaic.Lib.ValueIdx
import Idealize.ShloMosaic.Lib.Affine
import Idealize.ShloMosaic.PureOps.Ideal.Laws

set_option maxRecDepth 16384

noncomputable section

open scoped BigOperators

namespace Cert.RefSyn

open Cert.ReferenceIdeal Cert.ReferenceIdeal.Gen Cert.ReferenceIdeal.Read Idealize.ShloMosaic Idealize.ShloMosaic.ValueIdx

/-! ## Index words -/

/-- A word that is not negative, read signed, is its own wrap: the test "below zero" fails, so the word is kept. -/
theorem wrapW_of_nonneg (N v : BitVec 32) (h : 0 ≤ v.toInt) : Spec.wrapW N v = v := by
  unfold Spec.wrapW
  have hc : ¬ IntOp.cmpi .slt v 0#32 = 1#1 := by
    intro hh
    have hlt := IntOp.cmpi_slt.mp hh
    rw [BitVec.toInt_zero] at hlt
    omega
  exact if_neg hc

/-- Row 0 of the edge table (the source words), flattened, at edge e. -/
theorem v1_at (x8 : S2x1048576.Idx → BitVec 32) (e : Fin 1048576) :
    Read.val_main_v1 (F := Ideal) x8 (ix1 e) = x8 (ix2 0 e) := by
  rw [val_main_v1_apply, val_main_v0_apply]
  congr 1
  funext a
  match a with
  | ⟨0, _⟩ => rfl
  | ⟨1, _⟩ => exact Fin.ext (Nat.mod_eq_of_lt e.isLt)

/-- Row 1 of the edge table (the destination words), flattened, at edge e. -/
theorem v3_at (x8 : S2x1048576.Idx → BitVec 32) (e : Fin 1048576) :
    Read.val_main_v3 (F := Ideal) x8 (ix1 e) = x8 (ix2 1 e) := by
  rw [val_main_v3_apply, val_main_v2_apply]
  congr 1
  funext a
  match a with
  | ⟨0, _⟩ => rfl
  | ⟨1, _⟩ => exact Fin.ext (Nat.mod_eq_of_lt e.isLt)

/-- The source word of edge e after wrapping against the 8192 neurons. -/
theorem v40_at (x8 : S2x1048576.Idx → BitVec 32) (e : Fin 1048576) :
    Read.val_main_v40 (F := Ideal) x8 (ix1 e) = Spec.wrapW 8192#32 (x8 (ix2 0 e)) := by
  rw [val_main_v40_apply, val_main_v37_apply, val_main_v39_apply, val_main_v36_apply, val_main_v38_apply,
    val_main_c_10_apply, val_main_c_11_apply, v1_at]
  rfl

/-- The same word as the one column of the gather's index array. -/
theorem v41_at (x8 : S2x1048576.Idx → BitVec 32) (e : Fin 1048576) :
    Read.val_main_v41 (F := Ideal) x8 (ix2 e 0) = Spec.wrapW 8192#32 (x8 (ix2 0 e)) := by
  rw [val_main_v41_apply, ← v40_at]
  congr 1
  funext a
  match a with
  | ⟨0, _⟩ => rfl

/-- The destination word of edge e after wrapping against the 8192 neurons. -/
theorem v51_at (x8 : S2x1048576.Idx → BitVec 32) (e : Fin 1048576) :
    Read.val_main_v51 (F := Ideal) x8 (ix1 e) = Spec.wrapW 8192#32 (x8 (ix2 1 e)) := by
  rw [val_main_v51_apply, val_main_v48_apply, val_main_v50_apply, val_main_v47_apply, val_main_v49_apply,
    val_main_c_13_apply, val_main_c_14_apply, v3_at]
  rfl

/-- The same word as the one column of the scatter's index array. -/
theorem v52_at (x8 : S2x1048576.Idx → BitVec 32) (e : Fin 1048576) :
    Read.val_main_v52 (F := Ideal) x8 (ix2 e 0) = Spec.wrapW 8192#32 (x8 (ix2 1 e)) := by
  rw [val_main_v52_apply, ← v51_at]
  congr 1
  funext a
  match a with
  | ⟨0, _⟩ => rfl

/-! ## The gathered currents, the products, the zero array and the gate -/

/-- The gather reads x at (b, source of e): a source word naming a neuron is its own wrap and its own clamp. -/
theorem v42_at (x0 : S32x8192.Idx → EReal) (x8 : S2x1048576.Idx → BitVec 32) (srcF : Fin 1048576 → Fin 8192)
    (hsrc : ∀ e : Fin 1048576, (x8 (ix2 0 e)).toInt = ((srcF e).val : ℤ)) (b : Fin 32) (e : Fin 1048576) :
    Read.val_main_v42 (F := Ideal) x0 x8 (ix2 b e) = x0 (ix2 b (srcF e)) := by
  have h0 : 0 ≤ (x8 (ix2 0 e)).toInt := by rw [hsrc]; exact Int.natCast_nonneg _
  have hN : (x8 (ix2 0 e)).toInt < ((8192 : Nat) : ℤ) := by rw [hsrc]; exact_mod_cast (srcF e).isLt
  have hw : Read.val_main_v41 (F := Ideal) x8 (ix2 e 0) = x8 (ix2 0 e) := by
    rw [v41_at, wrapW_of_nonneg _ _ h0]
  unfold Read.val_main_v42
  rw [Cert.IndexGather.gather_cols gather_S32x8192_S1048576x1_S32x1048576_0_1_n_n_1_1_321 rfl rfl rfl rfl rfl rfl rfl
    x0 (Read.val_main_v41 (F := Ideal) x8) b e (by decide)]
  congr 1
  funext a
  match a with
  | ⟨0, _⟩ => rfl
  | ⟨1, _⟩ =>
    apply Fin.ext
    show min (Read.val_main_v41 (F := Ideal) x8 (ix2 e 0)).toInt.toNat (8192 - 1) = (srcF e).val
    rw [hw, Cert.LibSegmentSum.clamp_of_inRange _ h0 hN, hsrc, Int.toNat_natCast]

/-- The weights broadcast along the batch axis, at (b, e). -/
theorem v44_at (x1 : S1048576.Idx → EReal) (b : Fin 32) (e : Fin 1048576) :
    Read.val_main_v44 (F := Ideal) x1 (ix2 b e) = x1 (ix1 e) := by
  rw [val_main_v44_apply, val_main_v43_apply]
  congr 1
  funext a
  match a with
  | ⟨0, _⟩ => rfl

/-- The product an edge contributes in batch row b. -/
theorem v45_at (x0 : S32x8192.Idx → EReal) (x1 : S1048576.Idx → EReal) (x8 : S2x1048576.Idx → BitVec 32)
    (srcF : Fin 1048576 → Fin 8192) (hsrc : ∀ e : Fin 1048576, (x8 (ix2 0 e)).toInt = ((srcF e).val : ℤ))
    (b : Fin 32) (e : Fin 1048576) :
    Read.val_main_v45 (F := Ideal) x0 x1 x8 (ix2 b e) = x0 (ix2 b (srcF e)) * x1 (ix1 e) := by
  rw [val_main_v45_apply, v42_at x0 x8 srcF hsrc, v44_at]
  rfl

/-- The array the products are added into holds the zero word everywhere. -/
theorem v46_at (b : Fin 32) (k : Fin 8192) : Read.val_main_v46 (F := Ideal) (ix2 b k) = Spec.cZero := by
  rw [val_main_v46_apply, val_main_cst_12_apply]
  rfl

/-- The gate, a single number, broadcast to every (b, k). -/
theorem v55_at (x7 : S1.Idx → EReal) (b : Fin 32) (k : Fin 8192) :
    Read.val_main_v55 (F := Ideal) x7 (ix2 b k) = x7 (ix1 0) := by
  rw [val_main_v55_apply, val_main_v54_apply]
  congr 1
  funext a
  match a with
  | ⟨0, _⟩ => rfl

/-- The reference's gated drive (its buffer %56) at (b, k), when every source word names a neuron. -/
theorem syn_at (x0 : S32x8192.Idx → EReal) (x1 : S1048576.Idx → EReal) (x7 : S1.Idx → EReal) (x8 : S2x1048576.Idx → BitVec 32)
    (srcF : Fin 1048576 → Fin 8192) (hsrc : ∀ e : Fin 1048576, (x8 (ix2 0 e)).toInt = ((srcF e).val : ℤ)) (b : Fin 32) (k : Fin 8192) :
    Read.val_main_v56 (F := Ideal) x0 x1 x7 x8 (ix2 b k)
      = Spec.synEdge x0 x1 srcF (fun e => (Spec.wrapW 8192#32 (x8 (ix2 1 e))).toInt) b k * x7 (ix1 0) := by
  rw [val_main_v56_apply, v55_at]
  unfold Read.val_main_v53
  -- the scatter-add at (b, k): the zero word plus the products of the edges whose wrapped destination word is k
  rw [Cert.IndexScatter.scatterAdd_cols scatter_S32x8192_S1048576x1_S32x1048576_0_1_1_1 rfl rfl rfl rfl
    (Read.val_main_v46 (F := Ideal)) (Read.val_main_v52 (F := Ideal) x8) (Read.val_main_v45 (F := Ideal) x0 x1 x8) b k,
    v46_at]
  unfold Spec.synEdge
  show (_ + _) * _ = (_ + _) * _
  refine congrArg (fun t : EReal => (Spec.cZero + t) * x7 (ix1 0)) ?_
  exact Finset.sum_congr (Finset.filter_congr (fun e _ => by rw [v52_at])) (fun e _ => v45_at x0 x1 x8 srcF hsrc b e)

end Cert.RefSyn

end
-- ==== Proof.RefValue.lean ====
/-
  The reference's result at (b, n): the gated drive through the transposed dense matrix, plus a tenth of the
  plasticity term, masked, leaked into the membrane, the group inhibition and then 1 + θ subtracted, times the
  slope, through 1 / (1 + e^(−z)).
-/
import proofs.«405189_j65369402245526_2_alg».proof.Proof.Gen.ReferenceIdeal.Read
import proofs.«405189_j65369402245526_2_alg».proof.Proof.Spec
import proofs.«405189_j65369402245526_2_alg».proof.Proof.IndexScatter
import proofs.«405189_j65369402245526_2_alg».proof.Proof.IndexGather
import Idealize.ShloMosaic.Lib.Pipeline.Value
import Idealize.ShloMosaic.Lib.ValueIdx
import Idealize.ShloMosaic.PureOps.Ideal.Laws
import proofs.«405189_j65369402245526_2_alg».proof.Proof.RefStdp
import proofs.«405189_j65369402245526_2_alg».proof.Proof.RefSyn

set_option maxRecDepth 16384

noncomputable section

open scoped BigOperators

namespace Cert.RefValue

open Cert.ReferenceIdeal Cert.ReferenceIdeal.Gen Cert.ReferenceIdeal.Read Idealize.ShloMosaic Idealize.ShloMosaic.ValueIdx

/-- The reference's group sums (its buffer %69) at group g: the zero word plus the 128 spikes of the group. -/
theorem gsum_at (x4 : S8192.Idx → EReal) (g : Fin 64) :
    Read.val_main_v69 (F := Ideal) x4 (ix1 g) = Spec.gsum x4 g := by
  rw [val_main_v69_apply, val_main_cst_16_apply]
  simp only [val_main_v68_apply]
  unfold Spec.gsum
  rw [Ideal.ofBits_def]
  refine congrArg (_ + ·) (Finset.sum_congr rfl fun j _ => congrArg x4 ?_)
  funext a; match a with | ⟨0, _⟩ => rfl

/-- The reference's inhibition (its buffer %74) at neuron n: slot n of the regrouped array lies in group n / 128. -/
theorem inh_at (x4 : S8192.Idx → EReal) (n : Fin 8192) :
    Read.val_main_v74 (F := Ideal) x4 (ix1 n) = Spec.inh x4 n := by
  rw [val_main_v74_apply, val_main_v73_apply, val_main_cst_17_apply, val_main_v72_apply, val_main_v71_apply,
    val_main_v70_apply]
  have e : idx_main_v70 (idx_main_v71 (ix1 n)) = ix1 (Spec.groupOf n) :=
    funext fun a => match a with | ⟨0, _⟩ => rfl
  rw [e, gsum_at]
  rfl

/-- The reference's dense product (its buffer %58) at (b, n): the gated drive contracted with row n of the matrix,
    the transpose read back at (n, k). -/
theorem isyn_at (x0 : S32x8192.Idx → EReal) (x1 : S1048576.Idx → EReal) (x2 : S8192x8192.Idx → EReal)
    (x7 : S1.Idx → EReal) (x8 : S2x1048576.Idx → BitVec 32) (srcF : Fin 1048576 → Fin 8192)
    (hsrc : ∀ e : Fin 1048576, (x8 (ix2 0 e)).toInt = ((srcF e).val : ℤ)) (b : Fin 32) (n : Fin 8192) :
    Read.val_main_v58 (F := Ideal) x0 x1 x2 x7 x8 (ix2 b n)
      = Spec.isyn x2 x7 (Spec.synEdge x0 x1 srcF (fun e => (Spec.wrapW 8192#32 (x8 (ix2 1 e))).toInt)) b n := by
  rw [val_main_v58_apply]
  unfold Spec.isyn
  refine Finset.sum_congr rfl fun k _ => ?_
  have el : lidx_main_v58 (ix2 b n) k = ix2 b k :=
    funext fun a => match a with | ⟨0, _⟩ => rfl | ⟨1, _⟩ => rfl
  have er : idx_main_v57 (ridx_main_v58 (ix2 b n) k) = ix2 n k :=
    funext fun a => match a with | ⟨0, _⟩ => rfl | ⟨1, _⟩ => rfl
  rw [val_main_v57_apply, el, er, RefSyn.syn_at x0 x1 x7 x8 srcF hsrc]

/-- The reference's leaked membrane plus the modulated, masked current (its buffer %77) at (b, n). -/
theorem act_at (x0 : S32x8192.Idx → EReal) (x1 : S1048576.Idx → EReal) (x2 : S8192x8192.Idx → EReal) (x3 : S16x1048576.Idx → EReal)
    (x4 : S8192.Idx → EReal) (x5 : S32x8192.Idx → EReal) (x7 : S1.Idx → EReal)
    (x8 : S2x1048576.Idx → BitVec 32) (x9 : S1048576.Idx → BitVec 32) (x10 : S8192.Idx → BitVec 32)
    (srcF : Fin 1048576 → Fin 8192) (dlF : Fin 1048576 → Fin 16)
    (hsrc : ∀ e : Fin 1048576, (x8 (ix2 0 e)).toInt = ((srcF e).val : ℤ))
    (hdl : ∀ e : Fin 1048576, (x9 (ix1 e)).toInt = ((dlF e).val : ℤ)) (b : Fin 32) (n : Fin 8192) :
    Read.val_main_v77 (F := Ideal) x0 x1 x2 x3 x4 x5 x7 x8 x9 x10 (ix2 b n)
      = Spec.act x0 x5 x2 x3 x4 x7 x10 dlF (Spec.synEdge x0 x1 srcF (fun e => (Spec.wrapW 8192#32 (x8 (ix2 1 e))).toInt)) b n := by
  rw [val_main_v77_apply, val_main_v76_apply, val_main_v75_apply, val_main_cst_18_apply, val_main_v67_apply,
    val_main_v66_apply, val_main_v65_apply, val_main_v64_apply, val_main_v63_apply, val_main_v62_apply,
    val_main_v61_apply, val_main_v60_apply, val_main_cst_15_apply, val_main_v59_apply,
    isyn_at x0 x1 x2 x7 x8 srcF hsrc]
  have e1 : idx_main_v59 (idx_main_v62 (ix2 b n)) = ix1 n :=
    funext fun a => match a with | ⟨0, _⟩ => rfl
  have e2 : idx_main_v65 (idx_main_v66 (ix2 b n)) = ix1 n :=
    funext fun a => match a with | ⟨0, _⟩ => rfl
  rw [e1, e2, RefStdp.stdp_at x0 x3 x4 x9 dlF hdl]
  rfl

/-- The reference's result (its buffer %93) at (b, n). -/
theorem result_at (x0 : S32x8192.Idx → EReal) (x1 : S1048576.Idx → EReal) (x2 : S8192x8192.Idx → EReal) (x3 : S16x1048576.Idx → EReal)
    (x4 : S8192.Idx → EReal) (x5 : S32x8192.Idx → EReal) (x6 : S8192.Idx → EReal) (x7 : S1.Idx → EReal)
    (x8 : S2x1048576.Idx → BitVec 32) (x9 : S1048576.Idx → BitVec 32) (x10 : S8192.Idx → BitVec 32)
    (srcF : Fin 1048576 → Fin 8192) (dlF : Fin 1048576 → Fin 16)
    (hsrc : ∀ e : Fin 1048576, (x8 (ix2 0 e)).toInt = ((srcF e).val : ℤ))
    (hdl : ∀ e : Fin 1048576, (x9 (ix1 e)).toInt = ((dlF e).val : ℤ)) (b : Fin 32) (n : Fin 8192) :
    Read.val_main_v93 (F := Ideal) x0 x1 x2 x3 x4 x5 x6 x7 x8 x9 x10 (ix2 b n)
      = Spec.outR x0 x5 x1 x2 x3 x4 x6 x7 x10 srcF dlF (fun e => (Spec.wrapW 8192#32 (x8 (ix2 1 e))).toInt) b n := by
  rw [val_main_v93_apply, val_main_v92_apply, val_main_cst_22_apply, val_main_v91_apply, val_main_v90_apply,
    val_main_cst_21_apply, val_main_v89_apply, val_main_v88_apply, val_main_v87_apply, val_main_v86_apply,
    val_main_cst_20_apply, val_main_v85_apply, val_main_v84_apply, val_main_v83_apply, val_main_v82_apply,
    val_main_v81_apply, val_main_cst_19_apply, val_main_v80_apply, val_main_v79_apply, val_main_v78_apply,
    act_at x0 x1 x2 x3 x4 x5 x7 x8 x9 x10 srcF dlF hsrc hdl]
  -- both row broadcasts read slot n
  have e1 : idx_main_v83 (idx_main_v84 (ix2 b n)) = ix1 n :=
    funext fun a => match a with | ⟨0, _⟩ => rfl
  have e2 : idx_main_v78 (idx_main_v79 (ix2 b n)) = ix1 n :=
    funext fun a => match a with | ⟨0, _⟩ => rfl
  rw [e1, e2, inh_at]
  rfl

end Cert.RefValue

end
-- ==== Proof.PreDecode.lean ====
/-
  What the precondition says, entry by entry: every float input is a real number, every edge's source word names
  a neuron (read signed it lies in [0, 8192)), and every delay word names a row of the delay buffer (in [0, 16)).
-/
import proofs.«405189_j65369402245526_2_alg».proof.Pre_finite_inputs
import Idealize.ShloMosaic.PureOps.Ideal
import Idealize.ShloMosaic.Lib.ValueIdx
import Idealize.ShloMosaic.Lib.ReduceAll
import Idealize.ShloMosaic.Lib.StableHlo.Predicate
import Idealize.ShloMosaic.Lib.Pipeline.Value

set_option maxRecDepth 16384

noncomputable section

open scoped BigOperators

namespace Cert.PreDecode

open Idealize.ShloMosaic Idealize.ShloMosaic.ValueIdx
open Cert.Pre_finite_inputs

instance : Subsingleton S_.Idx := ⟨fun a b => funext fun d => d.elim0⟩

/-- The f32 word 0x7F800000 is +∞. -/
theorem inf_f32 : Ideal.ofBits .f32 0x7F800000#32 = (⊤ : EReal) := by simp [Ideal.ofBits, Ideal.ieee]

/-- On the extended reals |x| = max x (−x) is below +∞ only at a real: at −∞ and at +∞ it is +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One "all |x| < +∞" test that came out 1: every entry of x is a real. -/
theorem finite_all {s : Shape} {axes : List (Fin s.rank)} (x : s.Idx → EReal)
    (bc : S_.BroadcastsInDim s (![] : Fin 0 → Fin s.rank)) (hr : s.ReducesTo axes S_) (hu : 0 < S_.numel)
    (h : Host.reduce IntOp.andi (cmpf .olt (Host.absf (F := Ideal) (φ := .f32) x)
        (broadcastInDim s ![] bc (constant (F := Ideal) S_ .f32 0x7F800000#32))) (constantI S_ 1 1#1) hr hu ix0 = 1#1) :
    ∀ i, ∃ r : ℝ, x i = (r : EReal) := by
  intro i
  have hi := Host.reduce_andi_all _ _ hr hu ix0 h i
  apply real_of_abs_lt_top
  rw [← inf_f32]
  exact hi

/-- One "all (lo ≤ v and v < hi)" test, signed, that came out 1: every word of v lies in [lo, hi) read signed. -/
theorem range_all {s : Shape} {axes : List (Fin s.rank)} (v : IVec s 32) (lo hi : BitVec 32)
    (bc : S_.BroadcastsInDim s (![] : Fin 0 → Fin s.rank)) (hr : s.ReducesTo axes S_) (hu : 0 < S_.numel)
    (h : Host.reduce IntOp.andi (andi (cmpi .sge v (broadcastInDim s ![] bc (constantI S_ 32 lo)))
        (cmpi .slt v (broadcastInDim s ![] bc (constantI S_ 32 hi)))) (constantI S_ 1 1#1) hr hu ix0 = 1#1) (i : s.Idx) :
    lo.toInt ≤ (v i).toInt ∧ (v i).toInt < hi.toInt := by
  have hi := Host.reduce_andi_all _ _ hr hu ix0 h i
  obtain ⟨ha, hb⟩ := IntOp.andi_eq_one.1 hi
  exact ⟨IntOp.cmpi_sge.1 ha, IntOp.cmpi_slt.1 hb⟩

/-- Row 0 of the edge table, flattened, reads at e the table at (0, e): the slice keeps row 0 and the reshape keeps
    the row-major position. -/
theorem row0_apply (x8 : S2x1048576.Idx → BitVec 32) (hs : S2x1048576.Slices ![0, 0] S1x1048576)
    (hc : S1x1048576.ShapeCasts S1048576) (e : Fin 1048576) :
    shapeCast S1048576 (extractStridedSlice S1x1048576 ![0, 0] x8 hs) hc (ix1 e) = x8 (ix2 0 e) := by
  refine (shapeCast_apply _ hc (ix1 e) (ix2 (0 : Fin 1) e) ?_).trans ?_
  · rw [Shape.rowMajor_val_one, Shape.rowMajor_val_two]
    show (0 : Nat) * 1048576 + e.val = e.val
    omega
  · refine extractStridedSlice_apply _ x8 hs _ (ix2 (0 : Fin 2) e) fun a => ?_
    match a with
    | ⟨0, _⟩ => rfl
    | ⟨1, _⟩ => show e.val = 0 + e.val; omega

/-- The precondition, all ones, read entry by entry. -/
theorem decode [Cert.Pre_finite_inputs.Facts] (x0 : S32x8192.Idx → EReal) (x1 : S1048576.Idx → EReal) (x2 : S8192x8192.Idx → EReal) (x3 : S16x1048576.Idx → EReal)
    (x4 : S8192.Idx → EReal) (x5 : S32x8192.Idx → EReal) (x6 : S8192.Idx → EReal) (x7 : S1.Idx → EReal)
    (x8 : S2x1048576.Idx → BitVec 32) (x9 : S1048576.Idx → BitVec 32) (x10 : S8192.Idx → BitVec 32)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x2 i = (r : EReal))
    ∧ (∀ i, ∃ r : ℝ, x3 i = (r : EReal)) ∧ (∀ i, ∃ r : ℝ, x4 i = (r : EReal)) ∧ (∀ i, ∃ r : ℝ, x5 i = (r : EReal))
    ∧ (∀ i, ∃ r : ℝ, x6 i = (r : EReal)) ∧ (∀ i, ∃ r : ℝ, x7 i = (r : EReal))
    ∧ (∀ e : Fin 1048576, 0 ≤ (x8 (ix2 0 e)).toInt ∧ (x8 (ix2 0 e)).toInt < 8192)
    ∧ (∀ e : Fin 1048576, 0 ≤ (x9 (ix1 e)).toInt ∧ (x9 (ix1 e)).toInt < 16) := by
  -- the one entry of the scalar result, with the printed chain in view
  have h0 := congrFun h ix0
  dsimp only [fn, fn_part1, fn_part2, fn_part3] at h0
  -- the conjunction of ten tests, outermost first
  obtain ⟨h0, hd⟩ := IntOp.andi_eq_one.1 h0
  obtain ⟨h0, hs⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  refine ⟨finite_all x0 _ _ _ h0, finite_all x1 _ _ _ h1, finite_all x2 _ _ _ h2, finite_all x3 _ _ _ h3,
    finite_all x4 _ _ _ h4, finite_all x5 _ _ _ h5, finite_all x6 _ _ _ h6, finite_all x7 _ _ _ h7, fun e => ?_, fun e => ?_⟩
  · -- the source words: row 0 of the edge table, in [0, 8192)
    have hr := range_all _ 0#32 8192#32 _ _ _ hs (ix1 e)
    rw [row0_apply] at hr
    exact hr
  · -- the delay words, in [0, 16)
    exact range_all x9 0#32 16#32 _ _ _ hd (ix1 e)

end Cert.PreDecode

end
-- ==== Proof.Bridge.lean ====
/-
  The two arrangements agree on real inputs. Summing edge by edge at the destination, or first adding the weights
  of the edges from j to k into S[j, k] and then multiplying x by S, gives the same drive: for real numbers a product
  distributes over a finite sum, and the edges ending at k are split by their source. Subtracting (inhibition + 1) + θ
  at once or in two steps is the same real number. The logistic is 1 / (1 + e^(−z)) by definition.
-/
import proofs.«405189_j65369402245526_2_alg».proof.Proof.Spec
import Idealize.ShloMosaic.PureOps.Ideal
import Idealize.ShloMosaic.Lib.ValueIdx
import Idealize.ShloMosaic.Lib.IdealHost

set_option maxRecDepth 16384

noncomputable section

open scoped BigOperators

namespace Cert.Bridge

open Idealize.ShloMosaic Idealize.ShloMosaic.ValueIdx
open Cert.Spec

/-! ## Real sums -/

/-- A finite sum of coerced reals is the coerced real sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Over the reals: weighting each source j by a j and summing, over j, the edges from j that satisfy Q, is the
    sum over the edges satisfying Q of a (source) times the edge's term: each edge has exactly one source. -/
theorem real_sum_by_source {E J : Type*} [Fintype E] [Fintype J] [DecidableEq J]
    (R : J → E → Prop) [∀ j, DecidablePred (R j)] (Q : E → Prop) [DecidablePred Q] (src : E → J)
    (hR : ∀ j e, R j e ↔ (src e = j ∧ Q e)) (a : J → ℝ) (c : E → ℝ) :
    ∑ j, a j * ∑ e ∈ Finset.univ.filter (R j), c e = ∑ e ∈ Finset.univ.filter Q, a (src e) * c e := by
  simp_rw [Finset.mul_sum, Finset.sum_filter]
  rw [Finset.sum_comm]
  refine Finset.sum_congr rfl fun e _ => ?_
  simp_rw [hR]
  by_cases hq : Q e
  · simp [hq, Finset.sum_ite_eq]
  · simp [hq]

/-! ## Extended reals that are real numbers -/

/-- An extended real that is a (coerced) real number. -/
def IsReal (a : EReal) : Prop := ∃ r : ℝ, a = (r : EReal)

theorem IsReal.coe (r : ℝ) : IsReal (r : EReal) := ⟨r, rfl⟩
theorem IsReal.zero : IsReal 0 := ⟨0, EReal.coe_zero.symm⟩
theorem IsReal.one : IsReal 1 := ⟨1, EReal.coe_one.symm⟩
theorem IsReal.add {a b : EReal} (ha : IsReal a) (hb : IsReal b) : IsReal (a + b) := by
  obtain ⟨r, rfl⟩ := ha; obtain ⟨s, rfl⟩ := hb; exact ⟨r + s, (EReal.coe_add r s).symm⟩
theorem IsReal.mul {a b : EReal} (ha : IsReal a) (hb : IsReal b) : IsReal (a * b) := by
  obtain ⟨r, rfl⟩ := ha; obtain ⟨s, rfl⟩ := hb; exact ⟨r * s, (EReal.coe_mul r s).symm⟩
theorem IsReal.sub {a b : EReal} (ha : IsReal a) (hb : IsReal b) : IsReal (a - b) := by
  obtain ⟨r, rfl⟩ := ha; obtain ⟨s, rfl⟩ := hb; exact ⟨r - s, (EReal.coe_sub r s).symm⟩
theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))
/-- Division by a real that is not zero keeps a real number real. -/
theorem IsReal.div_coe {a : EReal} (ha : IsReal a) {y : ℝ} (hy : y ≠ 0) : IsReal (Ideal.div a (y : EReal)) := by
  rw [Ideal.div_coe hy]; exact ha.mul (IsReal.coe _)

/-- An f32 word whose exponent field is not all ones denotes a real number. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact IsReal.coe _

theorem isReal_cZero : IsReal cZero := isReal_ofBits_f32 _ (by decide)
theorem isReal_cPlus : IsReal cPlus := isReal_ofBits_f32 _ (by decide)
theorem isReal_cMinus : IsReal cMinus := isReal_ofBits_f32 _ (by decide)
theorem isReal_cHalf : IsReal cHalf := isReal_ofBits_f32 _ (by decide)
theorem isReal_cOne : IsReal cOne := isReal_ofBits_f32 _ (by decide)
theorem isReal_cTenth : IsReal cTenth := isReal_ofBits_f32 _ (by decide)
theorem isReal_cLeak : IsReal cLeak := isReal_ofBits_f32 _ (by decide)
theorem isReal_cSlope : IsReal cSlope := isReal_ofBits_f32 _ (by decide)

/-- The word 0x42000000 is the real 32. -/
theorem cBatch_eq : cBatch = ((32 : ℝ) : EReal) := by
  simp [cBatch, Ideal.ofBits, Ideal.ieee, -EReal.coe_mul]; norm_num

/-! ## The two arrangements of the drive -/

/-- The product of x with the edge-weight matrix is the edge-by-edge sum at the destination, on real inputs. -/
theorem synMat_eq_synEdge (x : SBN.Idx → EReal) (w : SE.Idx → EReal)
    (srcF : Fin 1048576 → Fin 8192) (dstI : Fin 1048576 → ℤ)
    (hx : ∀ i, ∃ r : ℝ, x i = (r : EReal)) (hw : ∀ i, ∃ r : ℝ, w i = (r : EReal)) (b : Fin 32) (k : Fin 8192) :
    synMat x w srcF dstI b k = synEdge x w srcF dstI b k := by
  choose xr hxr using hx
  choose wr hwr using hw
  unfold synMat synEdge S
  simp only [cZero, Ideal.ofBits_zero_f32, zero_add, hxr, hwr]
  -- every term is a coerced real: push the coercion to the outside
  simp only [coe_finset_sum, ← EReal.coe_mul]
  -- equal integer casts of two neuron numbers mean the same neuron
  have hR : ∀ (j : Fin 8192) (e : Fin 1048576),
      (((srcF e).val : ℤ) = (j.val : ℤ) ∧ dstI e = (k.val : ℤ)) ↔ (srcF e = j ∧ dstI e = (k.val : ℤ)) := by
    intro j e
    rw [Nat.cast_inj, Fin.val_inj]
  refine congrArg Real.toEReal ?_
  exact real_sum_by_source
    (fun (j : Fin 8192) (e : Fin 1048576) => ((srcF e).val : ℤ) = (j.val : ℤ) ∧ dstI e = (k.val : ℤ))
    (fun e => dstI e = (k.val : ℤ)) srcF hR (fun j => xr (ix2 b j)) (fun e => wr (ix1 e))

/-! ## The threshold subtracted at once or in two steps -/

theorem sub_once_eq_twice {a i c t : EReal} (ha : IsReal a) (hi : IsReal i) (hc : IsReal c) (ht : IsReal t) :
    a - ((i + c) + t) = (a - i) - (c + t) := by
  obtain ⟨a, rfl⟩ := ha; obtain ⟨i, rfl⟩ := hi; obtain ⟨c, rfl⟩ := hc; obtain ⟨t, rfl⟩ := ht
  simp only [← EReal.coe_add, ← EReal.coe_sub]
  congr 1; ring

/-! ## Every intermediate number is real -/

section
variable (x mem : SBN.Idx → EReal) (Wm : SNN.Idx → EReal) (db : SDE.Idx → EReal)
  (ps : SN.Idx → EReal) (gs : SOne.Idx → EReal) (nm : IVec SN 32) (dlF : Fin 1048576 → Fin 16)
  (syn : Fin 32 → Fin 8192 → EReal)
  (hx : ∀ i, IsReal (x i)) (hmem : ∀ i, IsReal (mem i)) (hWm : ∀ i, IsReal (Wm i)) (hdb : ∀ i, IsReal (db i))
  (hps : ∀ i, IsReal (ps i)) (hgs : ∀ i, IsReal (gs i)) (hsyn : ∀ b k, IsReal (syn b k))
include hx in
theorem isReal_xmean (n : Fin 8192) : IsReal (xmean x n) := by
  unfold xmean; rw [cBatch_eq]
  exact (isReal_cZero.add (IsReal.sum _ _ fun b _ => hx _)).div_coe (by norm_num)

include hx hdb hps in
theorem isReal_stdp (n : Fin 8192) : IsReal (stdp x db ps dlF n) := by
  unfold stdp delayed
  exact ((isReal_cPlus.mul (hdb _)).mul (hps _)).sub ((isReal_cMinus.mul (isReal_xmean x hx n)).mul (hps _))

include hps in
theorem isReal_inh (n : Fin 8192) : IsReal (inh ps n) := by
  unfold inh gsum
  exact isReal_cHalf.mul ((isReal_cZero.add (IsReal.sum _ _ fun j _ => hps _)).sub (hps _))

include hWm hgs hsyn in
theorem isReal_isyn (b : Fin 32) (n : Fin 8192) : IsReal (isyn Wm gs syn b n) := by
  unfold isyn
  exact IsReal.sum _ _ fun k _ => ((hsyn b k).mul (hgs _)).mul (hWm _)

include hx hmem hWm hdb hps hgs hsyn in
theorem isReal_act (b : Fin 32) (n : Fin 8192) : IsReal (act x mem Wm db ps gs nm dlF syn b n) := by
  unfold act maskf
  exact (isReal_cLeak.mul (hmem _)).add
    (((isReal_isyn Wm gs syn hWm hgs hsyn b n).add (isReal_cTenth.mul (isReal_stdp x db ps dlF hx hdb hps n))).mul
      (IsReal.coe _))
end

/-- The edge-by-edge drive is a real number on real inputs. -/
theorem isReal_synEdge (x : SBN.Idx → EReal) (w : SE.Idx → EReal)
    (srcF : Fin 1048576 → Fin 8192) (dstI : Fin 1048576 → ℤ)
    (hx : ∀ i, IsReal (x i)) (hw : ∀ i, IsReal (w i)) (b : Fin 32) (k : Fin 8192) :
    IsReal (synEdge x w srcF dstI b k) := by
  unfold synEdge
  exact isReal_cZero.add (IsReal.sum _ _ fun e _ => (hx _).mul (hw _))

/-- On real inputs the kernel's arrangement and the reference's give the same number at every (b, n). -/
theorem out_eq (x mem : SBN.Idx → EReal) (w : SE.Idx → EReal) (Wm : SNN.Idx → EReal) (db : SDE.Idx → EReal)
    (ps th : SN.Idx → EReal) (gs : SOne.Idx → EReal) (nm : IVec SN 32)
    (srcF : Fin 1048576 → Fin 8192) (dlF : Fin 1048576 → Fin 16) (dstI : Fin 1048576 → ℤ)
    (hx : ∀ i, ∃ r : ℝ, x i = (r : EReal)) (hmem : ∀ i, ∃ r : ℝ, mem i = (r : EReal)) (hw : ∀ i, ∃ r : ℝ, w i = (r : EReal))
    (hWm : ∀ i, ∃ r : ℝ, Wm i = (r : EReal)) (hdb : ∀ i, ∃ r : ℝ, db i = (r : EReal)) (hps : ∀ i, ∃ r : ℝ, ps i = (r : EReal))
    (hth : ∀ i, ∃ r : ℝ, th i = (r : EReal)) (hgs : ∀ i, ∃ r : ℝ, gs i = (r : EReal))
    (b : Fin 32) (n : Fin 8192) :
    outK x mem w Wm db ps th gs nm srcF dlF dstI b n = outR x mem w Wm db ps th gs nm srcF dlF dstI b n := by
  -- the two drives are one function, and it is real
  have hsyn : synMat x w srcF dstI = synEdge x w srcF dstI := by
    funext b k; exact synMat_eq_synEdge x w srcF dstI hx hw b k
  have hsynR : ∀ b k, IsReal (synEdge x w srcF dstI b k) := isReal_synEdge x w srcF dstI hx hw
  -- the logistic's argument is the same real number either way
  have hz : zOnce x mem Wm db ps th gs nm dlF (synEdge x w srcF dstI) b n
      = zTwice x mem Wm db ps th gs nm dlF (synEdge x w srcF dstI) b n := by
    unfold zOnce zTwice
    rw [sub_once_eq_twice (isReal_act x mem Wm db ps gs nm dlF _ hx hmem hWm hdb hps hgs hsynR b n)
      (isReal_inh ps hps n) isReal_cOne (hth _)]
  unfold outK outR
  rw [hsyn, hz, Ideal.logistic, show cOne = (1 : EReal) from Ideal.ofBits_one_f32]

end Cert.Bridge

end
-- ==== Proof.lean ====
/-
  The certificate of one step of a spiking layer: the kernel's program against its plain reference, on the extended reals.

  Both programs compute, at (batch row b, neuron n), the logistic of a slope times
  (leak · membrane + (drive through a dense matrix + a tenth of the plasticity term) · mask − inhibition − 1 − θ).
  They differ in two arrangements. The synaptic drive of neuron k is the sum over the edges ENDING at k of
  x[b, source] · weight: the reference sums edge by edge; the kernel first adds the weights of the edges from j to k
  into a matrix entry S[j, k] and multiplies x by S in a first matrix-product region. A product distributes over a
  finite sum of real numbers, so the two agree when every input is finite and every source word names a neuron (an
  out-of-range source is clamped by the one program and dropped by the other: the precondition says it is in range;
  likewise each delay word names a row of the delay buffer). The threshold is subtracted as (inhibition + 1) + θ in
  the kernel's second region and in two steps in the reference: the same real number.

  The frames are the generated ones (the reference's is its generated run with the result dropped). The kernel's run is
  the generated launch called once more with the result buffer named (KernelRun); the result array is then read through the
  two regions' blocks and the host operations around them (KernelValue and the modules under it), the reference's through
  its operations one at a time (RefValue), the precondition entry by entry (PreDecode), and the two arrangements are
  joined on the reals (Bridge).
-/
import proofs.«405189_j65369402245526_2_alg».proof.Defs
import proofs.«405189_j65369402245526_2_alg».proof.Proof.Gen.Kernel
import proofs.«405189_j65369402245526_2_alg».proof.Proof.Gen.Kernel.Frame
import proofs.«405189_j65369402245526_2_alg».proof.Proof.Gen.KernelIdeal
import proofs.«405189_j65369402245526_2_alg».proof.Proof.Gen.KernelIdeal.Frame
import proofs.«405189_j65369402245526_2_alg».proof.Proof.Gen.ReferenceIdeal
import proofs.«405189_j65369402245526_2_alg».proof.Proof.Gen.ReferenceIdeal.Run
import proofs.«405189_j65369402245526_2_alg».proof.Proof.Gen.ReferenceIdeal.Read
import proofs.«405189_j65369402245526_2_alg».proof.Proof.Gen.Pre_finite_inputs
import proofs.«405189_j65369402245526_2_alg».proof.Proof.KernelRun
import proofs.«405189_j65369402245526_2_alg».proof.Proof.KernelValue
import proofs.«405189_j65369402245526_2_alg».proof.Proof.RefValue
import proofs.«405189_j65369402245526_2_alg».proof.Proof.PreDecode
import proofs.«405189_j65369402245526_2_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- A word that read signed lies in [0, N) names the position it spells. -/
theorem word_eq_fin {N : Nat} (v : BitVec 32) (h0 : 0 ≤ v.toInt) (hN : v.toInt < (N : ℤ)) :
    v.toInt = (((⟨v.toInt.toNat, by omega⟩ : Fin N)).val : ℤ) := by
  show v.toInt = ((v.toInt.toNat : ℕ) : ℤ)
  omega

theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the same array: entry (b, n) of the kernel's is the specification's kernel arrangement, of
    the reference's its reference arrangement, and on the precondition's inputs the two are one number. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.W6 (F := Ideal) m ρ c (Proc.devRef .tc Cert.KernelIdeal.main_v52),
    Cert.KernelIdeal.ValueRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v93_eq]
  obtain ⟨g0, g1, g2, g3, g4, g5, g6, g7, g8, g9, g10⟩ := hagree c
  rw [g0, g1, g2, g3, g4, g5, g6, g7, g8, g9, g10]
  -- the precondition, entry by entry
  obtain ⟨f0, f1, f2, f3, f4, f5, f6, f7, hsrc, hdl⟩ := Cert.PreDecode.decode _ _ _ _ _ _ _ _ _ _ _ (hpre c)
  have hsrc : ∀ e : Fin 1048576, 0 ≤ (Cert.KernelIdeal.KV.a8 m c (ix2 0 e)).toInt ∧ (Cert.KernelIdeal.KV.a8 m c (ix2 0 e)).toInt < 8192 := hsrc
  have hdl : ∀ e : Fin 1048576, 0 ≤ (Cert.KernelIdeal.KV.a9 m c (ix1 e)).toInt ∧ (Cert.KernelIdeal.KV.a9 m c (ix1 e)).toInt < 16 := hdl
  funext i
  obtain ⟨b, n, rfl⟩ : ∃ (b : Fin 32) (n : Fin 8192), i = ix2 b n := ⟨i 0, i 1, eq_ix2 i⟩
  -- each edge's source neuron and each slot's delay row, as positions
  let srcF : Fin 1048576 → Fin 8192 := fun e =>
    ⟨(Cert.KernelIdeal.KV.a8 m c (ix2 0 e)).toInt.toNat, by obtain ⟨h1, h2⟩ := hsrc e; omega⟩
  let dlF : Fin 1048576 → Fin 16 := fun e =>
    ⟨(Cert.KernelIdeal.KV.a9 m c (ix1 e)).toInt.toNat, by obtain ⟨h1, h2⟩ := hdl e; omega⟩
  have hsrc' : ∀ e : Fin 1048576, (Cert.KernelIdeal.KV.a8 m c (ix2 0 e)).toInt = ((srcF e).val : ℤ) :=
    fun e => word_eq_fin _ (hsrc e).1 (hsrc e).2
  have hdl' : ∀ e : Fin 1048576, (Cert.KernelIdeal.KV.a9 m c (ix1 e)).toInt = ((dlF e).val : ℤ) :=
    fun e => word_eq_fin _ (hdl e).1 (hdl e).2
  refine (Cert.RefValue.result_at _ _ _ _ _ _ _ _ _ _ _ srcF dlF hsrc' hdl' b n).trans ?_
  refine ((Cert.Bridge.out_eq _ _ _ _ _ _ _ _ _ srcF dlF _ f0 f5 f1 f2 f3 f4 f6 f7 b n).symm).trans ?_
  exact (Cert.KernelIdeal.Value.result_at m ρ c srcF dlF hsrc' hdl' b n).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
